-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S_ : Shape := ⟨0, ![]⟩
abbrev S1x640000 : Shape := ⟨2, ![1, 640000]⟩
abbrev S640000 : Shape := ⟨1, ![640000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part5 {F : FTy → Type} [FloatOps F] (main_v78 : IVec S_ 1) (main_v82 : IVec S640000 1) (main_v84 : IVec S640000 32) (main_v85 : IVec S640000 32) : IVec S_ 1 :=
  let main_v86 : IVec S640000 1 := cmpi .slt main_v84 main_v85
  let main_v87 : IVec S640000 1 := andi main_v82 main_v86
  let main_c_32 : IVec S_ 1 := constantI S_ 1 1#1
  let main_v88 : IVec S_ 1 := (fun x v => Host.reduce IntOp.andi x v reducesTo_S640000_S_d0 h_S_) main_v87 main_c_32
  let main_v89 : IVec S_ 1 := andi main_v78 main_v88
  main_v89

def fn_part4 {F : FTy → Type} [FloatOps F] (main_arg1 : IVec S2x640000 32) (main_arg15 : FVec F S128x40 .f32) (main_arg16 : FVec F S40 .f32) (main_v63 : IVec S_ 1) (main_v67 : IVec S_ 1) : IVec S_ 1 :=
  let main_v68 : IVec S_ 1 := andi main_v63 main_v67
  let main_v69 : FVec F S128x40 .f32 := Host.absf main_arg15
  let main_cst_26 : FVec F S_ .f32 := constant S_ .f32 0x7F800000#32
  let main_v70 : FVec F S128x40 .f32 := broadcastInDim S128x40 ![] bcast_S_S128x40 main_cst_26
  let main_v71 : IVec S128x40 1 := cmpf .olt main_v69 main_v70
  let main_c_27 : IVec S_ 1 := constantI S_ 1 1#1
  let main_v72 : IVec S_ 1 := (fun x v => Host.reduce IntOp.andi x v reducesTo_S128x40_S_d0_1 h_S_) main_v71 main_c_27
  let main_v73 : IVec S_ 1 := andi main_v68 main_v72
  let main_v74 : FVec F S40 .f32 := Host.absf main_arg16
  let main_cst_28 : FVec F S_ .f32 := constant S_ .f32 0x7F800000#32
  let main_v75 : FVec F S40 .f32 := broadcastInDim S40 ![] bcast_S_S40 main_cst_28
  let main_v76 : IVec S40 1 := cmpf .olt main_v74 main_v75
  let main_c_29 : IVec S_ 1 := constantI S_ 1 1#1
  let main_v77 : IVec S_ 1 := (fun x v => Host.reduce IntOp.andi x v reducesTo_S40_S_d0 h_S_) main_v76 main_c_29
  let main_v78 : IVec S_ 1 := andi main_v73 main_v77
  let main_v79 : IVec S1x640000 32 := (extractStridedSlice S1x640000 ![0, 0] · slices_S2x640000_S1x640000_0_0) main_arg1
  let main_v80 : IVec S640000 32 := shapeCast S640000 main_v79 shapeCasts_S1x640000_S640000
  let main_c_30 : IVec S_ 32 := constantI S_ 32 4294917296#32
  let main_v81 : IVec S640000 32 := broadcastInDim S640000 ![] bcast_S_S640000 main_c_30
  let main_v82 : IVec S640000 1 := cmpi .sge main_v80 main_v81
  let main_v83 : IVec S1x640000 32 := (extractStridedSlice S1x640000 ![0, 0] · slices_S2x640000_S1x640000_0_0) main_arg1
  let main_v84 : IVec S640000 32 := shapeCast S640000 main_v83 shapeCasts_S1x640000_S640000
  let main_c_31 : IVec S_ 32 := constantI S_ 32 50000#32
  let main_v85 : IVec S640000 32 := broadcastInDim S640000 ![] bcast_S_S640000 main_c_31
  fn_part5 (F := F) main_v78 main_v82 main_v84 main_v85

def fn_part3 {F : FTy → Type} [FloatOps F] (main_arg1 : IVec S2x640000 32) (main_arg12 : FVec F S2x128 .f32) (main_arg13 : FVec F S128x128 .f32) (main_arg14 : FVec F S128 .f32) (main_arg15 : FVec F S128x40 .f32) (main_arg16 : FVec F S40 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg12
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x640000 32) (main_arg8 : FVec F S2x128x128 .f32) (main_arg9 : FVec F S2x128 .f32) (main_arg10 : FVec F S2x128x128 .f32) (main_arg11 : FVec F S2x128 .f32) (main_arg12 : FVec F S2x128 .f32) (main_arg13 : FVec F S128x128 .f32) (main_arg14 : FVec F S128 .f32) (main_arg15 : FVec F S128x40 .f32) (main_arg16 : FVec F S40 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128x128 .f32 := Host.absf main_arg10
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg1 main_arg12 main_arg13 main_arg14 main_arg15 main_arg16 main_v48 main_v49 main_v50

def fn_part1 {F : FTy → Type} [FloatOps F] (main_arg1 : IVec S2x640000 32) (main_arg5 : FVec F S128 .f32) (main_arg6 : FVec F S128 .f32) (main_arg7 : FVec F S128 .f32) (main_arg8 : FVec F S2x128x128 .f32) (main_arg9 : FVec F S2x128 .f32) (main_arg10 : FVec F S2x128x128 .f32) (main_arg11 : FVec F S2x128 .f32) (main_arg12 : FVec F S2x128 .f32) (main_arg13 : FVec F S128x128 .f32) (main_arg14 : FVec F S128 .f32) (main_arg15 : FVec F S128x40 .f32) (main_arg16 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S2x128x128 .f32) (main_arg9 : FVec F S2x128 .f32) (main_arg10 : FVec F S2x128x128 .f32) (main_arg11 : FVec F S2x128 .f32) (main_arg12 : FVec F S2x128 .f32) (main_arg13 : FVec F S128x128 .f32) (main_arg14 : FVec F S128 .f32) (main_arg15 : FVec F S128x40 .f32) (main_arg16 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S640000x128 : Shape := ⟨2, ![640000, 128]⟩
abbrev S1x128x128 : Shape := ⟨3, ![1, 128, 128]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 131
  | .vmem => 44
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S2x128x128, .f32⟩
  | 9 => ⟨S2x128, .f32⟩
  | 10 => ⟨S2x128x128, .f32⟩
  | 11 => ⟨S2x128, .f32⟩
  | 12 => ⟨S2x128, .f32⟩
  | 13 => ⟨S128x128, .f32⟩
  | 14 => ⟨S128, .f32⟩
  | 15 => ⟨S128x40, .f32⟩
  | 16 => ⟨S40, .f32⟩
  | 17 => ⟨S1x640000, .i32⟩
  | 18 => ⟨S640000, .i32⟩
  | 19 => ⟨S1x640000, .i32⟩
  | 20 => ⟨S640000, .i32⟩
  | 21 => ⟨S_, .f32⟩
  | 22 => ⟨S640000, .f32⟩
  | 23 => ⟨S_, .f32⟩
  | 24 => ⟨S50000, .f32⟩
  | 25 => ⟨S640000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S50000x1, .f32⟩
  | 41 => ⟨S1x128, .f32⟩
  | 42 => ⟨S1x128, .f32⟩
  | 43 => ⟨S1x128, .f32⟩
  | 44 => ⟨S1x128, .f32⟩
  | 45 => ⟨S50000x128, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S1, .i32⟩
  | 55 => ⟨S_, .i32⟩
  | 56 => ⟨S640000x1, .i32⟩
  | 57 => ⟨S640000x1, .i1⟩
  | 58 => ⟨S1x1, .i32⟩
  | 59 => ⟨S640000x1, .i32⟩
  | 60 => ⟨S640000x1, .i1⟩
  | 61 => ⟨S640000x1, .i1⟩
  | 62 => ⟨S_, .i1⟩
  | 63 => ⟨S640000, .i1⟩
  | 64 => ⟨S640000x128, .f32⟩
  | 65 => ⟨S640000x128, .i1⟩
  | 66 => ⟨S_, .f32⟩
  | 67 => ⟨S640000x128, .f32⟩
  | 68 => ⟨S640000x128, .f32⟩
  | 69 => ⟨S_, .f32⟩
  | 70 => ⟨S50000x128, .f32⟩
  | 71 => ⟨S640000x1, .i32⟩
  | 72 => ⟨S50000x128, .f32⟩
  | 73 => ⟨S1x128x128, .f32⟩
  | 74 => ⟨S128x128, .f32⟩
  | 75 => ⟨S1x128, .f32⟩
  | 76 => ⟨S128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S1x128, .f32⟩
  | 85 => ⟨S1x128, .f32⟩
  | 86 => ⟨S50000x128, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S1, .i32⟩
  | 96 => ⟨S_, .i32⟩
  | 97 => ⟨S640000x1, .i32⟩
  | 98 => ⟨S640000x1, .i1⟩
  | 99 => ⟨S1x1, .i32⟩
  | 100 => ⟨S640000x1, .i32⟩
  | 101 => ⟨S640000x1, .i1⟩
  | 102 => ⟨S640000x1, .i1⟩
  | 103 => ⟨S_, .i1⟩
  | 104 => ⟨S640000, .i1⟩
  | 105 => ⟨S640000x128, .f32⟩
  | 106 => ⟨S640000x128, .i1⟩
  | 107 => ⟨S_, .f32⟩
  | 108 => ⟨S640000x128, .f32⟩
  | 109 => ⟨S640000x128, .f32⟩
  | 110 => ⟨S_, .f32⟩
  | 111 => ⟨S50000x128, .f32⟩
  | 112 => ⟨S640000x1, .i32⟩
  | 113 => ⟨S50000x128, .f32⟩
  | 114 => ⟨S1x128x128, .f32⟩
  | 115 => ⟨S128x128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S50000x128, .f32⟩
  | _ => ⟨S50000x128, .f32⟩

abbrev hbmTy0_1 (i : Nat) : BufTy := match i % 128 with
  | 0 => ⟨S1x128, .f32⟩
  | 1 => ⟨S1x40, .f32⟩
  | 2 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S128x40, .f32⟩
  | .local _ .vmem, ⟨41, _⟩ => ⟨S1x40, .f32⟩
  | .local _ .vmem, ⟨42, _⟩ => ⟨S2000x40, .f32⟩
  | .local _ .vmem, ⟨43, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v21 : Ref sig .tc := ⟨.hbm, 68, rfl⟩
abbrev main_cst_5 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v39 : Ref sig .tc := ⟨.hbm, 109, rfl⟩
abbrev main_cst_6 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S640000x1_S640000_n_0_0_1_wf : ScatterDims.WF S50000 S640000x1 S640000 [] [0] [0] 1
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x40.size a ≤ S50000x40.size a
  hwx3_5 : ∀ i : grid3.Coords, EltTy.bits .f32 = 32 ∨ (Rect.block (s := S50000x40) S2000x40.size (cc3_transform_5 i) (hinb3_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S2000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x128 : Shape := ⟨2, ![1, 128]⟩
abbrev S640000x128 : Shape := ⟨2, ![640000, 128]⟩
abbrev S1x128x128 : Shape := ⟨3, ![1, 128, 128]⟩
abbrev S50000x40 : Shape := ⟨2, ![50000, 40]⟩
abbrev S1x40 : Shape := ⟨2, ![1, 40]⟩

abbrev nBuf : Space → Nat
  | .hbm => 220
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S2x128x128, .f32⟩
  | 9 => ⟨S2x128, .f32⟩
  | 10 => ⟨S2x128x128, .f32⟩
  | 11 => ⟨S2x128, .f32⟩
  | 12 => ⟨S2x128, .f32⟩
  | 13 => ⟨S128x128, .f32⟩
  | 14 => ⟨S128, .f32⟩
  | 15 => ⟨S128x40, .f32⟩
  | 16 => ⟨S40, .f32⟩
  | 17 => ⟨S1x640000, .i32⟩
  | 18 => ⟨S640000, .i32⟩
  | 19 => ⟨S1x640000, .i32⟩
  | 20 => ⟨S640000, .i32⟩
  | 21 => ⟨S_, .f32⟩
  | 22 => ⟨S640000, .f32⟩
  | 23 => ⟨S_, .f32⟩
  | 24 => ⟨S50000, .f32⟩
  | 25 => ⟨S640000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x128, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S_, .f32⟩
  | 70 => ⟨S50000x1, .f32⟩
  | 71 => ⟨S50000x1, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x128, .f32⟩
  | 90 => ⟨S_, .f32⟩
  | 91 => ⟨S50000x128, .f32⟩
  | 92 => ⟨S640000x1, .i32⟩
  | 93 => ⟨S50000x128, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S1x128, .f32⟩
  | 113 => ⟨S128, .f32⟩
  | 114 => ⟨S1x128, .f32⟩
  | 115 => ⟨S128, .f32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S50000x128, .f32⟩
  | 123 => ⟨S50000x128, .f32⟩
  | 124 => ⟨S50000x128, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S_, .f32⟩
  | 6 => ⟨S50000x1, .f32⟩
  | 7 => ⟨S50000x1, .f32⟩
  | 8 => ⟨S50000x1, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000x128, .f32⟩
  | 26 => ⟨S_, .f32⟩
  | 27 => ⟨S50000x128, .f32⟩
  | 28 => ⟨S640000x1, .i32⟩
  | 29 => ⟨S50000x128, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x128, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S_, .f32⟩
  | 70 => ⟨S50000x1, .f32⟩
  | 71 => ⟨S50000x1, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x40, .f32⟩
  | 89 => ⟨S1x40, .f32⟩
  | 90 => ⟨S50000x40, .f32⟩
  | 91 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_cst : Ref sig .tc := ⟨.hbm, 45, rfl⟩
abbrev main_call1_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_v33 : Ref sig .tc := ⟨.hbm, 63, rfl⟩
abbrev main_cst_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_9 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call2_cst : Ref sig .tc := ⟨.hbm, 108, rfl⟩
abbrev main_call2_v0 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_12 : Ref sig .tc := ⟨.hbm, 116, rfl⟩
abbrev main_v79 : Ref sig .tc := ⟨.hbm, 117, rfl⟩
abbrev main_v80 : Ref sig .tc := ⟨.hbm, 118, rfl⟩
abbrev main_cst_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_16 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_17 : Ref sig .tc := ⟨.hbm, 145, rfl⟩
abbrev main_v103 : Ref sig .tc := ⟨.hbm, 146, rfl⟩
abbrev main_v104 : Ref sig .tc := ⟨.hbm, 147, rfl⟩
abbrev main_c_18 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_19 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_call3_cst : Ref sig .tc := ⟨.hbm, 172, rfl⟩
abbrev main_call3_v0 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_20 : Ref sig .tc := ⟨.hbm, 180, rfl⟩
abbrev main_v133 : Ref sig .tc := ⟨.hbm, 181, rfl⟩
abbrev main_v134 : Ref sig .tc := ⟨.hbm, 182, rfl⟩
abbrev main_cst_21 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_22 : Ref sig .tc := ⟨.hbm, 189, rfl⟩
abbrev main_v140 : Ref sig .tc := ⟨.hbm, 190, rfl⟩
abbrev main_v141 : Ref sig .tc := ⟨.hbm, 191, rfl⟩
abbrev main_cst_23 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_24 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_call4_cst : Ref sig .tc := ⟨.hbm, 213, rfl⟩
abbrev main_call4_v0 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x40_S50000x40_1_0_0_1_n_n_wf : DotDims.WF S50000x128 S128x40 S50000x40 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  The mathematics of the three dense stages, one node (one row of 128 features) at a time, on the extended reals.

  * `projRow`  : x ↦ LayerNorm (relu (x·W₁ + b₁)·W₂ + b₂; g, β)
  * `sageRow`  : (msg, inv, h) ↦ LayerNorm (h + relu ((msg·inv)·Wl + bl + h·Wr); g, β)
  * `clsRow`   : h ↦ relu (h·W₁ + b₁)·W₂ + b₂

  LayerNorm of a row v is (v − μ)·rsqrt(σ² + ε)·g + β with μ = (Σ v)/128 and σ² = (Σ (v − μ)²)/128; the divisor 128
  and ε are kept as the binary words both programs print. Every stage acts on a [R, 128] array row by row, so a row
  block of the stage's result is the stage of the same row block of its row-wise inputs.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A node's 128 features. -/
abbrev Row := Fin 128 → EReal

/-- The divisor 128.0 and LayerNorm's ε, as the f32 words both programs carry. -/
def c128 : EReal := Ideal.ofBits .f32 0x43000000#32
def eps : EReal := Ideal.ofBits .f32 0x3727C5AC#32

/-- A row times a [128, n] matrix, at column j. -/
def dotRow {n : Nat} (x : Row) (w : Fin 128 → Fin n → EReal) (j : Fin n) : EReal := ∑ k : Fin 128, x k * w k j

/-- A linear layer on a row. -/
def lin {n : Nat} (x : Row) (w : Fin 128 → Fin n → EReal) (b : Fin n → EReal) : Fin n → EReal :=
  fun j => dotRow x w j + b j

def relu (v : EReal) : EReal := max v 0

/-- The mean of a row: its sum over 128. -/
def mean (v : Row) : EReal := Ideal.div (∑ j : Fin 128, v j) c128

/-- LayerNorm of one row. -/
def layerNorm (v g β : Row) : Row := fun j =>
  (v j - mean v) * Ideal.rsqrt (mean (fun k => (v k - mean v) * (v k - mean v)) + eps) * g j + β j

/-- The input projection followed by LayerNorm, on one row. -/
def projRow (x : Row) (w1 : Fin 128 → Fin 128 → EReal) (b1 : Row) (w2 : Fin 128 → Fin 128 → EReal) (b2 g β : Row) : Row :=
  layerNorm (lin (fun k => relu (lin x w1 b1 k)) w2 b2) g β

/-- One SAGE layer on one node: its summed messages, its inverse in-degree, its own features. -/
def sageRow (msg : Row) (inv : EReal) (h : Row) (wl : Fin 128 → Fin 128 → EReal) (bl : Row)
    (wr : Fin 128 → Fin 128 → EReal) (g β : Row) : Row :=
  layerNorm (fun j => h j + relu (dotRow (fun k => msg k * inv) wl j + bl j + dotRow h wr j)) g β

/-- The classifier on one row. -/
def clsRow (h : Row) (w1 : Fin 128 → Fin 128 → EReal) (b1 : Row) (w2 : Fin 128 → Fin 40 → EReal) (b2 : Fin 40 → EReal) :
    Fin 40 → EReal :=
  lin (fun k => relu (lin h w1 b1 k)) w2 b2

/-! ## Arrays as functions of coordinates, and back -/

/-- A rank-2 array read at (i, j). -/
def mat2 {p q : Nat} (a : (⟨2, ![p, q]⟩ : Shape).Idx → EReal) : Fin p → Fin q → EReal := fun i j => a (ix2 i j)
/-- A rank-1 array read at j. -/
def vec1 {n : Nat} (a : (⟨1, ![n]⟩ : Shape).Idx → EReal) : Fin n → EReal := fun j => a (ix1 j)
/-- The array of a function of two coordinates. -/
def arr2 {p q : Nat} (f : Fin p → Fin q → EReal) : (⟨2, ![p, q]⟩ : Shape).Idx → EReal := fun i => f (i 0) (i 1)

/-- A rank-1 array laid out as the single row of a [1, n] array. -/
def row1 {n : Nat} (b : (⟨1, ![n]⟩ : Shape).Idx → EReal) : (⟨2, ![1, n]⟩ : Shape).Idx → EReal := fun i => b (ix1 (i 1))
theorem mat2_row1 {n : Nat} (b : (⟨1, ![n]⟩ : Shape).Idx → EReal) : mat2 (row1 b) 0 = vec1 b := rfl

theorem arr2_ix2 {p q : Nat} (f : Fin p → Fin q → EReal) (i : Fin p) (j : Fin q) : arr2 f (ix2 i j) = f i j := rfl
theorem mat2_arr2 {p q : Nat} (f : Fin p → Fin q → EReal) : mat2 (arr2 f) = f := rfl
theorem arr2_mat2 {p q : Nat} (a : (⟨2, ![p, q]⟩ : Shape).Idx → EReal) : arr2 (mat2 a) = a := by
  funext i; exact congrArg a (eq_ix2 i).symm

/-! ## The stages on whole arrays: row r of the result is the row function of row r of the row-wise inputs -/

/-- Projection + LayerNorm of an [R, 128] array; the biases and LayerNorm's parameters as [1, 128] arrays (row 0). -/
def projA {R : Nat} (x : (⟨2, ![R, 128]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 g β : (⟨2, ![1, 128]⟩ : Shape).Idx → EReal) : (⟨2, ![R, 128]⟩ : Shape).Idx → EReal :=
  arr2 fun r => projRow (mat2 x r) (mat2 w1) (mat2 b1 0) (mat2 w2) (mat2 b2 0) (mat2 g 0) (mat2 β 0)

/-- One SAGE layer on [R, 128] arrays: summed messages, the [R, 1] inverse in-degrees, the features. -/
def sageA {R : Nat} (msg : (⟨2, ![R, 128]⟩ : Shape).Idx → EReal) (inv : (⟨2, ![R, 1]⟩ : Shape).Idx → EReal)
    (h : (⟨2, ![R, 128]⟩ : Shape).Idx → EReal) (wl : (⟨2, ![128, 128]⟩ : Shape).Idx → EReal)
    (bl : (⟨2, ![1, 128]⟩ : Shape).Idx → EReal) (wr : (⟨2, ![128, 128]⟩ : Shape).Idx → EReal)
    (g β : (⟨2, ![1, 128]⟩ : Shape).Idx → EReal) : (⟨2, ![R, 128]⟩ : Shape).Idx → EReal :=
  arr2 fun r => sageRow (mat2 msg r) (mat2 inv r 0) (mat2 h r) (mat2 wl) (mat2 bl 0) (mat2 wr) (mat2 g 0) (mat2 β 0)

/-- The classifier on an [R, 128] array. -/
def clsA {R : Nat} (h : (⟨2, ![R, 128]⟩ : Shape).Idx → EReal) (w1 : (⟨2, ![128, 128]⟩ : Shape).Idx → EReal)
    (b1 : (⟨2, ![1, 128]⟩ : Shape).Idx → EReal) (w2 : (⟨2, ![128, 40]⟩ : Shape).Idx → EReal)
    (b2 : (⟨2, ![1, 40]⟩ : Shape).Idx → EReal) : (⟨2, ![R, 40]⟩ : Shape).Idx → EReal :=
  arr2 fun r => clsRow (mat2 h r) (mat2 w1) (mat2 b1 0) (mat2 w2) (mat2 b2 0)

end Cert.Spec

end
-- ==== Proof.Layout.lean ====
/-
  A [n] vector reshaped to [1, n] is the vector laid out as the single row of a [1, n] array.
-/
import proofs.«404725_j721554505999_1_alg».proof.Proof.Spec
import Idealize.ShloMosaic.Lib.Pipeline.Value
import Idealize.ShloMosaic.Lib.ValueIdx

noncomputable section

namespace Cert.Spec

open Idealize.ShloMosaic Idealize.ShloMosaic.ValueIdx

theorem shapeCast_row1 {n : Nat} (b : (⟨1, ![n]⟩ : Shape).Idx → EReal)
    (h : (⟨1, ![n]⟩ : Shape).ShapeCasts ⟨2, ![1, n]⟩) :
    shapeCast ⟨2, ![1, n]⟩ b h = row1 b := by
  funext j
  refine (shapeCast_addUnit_apply (n := 1) ![n] b h j).trans ?_
  unfold row1
  exact congrArg b (funext fun a => by match a with | ⟨0, _⟩ => rfl)

end Cert.Spec

end
-- ==== Proof.Mask.lean ====
/-
  The gather of node features along the message sources. The kernel's `jnp.take` normalises a source id
  (a negative id counts from the end), tests the normalised id against [0, 49999], gathers, and replaces the
  gathered row by a fill value where the test fails. When every source id lies in [-50000, 50000) the normalised id
  lies in [0, 50000), the test passes on every edge, and the result is the plain gather.
  The precondition states exactly that range of the source row of `edge_index`.
-/
import proofs.«404725_j721554505999_1_alg».proof.Proof.Gen.KernelIdeal.Frame
import proofs.«404725_j721554505999_1_alg».proof.Defs
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

namespace Cert.KernelIdeal.Mask

open Idealize.ShloMosaic Idealize.ShloMosaic.ValueIdx Idealize.SL.Sem Cert.KernelIdeal Cert.KernelIdeal.Gen

/-- Every source id, as a signed 32-bit word, is at least -50000 (the word 4294917296) and below 50000. -/
def InRange (src : IVec S640000 32) : Prop :=
  ∀ i : S640000.Idx, IntOp.cmpi .sge (src i) 4294917296#32 = 1#1 ∧ IntOp.cmpi .slt (src i) 50000#32 = 1#1

/-- The normalised start indices the kernel's take gathers at: `where(src < 0, src + 50000, src)` as a [640000, 1] array. -/
abbrev startIdx (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

/-- The take's in-bounds test per edge, broadcast over the 128 features. -/
abbrev inBounds (src : IVec S640000 32) : IVec S640000x128 1 :=
  broadcastInDim S640000x128 ![0] bcast_S640000_S640000x128_0
    ((fun x v => Host.reduce IntOp.andi x v reducesTo_S640000x1_S640000_d1 h_S_)
      (andi (cmpi .sge (startIdx src) (broadcastInDim S640000x1 ![] bcast_S_S640000x1 (constantI S_ 32 0#32)))
        (cmpi .sle (startIdx src) (broadcastInDim S640000x1 ![0, 1] bcast_S1x1_S640000x1_0_1
          (broadcastInDim S1x1 ![1] bcast_S1_S1x1_1 (constantI S1 32 49999#32)))))
      (constantI S_ 1 1#1))

/-! ## Signed 32-bit words near zero -/

theorem toInt_neg50000 : (4294917296#32 : BitVec 32).toInt = -50000 := by decide
theorem toInt_50000 : (50000#32 : BitVec 32).toInt = 50000 := by decide
theorem toInt_49999 : (49999#32 : BitVec 32).toInt = 49999 := by decide
theorem toInt_zero : (0#32 : BitVec 32).toInt = 0 := by decide

/-- A signed word s with -50000 ≤ s < 50000, normalised as `if s < 0 then s + 50000 else s`, lies in [0, 49999]:
    a negative s gains 50000 without wrapping (the sum stays within the signed range), a non-negative s is kept. -/
theorem norm_inBounds (s : BitVec 32) (h1 : IntOp.cmpi .sge s 4294917296#32 = 1#1) (h2 : IntOp.cmpi .slt s 50000#32 = 1#1) :
    IntOp.cmpi .sge (Scalar.select (IntOp.cmpi .slt s 0#32) (IntOp.addi s 50000#32) s) 0#32 = 1#1 ∧
    IntOp.cmpi .sle (Scalar.select (IntOp.cmpi .slt s 0#32) (IntOp.addi s 50000#32) s) 49999#32 = 1#1 := by
  simp only [IntOp.cmpi, StableHlo.Predicate.ofBool_eq_one_iff, BitVec.sle, BitVec.slt, decide_eq_true_eq, toInt_neg50000,
    toInt_50000] at h1 h2
  by_cases hneg : s.toInt < 0
  · have hc : IntOp.cmpi .slt s 0#32 = 1#1 := by
      simp only [IntOp.cmpi, StableHlo.Predicate.ofBool_eq_one_iff, BitVec.slt, decide_eq_true_eq, toInt_zero]; exact hneg
    have hadd : (IntOp.addi s 50000#32).toInt = s.toInt + 50000 := by
      simp only [IntOp.addi, BitVec.toInt_add, toInt_50000]
      exact Int.bmod_eq_of_le (by omega) (by omega)
    rw [show Scalar.select (IntOp.cmpi .slt s 0#32) (IntOp.addi s 50000#32) s = IntOp.addi s 50000#32 from if_pos hc]
    simp only [IntOp.cmpi, StableHlo.Predicate.ofBool_eq_one_iff, BitVec.sle, decide_eq_true_eq, toInt_zero, toInt_49999, hadd]
    omega
  · have hc : IntOp.cmpi .slt s 0#32 ≠ 1#1 := by
      simp only [IntOp.cmpi, ne_eq, StableHlo.Predicate.ofBool_eq_one_iff, BitVec.slt, decide_eq_true_eq, toInt_zero]; exact hneg
    rw [show Scalar.select (IntOp.cmpi .slt s 0#32) (IntOp.addi s 50000#32) s = s from if_neg hc]
    simp only [IntOp.cmpi, StableHlo.Predicate.ofBool_eq_one_iff, BitVec.sle, decide_eq_true_eq, toInt_zero, toInt_49999]
    omega

/-- A left fold by `and` from 1 over bits that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- The normalised start index at a position is the normalisation of the source id the broadcast reads there. -/
theorem startIdx_apply (src : IVec S640000 32) (n : S640000x1.Idx) :
    ∃ k : S640000.Idx, startIdx src n
      = Scalar.select (IntOp.cmpi .slt (src k) 0#32) (IntOp.addi (src k) 50000#32) (src k) :=
  ⟨_, rfl⟩

/-- In range, the two bound tests on the normalised index both pass at every position. -/
theorem tests_eq_one (src : IVec S640000 32) (hsrc : InRange src) (n : S640000x1.Idx) :
    andi (cmpi .sge (startIdx src) (broadcastInDim S640000x1 ![] bcast_S_S640000x1 (constantI S_ 32 0#32)))
      (cmpi .sle (startIdx src) (broadcastInDim S640000x1 ![0, 1] bcast_S1x1_S640000x1_0_1
        (broadcastInDim S1x1 ![1] bcast_S1_S1x1_1 (constantI S1 32 49999#32)))) n = 1#1 := by
  obtain ⟨k, hk⟩ := startIdx_apply src n
  have hw := norm_inBounds (src k) (hsrc k).1 (hsrc k).2
  rw [← hk] at hw
  exact IntOp.andi_eq_one.2 hw

/-- In range, the in-bounds test passes everywhere: the reduction by `and` over the unit axis starts at 1 and meets only 1s. -/
theorem inBounds_eq_one (src : IVec S640000 32) (hsrc : InRange src) (i : S640000x128.Idx) : inBounds src i = 1#1 := by
  have hred : ∀ k : S640000.Idx,
      Host.reduce IntOp.andi
        (andi (cmpi .sge (startIdx src) (broadcastInDim S640000x1 ![] bcast_S_S640000x1 (constantI S_ 32 0#32)))
          (cmpi .sle (startIdx src) (broadcastInDim S640000x1 ![0, 1] bcast_S1x1_S640000x1_0_1
            (broadcastInDim S1x1 ![1] bcast_S1_S1x1_1 (constantI S1 32 49999#32)))))
        (constantI S_ 1 1#1) reducesTo_S640000x1_S640000_d1 h_S_ k = 1#1 := by
    intro k
    rw [Host.reduce_eq_foldl]
    exact foldl_andi_one _ _ fun n _ => tests_eq_one src hsrc n
  exact hred _

/-- In range, the filled take is the plain gather. -/
theorem take_fill_eq {α : Type} (src : IVec S640000 32) (hsrc : InRange src) (g fill : S640000x128.Idx → α) :
    select (inBounds src) g fill = g := by
  funext i
  rw [select_apply, inBounds_eq_one src hsrc i]
  exact select_one _ _

/-- The precondition gives the range of the source row of `edge_index`, on every device. -/
theorem inRange_of_pre [Cert.Pre_finite_inputs.Facts]
    (m : (ℓ : Loc nD τ sig) → Buf (Elt Ideal) ℓ) (hpre : Cert.Pre_KernelIdeal m) (c : Dev nD) :
    InRange (shapeCast S640000 ((extractStridedSlice S1x640000 ![0, 0] · slices_S2x640000_S1x640000_0_0)
      (m ((c.tc : Thread nD τ).loc main_arg1))) shapeCasts_S1x640000_S640000) := by
  intro i
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  -- the last conjunct of the precondition is the `all` of the range test on the source row
  have hall := (IntOp.andi_eq_one.1 h).2
  haveI : Subsingleton Cert.Pre_finite_inputs.S_.Idx := ⟨fun a b => funext fun d => d.elim0⟩
  have hi := Host.reduce_andi_all _ _ _ _ _ hall i
  obtain ⟨ha, hb⟩ := IntOp.andi_eq_one.1 hi
  exact ⟨ha, hb⟩

end Cert.KernelIdeal.Mask

end
-- ==== Proof.KBodyCls.lean ====
/-
  What the classifier kernel's body leaves in its output block, as mathematics: row p of the block is the
  classifier MLP of row p of the input block.
-/
import proofs.«404725_j721554505999_1_alg».proof.Proof.Gen.KernelIdeal.Frame
import proofs.«404725_j721554505999_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Body

open Idealize.ShloMosaic Idealize.ShloMosaic.ValueIdx Cert.KernelIdeal Cert.KernelIdeal.Gen Cert.Spec

namespace Cls

/-- The left operand's index of the product A: its row is the output's row. -/
theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column is the contraction index. -/
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction index. -/
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Its column is the output's column. -/
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product A into the zero accumulator, read at (p, q): the sum over the contraction index of the operands' products. -/
theorem matmulA_apply (v : FVec Ideal S2000x128 .f32) (w : FVec Ideal S128x128 .f32) (p : Fin 2000) (q : Fin 128) :
    matmul dot_S2000x128_S128x128_S2000x128_1_0_0_1_n_n none v w (constant (F := Ideal) S2000x128 .f32 0x00000000#32) (ix2 p q)
      = ∑ k : Fin 128, v (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The left operand's index of the product B: its row is the output's row. -/
theorem lhsB_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
/-- Its column is the contraction index. -/
theorem lhsB_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
/-- The right operand's row is the contraction index. -/
theorem rhsB_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
/-- Its column is the output's column. -/
theorem rhsB_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The product B into the zero accumulator, read at (p, q): the sum over the contraction index of the operands' products. -/
theorem matmulB_apply (v : FVec Ideal S2000x128 .f32) (w : FVec Ideal S128x40 .f32) (p : Fin 2000) (q : Fin 40) :
    matmul dot_S2000x128_S128x40_S2000x40_1_0_0_1_n_n none v w (constant (F := Ideal) S2000x40 .f32 0x00000000#32) (ix2 p q)
      = ∑ k : Fin 128, v (ix2 p k) * w (ix2 k q) := by
  simp only [matmul]
  rw [Ideal.matmul_constant_zero_apply, ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q) ((contrEquiv1 dot_S2000x128_S128x40_S2000x40_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x40_S2000x40_1_0_0_1_n_n.rhsIdx (ix2 p q) ((contrEquiv1 dot_S2000x128_S128x40_S2000x40_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-- A [1, 128] row broadcast over 2000 rows reads, at (p, q), the row at q. -/
theorem bcastRow128_apply (v : FVec Ideal S1x128 .f32) (p : Fin 2000) (q : Fin 128) :
    broadcastTo S2000x128 v broadcasts_S1x128_S2000x128 (ix2 p q) = v (ix2 (0 : Fin 1) q) := by
  refine broadcastTo_apply v broadcasts_S1x128_S2000x128 (ix2 p q) (ix2 (0 : Fin 1) q) fun ax => ?_
  match ax with
  | ⟨0, _⟩ => rfl
  | ⟨1, _⟩ =>
    show q.val = if (128 : Nat) = 1 then 0 else q.val
    rw [if_neg (by decide)]

/-- A [1, 40] row broadcast over 2000 rows reads, at (p, q), the row at q. -/
theorem bcastRow40_apply (v : FVec Ideal S1x40 .f32) (p : Fin 2000) (q : Fin 40) :
    broadcastTo S2000x40 v broadcasts_S1x40_S2000x40 (ix2 p q) = v (ix2 (0 : Fin 1) q) := by
  refine broadcastTo_apply v broadcasts_S1x40_S2000x40 (ix2 p q) (ix2 (0 : Fin 1) q) fun ax => ?_
  match ax with
  | ⟨0, _⟩ => rfl
  | ⟨1, _⟩ =>
    show q.val = if (40 : Nat) = 1 then 0 else q.val
    rw [if_neg (by decide)]

/-- The classifier's payload at (p, q): the second linear layer of the rectified first linear layer of row p. -/
theorem k3_pay1_apply (x0 : FVec Ideal S2000x128 .f32) (x1 : FVec Ideal S128x128 .f32) (x2 : FVec Ideal S1x128 .f32)
    (x3 : FVec Ideal S128x40 .f32) (x4 : FVec Ideal S1x40 .f32) (p : Fin 2000) (q : Fin 40) :
    k3_pay1 (F := Ideal) x0 x1 x2 x3 x4 (ix2 p q)
      = (∑ k : Fin 128, max ((∑ k' : Fin 128, x0 (ix2 p k') * x1 (ix2 k' k)) + x2 (ix2 (0 : Fin 1) k)) 0 * x3 (ix2 k q))
        + x4 (ix2 (0 : Fin 1) q) := by
  unfold k3_pay1
  simp only [shapeCast_self]
  rw [addf_apply, matmulB_apply, bcastRow40_apply]
  refine congrArg (· + x4 (ix2 (0 : Fin 1) q)) (Finset.sum_congr rfl fun k _ => ?_)
  rw [maximumf_apply, broadcast_apply, addf_apply, matmulA_apply, bcastRow128_apply]
  show max _ (Ideal.ofBits .f32 0x00000000#32) * _ = _
  rw [Ideal.ofBits_zero_f32]

end Cls

open Cls

theorem out3_5_eq (x0 : Vec Ideal S2000x128 .f32) (x1 : Vec Ideal S128x128 .f32) (x2 : Vec Ideal S1x128 .f32)
    (x3 : Vec Ideal S128x40 .f32) (x4 : Vec Ideal S1x40 .f32) :
    out3_5 (F := Ideal) x0 x1 x2 x3 x4 = clsA (R := 2000) x0 x1 x2 x3 x4 := by
  have hz : (![0, 0] : Fin 2 → Nat) = fun _ => 0 := funext fun a => by fin_cases a <;> rfl
  unfold out3_5
  rw [View.canon_unit_zero hz]
  simp only [View.ld_unit_zero (S := S2000x128) hz, View.ld_unit_zero (S := S128x128) hz, View.ld_unit_zero (S := S1x128) hz,
    View.ld_unit_zero (S := S128x40) hz, View.ld_unit_zero (S := S1x40) hz]
  funext j
  obtain ⟨p, q, rfl⟩ : ∃ (p : Fin 2000) (q : Fin 40), j = ix2 p q := ⟨j 0, j 1, eq_ix2 j⟩
  refine (k3_pay1_apply x0 x1 x2 x3 x4 p q).trans ?_
  rfl

end Cert.KernelIdeal.Body

end
-- ==== Proof.KRegion3.lean ====
/-
  Region 3 (the classifier) on whole arrays: its 25 row blocks tile the [50000, 40] output, block t being the classifier of row block t of the features.
-/
import proofs.«404725_j721554505999_1_alg».proof.Proof.Gen.KernelIdeal.Frame
import proofs.«404725_j721554505999_1_alg».proof.Proof.Spec
import Idealize.ShloMosaic.PureOps.Ideal
import Idealize.ShloMosaic.Lib.ValueIdx
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem Cert.KernelIdeal Cert.KernelIdeal.Gen Cert.Spec

variable (V : (c : Dev nD) → (b : Ref sig .tc) → Buf (Elt Ideal) ((c : Thread nD τ).loc b))

namespace R3

/-- The windows' index maps over the 25 grid points: the feature block moves with the output block along the rows, every other
    block index is zero, and the output's row-block index stays below 25. -/
theorem idx_facts : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 24 :=
  (by decide +kernel : ∀ t : Fin grid3.N, _)

/-- Every one of the 25 row blocks of the output is some point's. -/
theorem idx_onto : ∀ q0 : Fin 25, ∃ t : Fin cfg3.N, win3_5.index t = ![q0.val, 0] :=
  (by decide +kernel : ∀ q0 : Fin 25, ∃ t : Fin grid3.N, win3_5.index t = ![q0.val, 0])

/-- The classifier of two arrays agrees at two indices when the two feature rows read there agree entry by entry, the weights
    and biases are the same arrays, and the two indices name the same output column. -/
theorem clsA_congr_at {R R' : Nat}
    (X0 : (⟨2, ![R, 128]⟩ : Shape).Idx → EReal) (X0' : (⟨2, ![R', 128]⟩ : Shape).Idx → EReal)
    (X1 X1' : (⟨2, ![128, 128]⟩ : Shape).Idx → EReal) (X2 X2' : (⟨2, ![1, 128]⟩ : Shape).Idx → EReal)
    (X3 X3' : (⟨2, ![128, 40]⟩ : Shape).Idx → EReal) (X4 X4' : (⟨2, ![1, 40]⟩ : Shape).Idx → EReal)
    (i : (⟨2, ![R, 40]⟩ : Shape).Idx) (i' : (⟨2, ![R', 40]⟩ : Shape).Idx)
    (h0 : ∀ (x : (⟨2, ![R, 128]⟩ : Shape).Idx) (x' : (⟨2, ![R', 128]⟩ : Shape).Idx),
      (x 0).val = (i 0).val → (x' 0).val = (i' 0).val → (x 1).val = (x' 1).val → X0 x = X0' x')
    (h1 : X1 = X1') (h2 : X2 = X2') (h3 : X3 = X3') (h4 : X4 = X4') (hq : (i 1).val = (i' 1).val) :
    clsA X0 X1 X2 X3 X4 i = clsA X0' X1' X2' X3' X4' i' := by
  subst h1 h2 h3 h4
  have eq : (i 1 : Fin 40) = i' 1 := Fin.ext hq
  have e0 : mat2 X0 (i 0) = mat2 X0' (i' 0) := funext fun k => h0 _ _ rfl rfl rfl
  show clsRow (mat2 X0 (i 0)) (mat2 X1) (mat2 X2 0) (mat2 X3) (mat2 X4 0) (i 1)
    = clsRow (mat2 X0' (i' 0)) (mat2 X1) (mat2 X2 0) (mat2 X3) (mat2 X4 0) (i' 1)
  rw [e0, eq]

/-- The feature window's block at point t is the rows 2000·(block index) … of the feature array. -/
theorem blk0_apply (c : Dev nD) (t : Fin cfg3.N) (x : S2000x128.Idx) (k : S50000x128.Idx)
    (hk0 : (k 0).val = win3_5.index t (0 : Fin 2) * 2000 + (x 0).val) (hk1 : (k 1).val = (x 1).val) :
    (iblk3 (F := Ideal) V c 0 t : S2000x128.Idx → EReal) x = (V c main_v56 : S50000x128.Idx → EReal) k := by
  obtain ⟨e0, e1, -⟩ := idx_facts t
  unfold iblk3
  rw [View.read_apply]
  show (V c main_v56 : S50000x128.Idx → EReal) _ = (V c main_v56 : S50000x128.Idx → EReal) k
  congr 1
  funext a; apply Fin.ext
  match a with
  | ⟨0, _⟩ => show win3_0.index t (0 : Fin 2) * 2000 + 1 * (x 0).val = (k 0).val; rw [e0, hk0]; omega
  | ⟨1, _⟩ => show win3_0.index t (1 : Fin 2) * 128 + 1 * (x 1).val = (k 1).val; rw [e1, hk1]; omega

/-- The first weight window's block at every point is the whole array: its block index is (0, 0). -/
theorem blk1_eq (c : Dev nD) (t : Fin cfg3.N) :
    (iblk3 (F := Ideal) V c 1 t : S128x128.Idx → EReal) = (V c main_arg13 : S128x128.Idx → EReal) := by
  obtain ⟨-, -, e0, e1, -⟩ := idx_facts t
  funext x
  unfold iblk3
  rw [View.read_apply]
  show (V c main_arg13 : S128x128.Idx → EReal) _ = (V c main_arg13 : S128x128.Idx → EReal) x
  congr 1
  funext a; apply Fin.ext
  match a with
  | ⟨0, _⟩ => show win3_1.index t (0 : Fin 2) * 128 + 1 * (x 0).val = (x 0).val; rw [e0]; omega
  | ⟨1, _⟩ => show win3_1.index t (1 : Fin 2) * 128 + 1 * (x 1).val = (x 1).val; rw [e1]; omega

/-- The first bias window's block at every point is the whole array: its block index is (0, 0). -/
theorem blk2_eq (c : Dev nD) (t : Fin cfg3.N) :
    (iblk3 (F := Ideal) V c 2 t : S1x128.Idx → EReal) = (V c main_v57 : S1x128.Idx → EReal) := by
  obtain ⟨-, -, -, -, e0, e1, -⟩ := idx_facts t
  funext x
  unfold iblk3
  rw [View.read_apply]
  show (V c main_v57 : S1x128.Idx → EReal) _ = (V c main_v57 : S1x128.Idx → EReal) x
  congr 1
  funext a; apply Fin.ext
  match a with
  | ⟨0, _⟩ => show win3_2.index t (0 : Fin 2) * 1 + 1 * (x 0).val = (x 0).val; rw [e0]; omega
  | ⟨1, _⟩ => show win3_2.index t (1 : Fin 2) * 128 + 1 * (x 1).val = (x 1).val; rw [e1]; omega

/-- The second weight window's block at every point is the whole array: its block index is (0, 0). -/
theorem blk3_eq (c : Dev nD) (t : Fin cfg3.N) :
    (iblk3 (F := Ideal) V c 3 t : S128x40.Idx → EReal) = (V c main_arg15 : S128x40.Idx → EReal) := by
  obtain ⟨-, -, -, -, -, -, e0, e1, -⟩ := idx_facts t
  funext x
  unfold iblk3
  rw [View.read_apply]
  show (V c main_arg15 : S128x40.Idx → EReal) _ = (V c main_arg15 : S128x40.Idx → EReal) x
  congr 1
  funext a; apply Fin.ext
  match a with
  | ⟨0, _⟩ => show win3_3.index t (0 : Fin 2) * 128 + 1 * (x 0).val = (x 0).val; rw [e0]; omega
  | ⟨1, _⟩ => show win3_3.index t (1 : Fin 2) * 40 + 1 * (x 1).val = (x 1).val; rw [e1]; omega

/-- The second bias window's block at every point is the whole array: its block index is (0, 0). -/
theorem blk4_eq (c : Dev nD) (t : Fin cfg3.N) :
    (iblk3 (F := Ideal) V c 4 t : S1x40.Idx → EReal) = (V c main_v58 : S1x40.Idx → EReal) := by
  obtain ⟨-, -, -, -, -, -, -, -, e0, e1, -⟩ := idx_facts t
  funext x
  unfold iblk3
  rw [View.read_apply]
  show (V c main_v58 : S1x40.Idx → EReal) _ = (V c main_v58 : S1x40.Idx → EReal) x
  congr 1
  funext a; apply Fin.ext
  match a with
  | ⟨0, _⟩ => show win3_4.index t (0 : Fin 2) * 1 + 1 * (x 0).val = (x 0).val; rw [e0]; omega
  | ⟨1, _⟩ => show win3_4.index t (1 : Fin 2) * 40 + 1 * (x 1).val = (x 1).val; rw [e1]; omega

/-- What point t writes back is block t of the classifier of the arrays the region was entered with. -/
theorem flushed_eq
    (hbody : ∀ (x0 : Vec Ideal S2000x128 .f32) (x1 : Vec Ideal S128x128 .f32) (x2 : Vec Ideal S1x128 .f32) (x3 : Vec Ideal S128x40 .f32) (x4 : Vec Ideal S1x40 .f32), out3_5 (F := Ideal) x0 x1 x2 x3 x4 = clsA (R := 2000) x0 x1 x2 x3 x4)
    (c : Dev nD) (t : Fin cfg3.N) :
    (dat3 (F := Ideal) V c).flushed 5 t = ((cfg3.win 5).blk t).view.read (Elt Ideal)
      (clsA (R := 50000) (V c main_v56) (V c main_arg13) (V c main_v57) (V c main_arg15) (V c main_v58)) := by
  show (cfg3.win 5).cut (grid3.coords t) ((dat3 (F := Ideal) V c).after 5 t) = _
  rw [after3_5, hbody]
  obtain ⟨-, -, -, -, -, -, -, -, -, -, e51, -⟩ := idx_facts t
  funext y
  show clsA (R := 2000) (iblk3 (F := Ideal) V c 0 t) (iblk3 (F := Ideal) V c 1 t) (iblk3 (F := Ideal) V c 2 t) (iblk3 (F := Ideal) V c 3 t) (iblk3 (F := Ideal) V c 4 t)
      (win3_5.xinj (grid3.coords t) y)
    = clsA (R := 50000) (V c main_v56) (V c main_arg13) (V c main_v57) (V c main_arg15) (V c main_v58) (((cfg3.win 5).blk t).view.emb y)
  refine clsA_congr_at _ _ _ _ _ _ _ _ _ _ _ _ (fun x x' hx hx' h1 => ?_) (blk1_eq V c t) (blk2_eq V c t) (blk3_eq V c t) (blk4_eq V c t) ?_
  · have hx0 : (x 0).val = (y 0).val := hx
    have hx0' : (x' 0).val = win3_5.index t (0 : Fin 2) * 2000 + 1 * (y 0).val := hx'
    exact blk0_apply V c t x x' (by omega) h1.symm
  · show (y 1).val = win3_5.index t (1 : Fin 2) * 40 + 1 * (y 1).val
    rw [e51]; omega

/-- An index of the output array is in point t's block iff each coordinate is in the block's range on its axis. -/
theorem mem_blk (t : Fin cfg3.N) (i : S50000x40.Idx) :
    i ∈ ((cfg3.win 5).blk t).view.set ↔ ∀ a : Fin 2, win3_5.index t a * S2000x40.size a ≤ (i a).val ∧ (i a).val < win3_5.index t a * S2000x40.size a + S2000x40.size a := by
  show i ∈ ((View.whole main_v59).slice (win3_5.rect t)).set ↔ _
  rw [View.set_slice_whole, Rect.mem_set_unit]
  exact Iff.rfl

/-- The 25 row blocks cover the output array: row r is in block r / 2000. -/
theorem cover (i : S50000x40.Idx) : ∃ t : Fin cfg3.N, (cfg3.win 5).flush t = true ∧ i ∈ ((cfg3.win 5).blk t).view.set := by
  have hi0 : (i 0).val < 50000 := (i 0).isLt
  have hi1 : (i 1).val < 40 := (i 1).isLt
  obtain ⟨t, ht⟩ := idx_onto ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 40 ≤ (i 1).val ∧ (i 1).val < win3_5.index t (1 : Fin 2) * 40 + 40; omega

end R3

/-- Given what the body leaves in its output block (`hbody`: the stage of the input blocks), the region's output array ends as the stage
    of the arrays the region was entered with. -/
theorem arr3
    (hbody : ∀ (x0 : Vec Ideal S2000x128 .f32) (x1 : Vec Ideal S128x128 .f32) (x2 : Vec Ideal S1x128 .f32) (x3 : Vec Ideal S128x40 .f32) (x4 : Vec Ideal S1x40 .f32), out3_5 (F := Ideal) x0 x1 x2 x3 x4 = clsA (R := 2000) x0 x1 x2 x3 x4)
    (c : Dev nD) :
    (dat3 (F := Ideal) V c).arrAt 5 cfg3.N = clsA (R := 50000) (V c main_v56) (V c main_arg13) (V c main_v57) (V c main_arg15) (V c main_v58) := by
  exact (dat3 (F := Ideal) V c).arrAt_eq_of_cover 5 _ (fun t _ => R3.flushed_eq V hbody c t) R3.cover

end Cert.KernelIdeal.Region

end
-- ==== Proof.RCls.lean ====
/-
  The reference's classifier (its operations %157 … %165), read index by index, is the row-wise stage `clsA` of the features %156 and the classifier's parameters.
-/
import proofs.«404725_j721554505999_1_alg».proof.Proof.RRead
import proofs.«404725_j721554505999_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Stage.Cls

open Idealize.ShloMosaic Idealize.ShloMosaic.ValueIdx Cert.ReferenceIdeal Cert.ReferenceIdeal.Gen Cert.ReferenceIdeal.Read Cert.Spec

/-! ### The composed index maps, at the coordinates (r, q), are the coordinate constructors -/

theorem lhs157_ix (r : Fin 50000) (q k : Fin 128) : lidx_main_v157 (ix2 r q) k = ix2 r k :=
  funext fun a => Fin.ext (by match a with | ⟨0, _⟩ => rfl | ⟨1, _⟩ => rfl)
theorem rhs157_ix (r : Fin 50000) (q k : Fin 128) : ridx_main_v157 (ix2 r q) k = ix2 k q :=
  funext fun a => Fin.ext (by match a with | ⟨0, _⟩ => rfl | ⟨1, _⟩ => rfl)
theorem bias159_ix (r : Fin 50000) (q : Fin 128) : idx_main_v158 (idx_main_v159 (ix2 r q)) = ix1 q :=
  funext fun a => Fin.ext (by match a with | ⟨0, _⟩ => rfl)
theorem lhs162_ix (r : Fin 50000) (q : Fin 40) (k : Fin 128) : lidx_main_v162 (ix2 r q) k = ix2 r k :=
  funext fun a => Fin.ext (by match a with | ⟨0, _⟩ => rfl | ⟨1, _⟩ => rfl)
theorem rhs162_ix (r : Fin 50000) (q : Fin 40) (k : Fin 128) : ridx_main_v162 (ix2 r q) k = ix2 k q :=
  funext fun a => Fin.ext (by match a with | ⟨0, _⟩ => rfl | ⟨1, _⟩ => rfl)
theorem bias164_ix (r : Fin 50000) (q : Fin 40) : idx_main_v163 (idx_main_v164 (ix2 r q)) = ix1 q :=
  funext fun a => Fin.ext (by match a with | ⟨0, _⟩ => rfl)

section
variable (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal))
    (x8 : (⟨S2x128x128, .f32⟩ : BufTy).Contents (Elt Ideal)) (x9 : (⟨S2x128, .f32⟩ : BufTy).Contents (Elt Ideal)) (x10 : (⟨S2x128x128, .f32⟩ : BufTy).Contents (Elt Ideal)) (x11 x12 : (⟨S2x128, .f32⟩ : BufTy).Contents (Elt Ideal))
    (x13 : (⟨S128x128, .f32⟩ : BufTy).Contents (Elt Ideal)) (x14 : (⟨S128, .f32⟩ : BufTy).Contents (Elt Ideal)) (x15 : (⟨S128x40, .f32⟩ : BufTy).Contents (Elt Ideal)) (x16 : (⟨S40, .f32⟩ : BufTy).Contents (Elt Ideal))

/-- The classifier's hidden layer %161 at (r, k): relu of its first linear layer on row r of %156. -/
theorem cls_hidden_apply (r : Fin 50000) (k : Fin 128) :
    val_main_v161 (F := Ideal) x0 x1 x2 x3 x4 x5 x6 x7 x8 x9 x10 x11 x12 x13 x14 (ix2 r k)
      = relu (lin (mat2 (val_main_v156 (F := Ideal) x0 x1 x2 x3 x4 x5 x6 x7 x8 x9 x10 x11 x12) r) (mat2 x13) (mat2 (row1 x14) 0) k) := by
  rw [val_main_v161_apply, val_main_v160_apply, val_main_v157_apply, val_main_v159_apply, val_main_v158_apply,
    val_main_call4_v0_apply, val_main_call4_cst_apply]
  simp only [lhs157_ix, rhs157_ix, bias159_ix, Ideal.maximumf_def, Ideal.addf_def, Ideal.ofBits_def, Ideal.ofBits_zero_f32]
  rfl

/-- The logits %165 at (r, q): the second linear layer on the hidden row. -/
theorem cls_out_apply (r : Fin 50000) (q : Fin 40) :
    val_main_v165 (F := Ideal) x0 x1 x2 x3 x4 x5 x6 x7 x8 x9 x10 x11 x12 x13 x14 x15 x16 (ix2 r q)
      = lin (fun k => relu (lin (mat2 (val_main_v156 (F := Ideal) x0 x1 x2 x3 x4 x5 x6 x7 x8 x9 x10 x11 x12) r) (mat2 x13) (mat2 (row1 x14) 0) k)) (mat2 x15) (mat2 (row1 x16) 0) q := by
  rw [val_main_v165_apply, val_main_v162_apply, val_main_v164_apply, val_main_v163_apply]
  simp only [lhs162_ix, rhs162_ix, bias164_ix, cls_hidden_apply, Ideal.addf_def]
  rfl

end

end Cert.ReferenceIdeal.Stage.Cls

namespace Cert.ReferenceIdeal.Stage

open Idealize.ShloMosaic Idealize.ShloMosaic.ValueIdx Cert.ReferenceIdeal Cert.ReferenceIdeal.Gen Cert.ReferenceIdeal.Read Cert.Spec
open Cert.ReferenceIdeal.Stage.Cls

theorem ref_cls (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal))
    (x8 : (⟨S2x128x128, .f32⟩ : BufTy).Contents (Elt Ideal)) (x9 : (⟨S2x128, .f32⟩ : BufTy).Contents (Elt Ideal)) (x10 : (⟨S2x128x128, .f32⟩ : BufTy).Contents (Elt Ideal)) (x11 x12 : (⟨S2x128, .f32⟩ : BufTy).Contents (Elt Ideal))
    (x13 : (⟨S128x128, .f32⟩ : BufTy).Contents (Elt Ideal)) (x14 : (⟨S128, .f32⟩ : BufTy).Contents (Elt Ideal)) (x15 : (⟨S128x40, .f32⟩ : BufTy).Contents (Elt Ideal)) (x16 : (⟨S40, .f32⟩ : BufTy).Contents (Elt Ideal)) :
    val_main_v165 (F := Ideal) x0 x1 x2 x3 x4 x5 x6 x7 x8 x9 x10 x11 x12 x13 x14 x15 x16
      = clsA (R := 50000) (val_main_v156 (F := Ideal) x0 x1 x2 x3 x4 x5 x6 x7 x8 x9 x10 x11 x12) x13 (row1 x14) x15 (row1 x16) := by
  funext i
  obtain ⟨r, q, rfl⟩ : ∃ (r : Fin 50000) (q : Fin 40), i = ix2 r q := ⟨i 0, i 1, eq_ix2 i⟩
  rw [cls_out_apply]
  rfl

end Cert.ReferenceIdeal.Stage

end
-- ==== Proof.KBodySage.lean ====
/-
  What the SAGE kernel's body leaves in its output block, as mathematics: row p of the block is one SAGE layer on
  row p of the message, inverse-degree and feature blocks (the weights and biases whole). Both SAGE regions run the
  same body.
-/
import proofs.«404725_j721554505999_1_alg».proof.Proof.Gen.KernelIdeal.Frame
import proofs.«404725_j721554505999_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Body

open Idealize.ShloMosaic Idealize.ShloMosaic.ValueIdx Cert.KernelIdeal Cert.KernelIdeal.Gen Cert.Spec

namespace Sage

/-- The zero offsets of a whole-block rectangle, as a constant function. -/
theorem off_zero : (![0, 0] : Fin 2 → Nat) = fun _ => 0 := funext fun a => by fin_cases a <;> rfl

/-! ## The contraction [2000, 128] · [128, 128] read at (p, q) -/

theorem dot_lhs_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_lhs_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem dot_rhs_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem dot_rhs_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A matrix product into the zero block, at (p, q): the sum over the 128 contracted coordinates. -/
theorem matmul_at (v : FVec Ideal S2000x128 .f32) (w : FVec Ideal S128x128 .f32) (p : Fin 2000) (q : Fin 128) :
    matmul dot_S2000x128_S128x128_S2000x128_1_0_0_1_n_n none v w (constant (F := Ideal) S2000x128 .f32 0x00000000#32) (ix2 p q)
      = ∑ k : Fin 128, v (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

/-! ## The lane sum, the broadcasts and the column cast, read at coordinates -/

/-- The sum along a row of a [2000, 128] block, at p. -/
theorem rowSum_at (v : FVec Ideal S2000x128 .f32) (h : S2000x128.Reduces [1] S2000) (hφ : FKind.Formats .f32)
    (hacc : (0x00000000#32 : BitVec 32) = FKind.add.neutral .f32 hφ) (p : Fin 2000) :
    multiReduction (F := Ideal) .add [1] S2000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v (funext fun a => Fin.ext ?_)
  match a with
  | ⟨0, _⟩ => rfl
  | ⟨1, _⟩ => rfl

/-- A [2000, 1] column spread over the 128 lanes reads, at (p, q), the column at p. -/
theorem spreadCol_at (v : FVec Ideal S2000x1 .f32) (h : S2000x1.Broadcasts S2000x128) (p : Fin 2000) (q : Fin 128) :
    broadcastTo S2000x128 v h (ix2 p q) = v (ix2 p 0) := by
  refine broadcastTo_apply v h (ix2 p q) (ix2 p (0 : Fin 1)) fun ax => ?_
  match ax with
  | ⟨0, _⟩ =>
    show p.val = if (2000 : Nat) = 1 then 0 else p.val
    rw [if_neg (by decide)]
  | ⟨1, _⟩ => rfl

/-- A [1, 128] row spread over the 2000 rows reads, at (p, q), the row at q. -/
theorem spreadRow_at (v : FVec Ideal S1x128 .f32) (h : S1x128.Broadcasts S2000x128) (p : Fin 2000) (q : Fin 128) :
    broadcastTo S2000x128 v h (ix2 p q) = v (ix2 0 q) := by
  refine broadcastTo_apply v h (ix2 p q) (ix2 (0 : Fin 1) q) fun ax => ?_
  match ax with
  | ⟨0, _⟩ => rfl
  | ⟨1, _⟩ =>
    show q.val = if (128 : Nat) = 1 then 0 else q.val
    rw [if_neg (by decide)]

/-- A [2000] vector laid out as a [2000, 1] column reads, at (p, 0), the vector at p. -/
theorem asCol_at (v : FVec Ideal S2000 .f32) (h : S2000.ShapeCasts S2000x1) (p : Fin 2000) (u : Fin 1) :
    shapeCast S2000x1 v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- Row p of the block before LayerNorm: the node's own features plus the rectified sum of the linear image of its
    scaled messages, the bias, and the linear image of its features. -/
def preRow (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (p : Fin 2000) : Row :=
  fun j => mat2 x2 p j + relu (dotRow (fun k => mat2 x0 p k * mat2 x1 p 0) (mat2 x3) j + mat2 x4 0 j + dotRow (mat2 x2 p) (mat2 x5) j)

/-- A SAGE layer's row is LayerNorm of that row. -/
theorem sageA_at (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (x6 x7 : Vec Ideal S1x128 .f32) (p : Fin 2000) (q : Fin 128) :
    sageA (R := 2000) x0 x1 x2 x3 x4 x5 x6 x7 (ix2 p q) = layerNorm (preRow x0 x1 x2 x3 x4 x5 p) (mat2 x6 0) (mat2 x7 0) q := rfl

/-! ## The body's values at coordinates -/

/-- Before LayerNorm, at (p, q): the node's own feature plus the rectified sum of the two linear images. -/
theorem k1_pay2_at (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (p : Fin 2000) (q : Fin 128) :
    k1_pay2 x0 x1 x2 x3 x4 x5 (ix2 p q) = preRow x0 x1 x2 x3 x4 x5 p q := by
  unfold k1_pay2
  simp only [addf_apply, maximumf_apply, broadcast_apply, matmul_at, mulf_apply, shapeCast_self, spreadCol_at, spreadRow_at]
  have h0 : (FloatOps.ofBits FTy.f32 0x00000000#32 : Ideal .f32) = (0 : EReal) := Ideal.ofBits_zero_f32
  rw [h0]
  rfl

/-- The row's mean, kept as a [2000, 1] column. -/
theorem k1_pay5_at (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (p : Fin 2000) (u : Fin 1) :
    k1_pay5 x0 x1 x2 x3 x4 x5 (ix2 p u) = mean (preRow x0 x1 x2 x3 x4 x5 p) := by
  unfold k1_pay5
  simp only [divf_apply, broadcast_apply, asCol_at]
  exact congrArg (fun s => Ideal.div s (Ideal.ofBits .f32 0x43000000#32))
    ((rowSum_at _ _ _ _ p).trans (Finset.sum_congr rfl fun k _ => k1_pay2_at x0 x1 x2 x3 x4 x5 p k))

/-- The row's sum of squared deviations from its mean, kept as a [2000, 1] column. -/
theorem k1_pay6_at (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (p : Fin 2000) (u : Fin 1) :
    k1_pay6 x0 x1 x2 x3 x4 x5 (ix2 p u)
      = ∑ k : Fin 128, (preRow x0 x1 x2 x3 x4 x5 p k - mean (preRow x0 x1 x2 x3 x4 x5 p))
          * (preRow x0 x1 x2 x3 x4 x5 p k - mean (preRow x0 x1 x2 x3 x4 x5 p)) := by
  unfold k1_pay6
  simp only [asCol_at]
  refine (rowSum_at _ _ _ _ p).trans (Finset.sum_congr rfl fun k _ => ?_)
  simp only [mulf_apply, subf_apply, spreadCol_at, k1_pay2_at, k1_pay5_at]

/-- The normalisation, scale and shift, at (p, q), over whatever row, mean, sum of squares and divisor it is given. -/
theorem k1_pay1_at (v21 : FVec Ideal S2000x128 .f32) (v23 v25 : FVec Ideal S1x128 .f32) (v29 v34 v35 : FVec Ideal S2000x1 .f32)
    (p : Fin 2000) (q : Fin 128) :
    k1_pay1 v21 v23 v25 v29 v34 v35 (ix2 p q)
      = (v21 (ix2 p q) - v29 (ix2 p 0)) * Ideal.rsqrt (Ideal.div (v34 (ix2 p 0)) (v35 (ix2 p 0)) + eps) * v23 (ix2 0 q) + v25 (ix2 0 q) := by
  unfold k1_pay1
  simp only [addf_apply, mulf_apply, subf_apply, divf_apply, broadcast_apply, spreadCol_at, spreadRow_at]
  rfl

end Sage

open Sage

theorem out1_8_eq (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (x6 x7 : Vec Ideal S1x128 .f32) :
    out1_8 (F := Ideal) x0 x1 x2 x3 x4 x5 x6 x7 = sageA (R := 2000) x0 x1 x2 x3 x4 x5 x6 x7 := by
  unfold out1_8
  rw [View.canon_unit_zero off_zero]
  simp only [View.ld_unit_zero (S := S2000x128) off_zero, View.ld_unit_zero (S := S2000x1) off_zero,
    View.ld_unit_zero (S := S128x128) off_zero, View.ld_unit_zero (S := S1x128) off_zero]
  funext j
  obtain ⟨p, q, rfl⟩ : ∃ (p : Fin 2000) (q : Fin 128), j = ix2 p q := ⟨j 0, j 1, eq_ix2 j⟩
  rw [k1_pay1_at, sageA_at, k1_pay2_at, k1_pay5_at, k1_pay6_at]
  simp only [k1_pay3, k1_pay4, k1_pay7, shapeCast_self, broadcast_apply]
  rfl

theorem out2_8_eq (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (x6 x7 : Vec Ideal S1x128 .f32) :
    out2_8 (F := Ideal) x0 x1 x2 x3 x4 x5 x6 x7 = sageA (R := 2000) x0 x1 x2 x3 x4 x5 x6 x7 := by
  -- the second region's body computes the first region's values, definitionally
  have e : out2_8 (F := Ideal) x0 x1 x2 x3 x4 x5 x6 x7 = out1_8 (F := Ideal) x0 x1 x2 x3 x4 x5 x6 x7 := rfl
  rw [e]
  exact out1_8_eq x0 x1 x2 x3 x4 x5 x6 x7

end Cert.KernelIdeal.Body

end
-- ==== Proof.KRegion2.lean ====
/-
  Region 2 (SAGE layer 1) on whole arrays: its 25 row blocks tile the [50000, 128] output, block t being the layer on row block t of the messages, the inverse degrees and the features.
-/
import proofs.«404725_j721554505999_1_alg».proof.Proof.Gen.KernelIdeal.Frame
import proofs.«404725_j721554505999_1_alg».proof.Proof.Spec
import Idealize.ShloMosaic.PureOps.Ideal
import Idealize.ShloMosaic.Lib.ValueIdx
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem Cert.KernelIdeal Cert.KernelIdeal.Gen Cert.Spec

variable (V : (c : Dev nD) → (b : Ref sig .tc) → Buf (Elt Ideal) ((c : Thread nD τ).loc b))

namespace R2

/-- The printed index maps, decided over the grid: the row windows of the messages, the inverse degrees and the features move
    with the output window along the rows, all at column block 0, the output's row block stays below 25, and every
    parameter window sits at block (0, 0). -/
theorem idx_facts : ∀ t : Fin cfg2.N,
    win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = win2_8.index t (0 : Fin 2) ∧ win2_2.index t (1 : Fin 2) = 0
    ∧ win2_8.index t (1 : Fin 2) = 0 ∧ win2_8.index t (0 : Fin 2) ≤ 24
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Every one of the 25 row blocks of the output is some point's. -/
theorem idx_onto : ∀ q0 : Fin 25, ∃ t : Fin cfg2.N, win2_8.index t = ![q0.val, 0] :=
  (by decide +kernel : ∀ q0 : Fin 25, ∃ t : Fin grid2.N, win2_8.index t = ![q0.val, 0])

/-- Two functions of a rank-2 index agree when they agree at every pair of coordinates. -/
theorem funext_ix2 {n0 n1 : Nat} {α : Type} {f g : (⟨2, ![n0, n1]⟩ : Shape).Idx → α}
    (h : ∀ (p : Fin n0) (j : Fin n1), f (ix2 p j) = g (ix2 p j)) : f = g :=
  funext fun y => by rw [eq_ix2 y]; exact h _ _

/-- Row p of point t's output block is row `block index × 2000 + p` of the array. -/
def rowOf (t : Fin cfg2.N) (p : Fin 2000) : Fin 50000 :=
  ⟨win2_8.index t (0 : Fin 2) * 2000 + p.val, by
    obtain ⟨e00, e01, e10, e11, e20, e21, e81, e8le, e30, e31, e40, e41, e50, e51, e60, e61, e70, e71⟩ := idx_facts t
    omega⟩

/-- The output block's rectangle carries (p, j) to (rowOf t p, j). -/
theorem emb8 (t : Fin cfg2.N) (p : Fin 2000) (j : Fin 128) :
    (((cfg2.win 8).blk t).view.emb (ix2 p j) : S50000x128.Idx) = ix2 (rowOf t p) j := by
  obtain ⟨e00, e01, e10, e11, e20, e21, e81, e8le, e30, e31, e40, e41, e50, e51, e60, e61, e70, e71⟩ := idx_facts t
  funext a; apply Fin.ext
  match a with
  | ⟨0, _⟩ => show win2_8.index t (0 : Fin 2) * 2000 + 1 * p.val = win2_8.index t (0 : Fin 2) * 2000 + p.val; omega
  | ⟨1, _⟩ => show win2_8.index t (1 : Fin 2) * 128 + 1 * j.val = j.val; omega

/-- The row window of the messages at point t, read at (p, j), is the message array at (rowOf t p, j). -/
theorem blk0 (c : Dev nD) (t : Fin cfg2.N) (p : Fin 2000) (j : Fin 128) :
    (iblk2 V c 0 t : Vec Ideal S2000x128 .f32) (ix2 p j) = (V c main_v42 : Vec Ideal S50000x128 .f32) (ix2 (rowOf t p) j) := by
  obtain ⟨e00, e01, e10, e11, e20, e21, e81, e8le, e30, e31, e40, e41, e50, e51, e60, e61, e70, e71⟩ := idx_facts t
  show V c main_v42 (((cfg2.win 0).blk t).view.emb (ix2 p j)) = _
  refine congrArg (V c main_v42) ?_
  funext a; apply Fin.ext
  match a with
  | ⟨0, _⟩ => show win2_0.index t (0 : Fin 2) * 2000 + 1 * p.val = win2_8.index t (0 : Fin 2) * 2000 + p.val; omega
  | ⟨1, _⟩ => show win2_0.index t (1 : Fin 2) * 128 + 1 * j.val = j.val; omega

/-- The row window of the inverse degrees at point t, read at (p, 0), is the [50000, 1] array at (rowOf t p, 0). -/
theorem blk1 (c : Dev nD) (t : Fin cfg2.N) (p : Fin 2000) (u : Fin 1) :
    (iblk2 V c 1 t : Vec Ideal S2000x1 .f32) (ix2 p u) = (V c main_v15 : Vec Ideal S50000x1 .f32) (ix2 (rowOf t p) u) := by
  obtain ⟨e00, e01, e10, e11, e20, e21, e81, e8le, e30, e31, e40, e41, e50, e51, e60, e61, e70, e71⟩ := idx_facts t
  show V c main_v15 (((cfg2.win 1).blk t).view.emb (ix2 p u)) = _
  refine congrArg (V c main_v15) ?_
  funext a; apply Fin.ext
  match a with
  | ⟨0, _⟩ => show win2_1.index t (0 : Fin 2) * 2000 + 1 * p.val = win2_8.index t (0 : Fin 2) * 2000 + p.val; omega
  | ⟨1, _⟩ => show win2_1.index t (1 : Fin 2) * 1 + 1 * u.val = u.val; omega

/-- The row window of the features at point t, read at (p, j), is the feature array at (rowOf t p, j). -/
theorem blk2 (c : Dev nD) (t : Fin cfg2.N) (p : Fin 2000) (j : Fin 128) :
    (iblk2 V c 2 t : Vec Ideal S2000x128 .f32) (ix2 p j) = (V c main_v38 : Vec Ideal S50000x128 .f32) (ix2 (rowOf t p) j) := by
  obtain ⟨e00, e01, e10, e11, e20, e21, e81, e8le, e30, e31, e40, e41, e50, e51, e60, e61, e70, e71⟩ := idx_facts t
  show V c main_v38 (((cfg2.win 2).blk t).view.emb (ix2 p j)) = _
  refine congrArg (V c main_v38) ?_
  funext a; apply Fin.ext
  match a with
  | ⟨0, _⟩ => show win2_2.index t (0 : Fin 2) * 2000 + 1 * p.val = win2_8.index t (0 : Fin 2) * 2000 + p.val; omega
  | ⟨1, _⟩ => show win2_2.index t (1 : Fin 2) * 128 + 1 * j.val = j.val; omega

theorem blk3 (c : Dev nD) (t : Fin cfg2.N) : (iblk2 V c 3 t : Vec Ideal S128x128 .f32) = V c main_v44 := by
  obtain ⟨e00, e01, e10, e11, e20, e21, e81, e8le, e30, e31, e40, e41, e50, e51, e60, e61, e70, e71⟩ := idx_facts t
  funext z
  show V c main_v44 (((cfg2.win 3).blk t).view.emb z) = V c main_v44 z
  refine congrArg (V c main_v44) ?_
  funext a; apply Fin.ext
  match a with
  | ⟨0, _⟩ => show win2_3.index t (0 : Fin 2) * 128 + 1 * (z 0).val = (z 0).val; omega
  | ⟨1, _⟩ => show win2_3.index t (1 : Fin 2) * 128 + 1 * (z 1).val = (z 1).val; omega

theorem blk4 (c : Dev nD) (t : Fin cfg2.N) : (iblk2 V c 4 t : Vec Ideal S1x128 .f32) = V c main_v53 := by
  obtain ⟨e00, e01, e10, e11, e20, e21, e81, e8le, e30, e31, e40, e41, e50, e51, e60, e61, e70, e71⟩ := idx_facts t
  funext z
  show V c main_v53 (((cfg2.win 4).blk t).view.emb z) = V c main_v53 z
  refine congrArg (V c main_v53) ?_
  funext a; apply Fin.ext
  match a with
  | ⟨0, _⟩ => show win2_4.index t (0 : Fin 2) * 1 + 1 * (z 0).val = (z 0).val; omega
  | ⟨1, _⟩ => show win2_4.index t (1 : Fin 2) * 128 + 1 * (z 1).val = (z 1).val; omega

theorem blk5 (c : Dev nD) (t : Fin cfg2.N) : (iblk2 V c 5 t : Vec Ideal S128x128 .f32) = V c main_v48 := by
  obtain ⟨e00, e01, e10, e11, e20, e21, e81, e8le, e30, e31, e40, e41, e50, e51, e60, e61, e70, e71⟩ := idx_facts t
  funext z
  show V c main_v48 (((cfg2.win 5).blk t).view.emb z) = V c main_v48 z
  refine congrArg (V c main_v48) ?_
  funext a; apply Fin.ext
  match a with
  | ⟨0, _⟩ => show win2_5.index t (0 : Fin 2) * 128 + 1 * (z 0).val = (z 0).val; omega
  | ⟨1, _⟩ => show win2_5.index t (1 : Fin 2) * 128 + 1 * (z 1).val = (z 1).val; omega

theorem blk6 (c : Dev nD) (t : Fin cfg2.N) : (iblk2 V c 6 t : Vec Ideal S1x128 .f32) = V c main_v54 := by
  obtain ⟨e00, e01, e10, e11, e20, e21, e81, e8le, e30, e31, e40, e41, e50, e51, e60, e61, e70, e71⟩ := idx_facts t
  funext z
  show V c main_v54 (((cfg2.win 6).blk t).view.emb z) = V c main_v54 z
  refine congrArg (V c main_v54) ?_
  funext a; apply Fin.ext
  match a with
  | ⟨0, _⟩ => show win2_6.index t (0 : Fin 2) * 1 + 1 * (z 0).val = (z 0).val; omega
  | ⟨1, _⟩ => show win2_6.index t (1 : Fin 2) * 128 + 1 * (z 1).val = (z 1).val; omega

theorem blk7 (c : Dev nD) (t : Fin cfg2.N) : (iblk2 V c 7 t : Vec Ideal S1x128 .f32) = V c main_v55 := by
  obtain ⟨e00, e01, e10, e11, e20, e21, e81, e8le, e30, e31, e40, e41, e50, e51, e60, e61, e70, e71⟩ := idx_facts t
  funext z
  show V c main_v55 (((cfg2.win 7).blk t).view.emb z) = V c main_v55 z
  refine congrArg (V c main_v55) ?_
  funext a; apply Fin.ext
  match a with
  | ⟨0, _⟩ => show win2_7.index t (0 : Fin 2) * 1 + 1 * (z 0).val = (z 0).val; omega
  | ⟨1, _⟩ => show win2_7.index t (1 : Fin 2) * 128 + 1 * (z 1).val = (z 1).val; omega

/-- The layer of point t's input blocks at (p, j) is the layer of the whole arrays at (rowOf t p, j): the layer is row-wise in the
    messages, the inverse degrees and the features, and takes the parameter arrays whole. -/
theorem stage_at (c : Dev nD) (t : Fin cfg2.N) (p : Fin 2000) (j : Fin 128) :
    sageA (R := 2000) (iblk2 V c 0 t) (iblk2 V c 1 t) (iblk2 V c 2 t) (iblk2 V c 3 t) (iblk2 V c 4 t) (iblk2 V c 5 t) (iblk2 V c 6 t) (iblk2 V c 7 t) (ix2 p j)
      = sageA (R := 50000) (V c main_v42) (V c main_v15) (V c main_v38) (V c main_v44) (V c main_v53) (V c main_v48) (V c main_v54) (V c main_v55) (ix2 (rowOf t p) j) := by
  have hm : mat2 (iblk2 V c 0 t : Vec Ideal S2000x128 .f32) p = mat2 (V c main_v42 : Vec Ideal S50000x128 .f32) (rowOf t p) :=
    funext fun k => blk0 V c t p k
  have hi : mat2 (iblk2 V c 1 t : Vec Ideal S2000x1 .f32) p 0 = mat2 (V c main_v15 : Vec Ideal S50000x1 .f32) (rowOf t p) 0 :=
    blk1 V c t p 0
  have hh : mat2 (iblk2 V c 2 t : Vec Ideal S2000x128 .f32) p = mat2 (V c main_v38 : Vec Ideal S50000x128 .f32) (rowOf t p) :=
    funext fun k => blk2 V c t p k
  show sageRow (mat2 (iblk2 V c 0 t : Vec Ideal S2000x128 .f32) p) (mat2 (iblk2 V c 1 t : Vec Ideal S2000x1 .f32) p 0) (mat2 (iblk2 V c 2 t : Vec Ideal S2000x128 .f32) p)
      (mat2 (iblk2 V c 3 t : Vec Ideal S128x128 .f32)) (mat2 (iblk2 V c 4 t : Vec Ideal S1x128 .f32) 0) (mat2 (iblk2 V c 5 t : Vec Ideal S128x128 .f32))
      (mat2 (iblk2 V c 6 t : Vec Ideal S1x128 .f32) 0) (mat2 (iblk2 V c 7 t : Vec Ideal S1x128 .f32) 0) j
    = sageRow (mat2 (V c main_v42 : Vec Ideal S50000x128 .f32) (rowOf t p)) (mat2 (V c main_v15 : Vec Ideal S50000x1 .f32) (rowOf t p) 0) (mat2 (V c main_v38 : Vec Ideal S50000x128 .f32) (rowOf t p))
      (mat2 (V c main_v44 : Vec Ideal S128x128 .f32)) (mat2 (V c main_v53 : Vec Ideal S1x128 .f32) 0) (mat2 (V c main_v48 : Vec Ideal S128x128 .f32))
      (mat2 (V c main_v54 : Vec Ideal S1x128 .f32) 0) (mat2 (V c main_v55 : Vec Ideal S1x128 .f32) 0) j
  rw [hm, hi, hh, blk3 V c t, blk4 V c t, blk5 V c t, blk6 V c t, blk7 V c t]

/-- What point t writes back is block t of the layer of the arrays the region was entered with. -/
theorem flushed_eq
    (hbody : ∀ (x0 : Vec Ideal S2000x128 .f32) (x1 : Vec Ideal S2000x1 .f32) (x2 : Vec Ideal S2000x128 .f32) (x3 : Vec Ideal S128x128 .f32) (x4 : Vec Ideal S1x128 .f32) (x5 : Vec Ideal S128x128 .f32) (x6 : Vec Ideal S1x128 .f32) (x7 : Vec Ideal S1x128 .f32), out2_8 (F := Ideal) x0 x1 x2 x3 x4 x5 x6 x7 = sageA (R := 2000) x0 x1 x2 x3 x4 x5 x6 x7)
    (c : Dev nD) (t : Fin cfg2.N) :
    (dat2 (F := Ideal) V c).flushed 8 t = ((cfg2.win 8).blk t).view.read (Elt Ideal)
      (sageA (R := 50000) (V c main_v42) (V c main_v15) (V c main_v38) (V c main_v44) (V c main_v53) (V c main_v48) (V c main_v54) (V c main_v55)) := by
  show (cfg2.win 8).cut (grid2.coords t) ((dat2 V c).after 8 t) = _
  rw [after2_8, hbody]
  refine funext_ix2 (n0 := 2000) (n1 := 128) fun p j => ?_
  show sageA (R := 2000) (iblk2 V c 0 t) (iblk2 V c 1 t) (iblk2 V c 2 t) (iblk2 V c 3 t) (iblk2 V c 4 t) (iblk2 V c 5 t) (iblk2 V c 6 t) (iblk2 V c 7 t) (ix2 p j)
      = sageA (R := 50000) (V c main_v42) (V c main_v15) (V c main_v38) (V c main_v44) (V c main_v53) (V c main_v48) (V c main_v54) (V c main_v55)
        (((cfg2.win 8).blk t).view.emb (ix2 p j))
  exact (stage_at V c t p j).trans (congrArg _ (emb8 t p j).symm)

/-- An index of the array is in point t's block iff each coordinate is in the block's range on its axis. -/
theorem mem_blk (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v56).slice (win2_8.rect t)).set ↔ _
  rw [View.set_slice_whole, Rect.mem_set_unit]
  exact Iff.rfl

/-- The 25 row blocks cover the array: row r lies in block r / 2000. -/
theorem cover (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ := idx_onto ⟨(i 0).val / 2000, by omega⟩
  have q0 : win2_8.index t (0 : Fin 2) = (i 0).val / 2000 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

end R2

/-- Given what the body leaves in its output block (`hbody`: the stage of the input blocks), the region's output array ends as the stage
    of the arrays the region was entered with. -/
theorem arr2
    (hbody : ∀ (x0 : Vec Ideal S2000x128 .f32) (x1 : Vec Ideal S2000x1 .f32) (x2 : Vec Ideal S2000x128 .f32) (x3 : Vec Ideal S128x128 .f32) (x4 : Vec Ideal S1x128 .f32) (x5 : Vec Ideal S128x128 .f32) (x6 : Vec Ideal S1x128 .f32) (x7 : Vec Ideal S1x128 .f32), out2_8 (F := Ideal) x0 x1 x2 x3 x4 x5 x6 x7 = sageA (R := 2000) x0 x1 x2 x3 x4 x5 x6 x7)
    (c : Dev nD) :
    (dat2 (F := Ideal) V c).arrAt 8 cfg2.N = sageA (R := 50000) (V c main_v42) (V c main_v15) (V c main_v38) (V c main_v44) (V c main_v53) (V c main_v48) (V c main_v54) (V c main_v55) := by
  exact (dat2 (F := Ideal) V c).arrAt_eq_of_cover 8 _ (fun t _ => R2.flushed_eq V hbody c t) R2.cover

end Cert.KernelIdeal.Region

end
-- ==== Proof.RSage1.lean ====
/-
  The reference's second SAGE layer (its operations %113 … %156 after the scatter %112), read index by index, is the row-wise stage `sageA` of the summed messages %112, the inverse degrees %15, the features %102 and the layer's sliced parameters.
-/
import proofs.«404725_j721554505999_1_alg».proof.Proof.RRead
import proofs.«404725_j721554505999_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Stage

open Idealize.ShloMosaic Idealize.ShloMosaic.ValueIdx Cert.ReferenceIdeal Cert.ReferenceIdeal.Gen Cert.ReferenceIdeal.Read Cert.Spec

namespace Sage1

section Steps

variable (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal))
  (x8 : (⟨S2x128x128, .f32⟩ : BufTy).Contents (Elt Ideal)) (x9 : (⟨S2x128, .f32⟩ : BufTy).Contents (Elt Ideal)) (x10 : (⟨S2x128x128, .f32⟩ : BufTy).Contents (Elt Ideal)) (x11 x12 : (⟨S2x128, .f32⟩ : BufTy).Contents (Elt Ideal))

/-! ## The pre-normalisation row: h + relu ((msg·inv)·Wl + bl + h·Wr) -/

/-- The inverse degrees, broadcast along the features: at (r, q) the inverse degree of row r. -/
theorem at_inv (r : Fin 50000) (q : Fin 128) :
    (val_main_v113 (F := Ideal) x1) (ix2 r q) = (val_main_v15 (F := Ideal) x1) (ix2 r (0 : Fin 1)) := by
  have e : idx_main_v113 (ix2 r q) = ix2 r (0 : Fin 1) := funext fun a => Fin.ext (by match a with | ⟨0, _⟩ => rfl | ⟨1, _⟩ => rfl)
  exact (val_main_v113_apply (F := Ideal) x1 (ix2 r q)).trans (congrArg (val_main_v15 (F := Ideal) x1) e)

/-- The scaled message at (r, k): the summed message times the row's inverse degree. -/
theorem at_scaled (r : Fin 50000) (k : Fin 128) :
    (val_main_v114 (F := Ideal) x0 x1 x2 x3 x4 x5 x6 x7 x8 x9 x10 x11 x12) (ix2 r k) = (val_main_v112 (F := Ideal) x0 x1 x2 x3 x4 x5 x6 x7 x8 x9 x10 x11 x12) (ix2 r k) * (val_main_v15 (F := Ideal) x1) (ix2 r (0 : Fin 1)) := by
  rw [val_main_v114_apply, Ideal.mulf_def, at_inv]

/-- The scaled messages times Wl at (r, q): the sum over the contracted feature. -/
theorem at_dotl (r : Fin 50000) (q : Fin 128) :
    (val_main_v117 (F := Ideal) x0 x1 x2 x3 x4 x5 x6 x7 x8 x9 x10 x11 x12) (ix2 r q) = ∑ k : Fin 128, ((val_main_v112 (F := Ideal) x0 x1 x2 x3 x4 x5 x6 x7 x8 x9 x10 x11 x12) (ix2 r k) * (val_main_v15 (F := Ideal) x1) (ix2 r (0 : Fin 1))) * (val_main_v116 (F := Ideal) x8) (ix2 k q) := by
  rw [val_main_v117_apply]
  refine Finset.sum_congr rfl fun k _ => ?_
  have e1 : lidx_main_v117 (ix2 r q) k = ix2 r k := funext fun a => Fin.ext (by match a with | ⟨0, _⟩ => rfl | ⟨1, _⟩ => rfl)
  have e2 : ridx_main_v117 (ix2 r q) k = ix2 k q := funext fun a => Fin.ext (by match a with | ⟨0, _⟩ => rfl | ⟨1, _⟩ => rfl)
  rw [e1, e2, at_scaled]

/-- The bias bl laid along every row: at (r, q) its q-th entry. -/
theorem at_bias (r : Fin 50000) (q : Fin 128) :
    (val_main_v121 (F := Ideal) x9) (ix2 r q) = (val_main_v119 (F := Ideal) x9) (ix1 q) := by
  have e : idx_main_v120 (idx_main_v121 (ix2 r q)) = ix1 q := funext fun a => Fin.ext (by match a with | ⟨0, _⟩ => rfl)
  exact ((val_main_v121_apply (F := Ideal) x9 (ix2 r q)).trans (val_main_v120_apply (F := Ideal) x9 _)).trans (congrArg (val_main_v119 (F := Ideal) x9) e)

/-- The features times Wr at (r, q): the sum over the contracted feature. -/
theorem at_dotr (r : Fin 50000) (q : Fin 128) :
    (val_main_v125 (F := Ideal) x0 x1 x2 x3 x4 x5 x6 x7 x8 x9 x10 x11 x12) (ix2 r q) = ∑ k : Fin 128, (val_main_v102 (F := Ideal) x0 x1 x2 x3 x4 x5 x6 x7 x8 x9 x10 x11 x12) (ix2 r k) * (val_main_v124 (F := Ideal) x10) (ix2 k q) := by
  rw [val_main_v125_apply]
  refine Finset.sum_congr rfl fun k _ => ?_
  have e1 : lidx_main_v125 (ix2 r q) k = ix2 r k := funext fun a => Fin.ext (by match a with | ⟨0, _⟩ => rfl | ⟨1, _⟩ => rfl)
  have e2 : ridx_main_v125 (ix2 r q) k = ix2 k q := funext fun a => Fin.ext (by match a with | ⟨0, _⟩ => rfl | ⟨1, _⟩ => rfl)
  rw [e1, e2]

/-- relu's threshold: the zero word everywhere. -/
theorem at_zero (i : S50000x128.Idx) : val_main_call3_v0 (F := Ideal) i = (0 : EReal) := by
  rw [val_main_call3_v0_apply, val_main_call3_cst_apply, Ideal.ofBits_def, Ideal.ofBits_zero_f32]

/-- The residual row before LayerNorm at (r, q): h + max ((msg·inv)·Wl + bl + h·Wr) 0. -/
theorem at_pre (r : Fin 50000) (q : Fin 128) :
    (val_main_v128 (F := Ideal) x0 x1 x2 x3 x4 x5 x6 x7 x8 x9 x10 x11 x12) (ix2 r q) = (val_main_v102 (F := Ideal) x0 x1 x2 x3 x4 x5 x6 x7 x8 x9 x10 x11 x12) (ix2 r q) + max ((∑ k : Fin 128, ((val_main_v112 (F := Ideal) x0 x1 x2 x3 x4 x5 x6 x7 x8 x9 x10 x11 x12) (ix2 r k) * (val_main_v15 (F := Ideal) x1) (ix2 r (0 : Fin 1))) * (val_main_v116 (F := Ideal) x8) (ix2 k q)) + (val_main_v119 (F := Ideal) x9) (ix1 q) + ∑ k : Fin 128, (val_main_v102 (F := Ideal) x0 x1 x2 x3 x4 x5 x6 x7 x8 x9 x10 x11 x12) (ix2 r k) * (val_main_v124 (F := Ideal) x10) (ix2 k q)) (0 : EReal) := by
  rw [val_main_v128_apply, Ideal.addf_def, val_main_v127_apply, Ideal.maximumf_def, val_main_v126_apply, Ideal.addf_def, val_main_v122_apply, Ideal.addf_def,
    at_dotl, at_bias, at_dotr, at_zero]

/-! ## The mean and the variance of a row -/

/-- The divisor 128.0, as the word the program carries. -/
theorem at_c128a (j : S50000x1.Idx) : (val_main_v135 (F := Ideal)) j = c128 :=
  (val_main_v135_apply (F := Ideal) j).trans (val_main_cst_21_apply (F := Ideal) _)
theorem at_c128b (j : S50000x1.Idx) : (val_main_v142 (F := Ideal)) j = c128 :=
  (val_main_v142_apply (F := Ideal) j).trans (val_main_cst_23_apply (F := Ideal) _)
/-- LayerNorm's ε, as the word the program carries. -/
theorem at_eps (j : S50000x1.Idx) : (val_main_v146 (F := Ideal)) j = eps :=
  (val_main_v146_apply (F := Ideal) j).trans (val_main_cst_24_apply (F := Ideal) _)

/-- The row sums: the reduction starts from the zero word, so it is the plain sum over the 128 features. -/
theorem at_sum (r : Fin 50000) :
    (val_main_v133 (F := Ideal) x0 x1 x2 x3 x4 x5 x6 x7 x8 x9 x10 x11 x12) (ix1 r) = ∑ k : Fin 128, (val_main_v128 (F := Ideal) x0 x1 x2 x3 x4 x5 x6 x7 x8 x9 x10 x11 x12) (ix2 r k) := by
  rw [val_main_v133_apply, val_main_cst_20_apply, Ideal.ofBits_def, Ideal.ofBits_zero_f32, zero_add]
  refine Finset.sum_congr rfl fun k _ => ?_
  exact congrArg (val_main_v128 (F := Ideal) x0 x1 x2 x3 x4 x5 x6 x7 x8 x9 x10 x11 x12) (funext fun a => Fin.ext (by match a with | ⟨0, _⟩ => rfl | ⟨1, _⟩ => rfl))

/-- The mean of row r. -/
theorem at_mean (r : Fin 50000) :
    (val_main_v136 (F := Ideal) x0 x1 x2 x3 x4 x5 x6 x7 x8 x9 x10 x11 x12) (ix2 r (0 : Fin 1)) = mean (fun j => (val_main_v128 (F := Ideal) x0 x1 x2 x3 x4 x5 x6 x7 x8 x9 x10 x11 x12) (ix2 r j)) := by
  have e : idx_main_v134 (ix2 r (0 : Fin 1)) = ix1 r := funext fun a => Fin.ext (by match a with | ⟨0, _⟩ => rfl)
  have h : (val_main_v136 (F := Ideal) x0 x1 x2 x3 x4 x5 x6 x7 x8 x9 x10 x11 x12) (ix2 r (0 : Fin 1)) = Ideal.div ((val_main_v133 (F := Ideal) x0 x1 x2 x3 x4 x5 x6 x7 x8 x9 x10 x11 x12) (ix1 r)) c128 := by
    rw [val_main_v136_apply, Ideal.hostDivf_def, at_c128a, val_main_v134_apply, e]
  exact h.trans (congrArg (fun s => Ideal.div s c128) (at_sum x0 x1 x2 x3 x4 x5 x6 x7 x8 x9 x10 x11 x12 r))

/-- The mean laid along the row (for the variance). -/
theorem at_mean_bc1 (r : Fin 50000) (q : Fin 128) :
    (val_main_v137 (F := Ideal) x0 x1 x2 x3 x4 x5 x6 x7 x8 x9 x10 x11 x12) (ix2 r q) = (val_main_v136 (F := Ideal) x0 x1 x2 x3 x4 x5 x6 x7 x8 x9 x10 x11 x12) (ix2 r (0 : Fin 1)) := by
  have e : idx_main_v137 (ix2 r q) = ix2 r (0 : Fin 1) := funext fun a => Fin.ext (by match a with | ⟨0, _⟩ => rfl | ⟨1, _⟩ => rfl)
  exact (val_main_v137_apply (F := Ideal) x0 x1 x2 x3 x4 x5 x6 x7 x8 x9 x10 x11 x12 (ix2 r q)).trans (congrArg (val_main_v136 (F := Ideal) x0 x1 x2 x3 x4 x5 x6 x7 x8 x9 x10 x11 x12) e)
/-- The mean laid along the row (for the centring). -/
theorem at_mean_bc2 (r : Fin 50000) (q : Fin 128) :
    (val_main_v144 (F := Ideal) x0 x1 x2 x3 x4 x5 x6 x7 x8 x9 x10 x11 x12) (ix2 r q) = (val_main_v136 (F := Ideal) x0 x1 x2 x3 x4 x5 x6 x7 x8 x9 x10 x11 x12) (ix2 r (0 : Fin 1)) := by
  have e : idx_main_v144 (ix2 r q) = ix2 r (0 : Fin 1) := funext fun a => Fin.ext (by match a with | ⟨0, _⟩ => rfl | ⟨1, _⟩ => rfl)
  exact (val_main_v144_apply (F := Ideal) x0 x1 x2 x3 x4 x5 x6 x7 x8 x9 x10 x11 x12 (ix2 r q)).trans (congrArg (val_main_v136 (F := Ideal) x0 x1 x2 x3 x4 x5 x6 x7 x8 x9 x10 x11 x12) e)

/-- The squared deviation at (r, k). -/
theorem at_sq (r : Fin 50000) (k : Fin 128) :
    (val_main_v139 (F := Ideal) x0 x1 x2 x3 x4 x5 x6 x7 x8 x9 x10 x11 x12) (ix2 r k) = ((val_main_v128 (F := Ideal) x0 x1 x2 x3 x4 x5 x6 x7 x8 x9 x10 x11 x12) (ix2 r k) - (val_main_v136 (F := Ideal) x0 x1 x2 x3 x4 x5 x6 x7 x8 x9 x10 x11 x12) (ix2 r (0 : Fin 1))) * ((val_main_v128 (F := Ideal) x0 x1 x2 x3 x4 x5 x6 x7 x8 x9 x10 x11 x12) (ix2 r k) - (val_main_v136 (F := Ideal) x0 x1 x2 x3 x4 x5 x6 x7 x8 x9 x10 x11 x12) (ix2 r (0 : Fin 1))) := by
  rw [val_main_v139_apply, Ideal.mulf_def, val_main_v138_apply, Ideal.subf_def, at_mean_bc1]

/-- The sum of the squared deviations of row r. -/
theorem at_sqsum (r : Fin 50000) :
    (val_main_v140 (F := Ideal) x0 x1 x2 x3 x4 x5 x6 x7 x8 x9 x10 x11 x12) (ix1 r) = ∑ k : Fin 128, ((val_main_v128 (F := Ideal) x0 x1 x2 x3 x4 x5 x6 x7 x8 x9 x10 x11 x12) (ix2 r k) - (val_main_v136 (F := Ideal) x0 x1 x2 x3 x4 x5 x6 x7 x8 x9 x10 x11 x12) (ix2 r (0 : Fin 1))) * ((val_main_v128 (F := Ideal) x0 x1 x2 x3 x4 x5 x6 x7 x8 x9 x10 x11 x12) (ix2 r k) - (val_main_v136 (F := Ideal) x0 x1 x2 x3 x4 x5 x6 x7 x8 x9 x10 x11 x12) (ix2 r (0 : Fin 1))) := by
  rw [val_main_v140_apply, val_main_cst_22_apply, Ideal.ofBits_def, Ideal.ofBits_zero_f32, zero_add]
  refine Finset.sum_congr rfl fun k _ => ?_
  have e : idx_main_v140 (ix1 r) k = ix2 r k := funext fun a => Fin.ext (by match a with | ⟨0, _⟩ => rfl | ⟨1, _⟩ => rfl)
  rw [e, at_sq]

/-- The variance of row r: the mean of the squared deviations. -/
theorem at_var (r : Fin 50000) :
    (val_main_v143 (F := Ideal) x0 x1 x2 x3 x4 x5 x6 x7 x8 x9 x10 x11 x12) (ix2 r (0 : Fin 1)) = mean (fun k => ((val_main_v128 (F := Ideal) x0 x1 x2 x3 x4 x5 x6 x7 x8 x9 x10 x11 x12) (ix2 r k) - (val_main_v136 (F := Ideal) x0 x1 x2 x3 x4 x5 x6 x7 x8 x9 x10 x11 x12) (ix2 r (0 : Fin 1))) * ((val_main_v128 (F := Ideal) x0 x1 x2 x3 x4 x5 x6 x7 x8 x9 x10 x11 x12) (ix2 r k) - (val_main_v136 (F := Ideal) x0 x1 x2 x3 x4 x5 x6 x7 x8 x9 x10 x11 x12) (ix2 r (0 : Fin 1)))) := by
  have e : idx_main_v141 (ix2 r (0 : Fin 1)) = ix1 r := funext fun a => Fin.ext (by match a with | ⟨0, _⟩ => rfl)
  have h : (val_main_v143 (F := Ideal) x0 x1 x2 x3 x4 x5 x6 x7 x8 x9 x10 x11 x12) (ix2 r (0 : Fin 1)) = Ideal.div ((val_main_v140 (F := Ideal) x0 x1 x2 x3 x4 x5 x6 x7 x8 x9 x10 x11 x12) (ix1 r)) c128 := by
    rw [val_main_v143_apply, Ideal.hostDivf_def, at_c128b, val_main_v141_apply, e]
  exact h.trans (congrArg (fun s => Ideal.div s c128) (at_sqsum x0 x1 x2 x3 x4 x5 x6 x7 x8 x9 x10 x11 x12 r))

/-! ## LayerNorm -/

/-- The inverse standard deviation of row r. -/
theorem at_rstd (r : Fin 50000) :
    (val_main_v148 (F := Ideal) x0 x1 x2 x3 x4 x5 x6 x7 x8 x9 x10 x11 x12) (ix2 r (0 : Fin 1)) = Ideal.rsqrt ((val_main_v143 (F := Ideal) x0 x1 x2 x3 x4 x5 x6 x7 x8 x9 x10 x11 x12) (ix2 r (0 : Fin 1)) + eps) := by
  rw [val_main_v148_apply, Ideal.hostUnary_rsqrt_def, val_main_v147_apply, Ideal.addf_def, at_eps]

/-- The inverse standard deviation laid along the row. -/
theorem at_rstd_bc (r : Fin 50000) (q : Fin 128) :
    (val_main_v149 (F := Ideal) x0 x1 x2 x3 x4 x5 x6 x7 x8 x9 x10 x11 x12) (ix2 r q) = (val_main_v148 (F := Ideal) x0 x1 x2 x3 x4 x5 x6 x7 x8 x9 x10 x11 x12) (ix2 r (0 : Fin 1)) := by
  have e : idx_main_v149 (ix2 r q) = ix2 r (0 : Fin 1) := funext fun a => Fin.ext (by match a with | ⟨0, _⟩ => rfl | ⟨1, _⟩ => rfl)
  exact (val_main_v149_apply (F := Ideal) x0 x1 x2 x3 x4 x5 x6 x7 x8 x9 x10 x11 x12 (ix2 r q)).trans (congrArg (val_main_v148 (F := Ideal) x0 x1 x2 x3 x4 x5 x6 x7 x8 x9 x10 x11 x12) e)
/-- LayerNorm's gain laid along every row: at (r, q) its q-th entry. -/
theorem at_gain (r : Fin 50000) (q : Fin 128) :
    (val_main_v152 (F := Ideal) x11) (ix2 r q) = (val_main_v130 (F := Ideal) x11) (ix1 q) := by
  have e : idx_main_v151 (idx_main_v152 (ix2 r q)) = ix1 q := funext fun a => Fin.ext (by match a with | ⟨0, _⟩ => rfl)
  exact ((val_main_v152_apply (F := Ideal) x11 (ix2 r q)).trans (val_main_v151_apply (F := Ideal) x11 _)).trans (congrArg (val_main_v130 (F := Ideal) x11) e)
/-- LayerNorm's shift laid along every row: at (r, q) its q-th entry. -/
theorem at_shift (r : Fin 50000) (q : Fin 128) :
    (val_main_v155 (F := Ideal) x12) (ix2 r q) = (val_main_v132 (F := Ideal) x12) (ix1 q) := by
  have e : idx_main_v154 (idx_main_v155 (ix2 r q)) = ix1 q := funext fun a => Fin.ext (by match a with | ⟨0, _⟩ => rfl)
  exact ((val_main_v155_apply (F := Ideal) x12 (ix2 r q)).trans (val_main_v154_apply (F := Ideal) x12 _)).trans (congrArg (val_main_v132 (F := Ideal) x12) e)

/-- The layer's result at (r, q): (v − μ)·rsqrt(σ² + ε)·g + β, with μ and σ² still the program's own values. -/
theorem at_out (r : Fin 50000) (q : Fin 128) :
    (val_main_v156 (F := Ideal) x0 x1 x2 x3 x4 x5 x6 x7 x8 x9 x10 x11 x12) (ix2 r q) =
      ((val_main_v128 (F := Ideal) x0 x1 x2 x3 x4 x5 x6 x7 x8 x9 x10 x11 x12) (ix2 r q) - (val_main_v136 (F := Ideal) x0 x1 x2 x3 x4 x5 x6 x7 x8 x9 x10 x11 x12) (ix2 r (0 : Fin 1))) * Ideal.rsqrt ((val_main_v143 (F := Ideal) x0 x1 x2 x3 x4 x5 x6 x7 x8 x9 x10 x11 x12) (ix2 r (0 : Fin 1)) + eps) * (val_main_v130 (F := Ideal) x11) (ix1 q) + (val_main_v132 (F := Ideal) x12) (ix1 q) := by
  rw [val_main_v156_apply, Ideal.addf_def, val_main_v153_apply, Ideal.mulf_def, val_main_v150_apply, Ideal.mulf_def, val_main_v145_apply, Ideal.subf_def,
    at_mean_bc2, at_rstd_bc, at_rstd, at_gain, at_shift]

/-- The layer's result at (r, q) is LayerNorm of the pre-normalisation row r, at q. -/
theorem at_ln (r : Fin 50000) (q : Fin 128) :
    (val_main_v156 (F := Ideal) x0 x1 x2 x3 x4 x5 x6 x7 x8 x9 x10 x11 x12) (ix2 r q) = layerNorm (fun j => (val_main_v128 (F := Ideal) x0 x1 x2 x3 x4 x5 x6 x7 x8 x9 x10 x11 x12) (ix2 r j)) (vec1 (val_main_v130 (F := Ideal) x11)) (vec1 (val_main_v132 (F := Ideal) x12)) q := by
  rw [at_out, at_var, at_mean]
  rfl

end Steps

/-- The row-wise stage read at (r, q), over arbitrary arrays: LayerNorm, at q, of the row h + max ((msg·inv)·Wl + bl + h·Wr) 0. -/
theorem stage_at (M : (⟨2, ![50000, 128]⟩ : Shape).Idx → EReal) (D : (⟨2, ![50000, 1]⟩ : Shape).Idx → EReal) (H : (⟨2, ![50000, 128]⟩ : Shape).Idx → EReal)
    (Wl : (⟨2, ![128, 128]⟩ : Shape).Idx → EReal) (bl : (⟨1, ![128]⟩ : Shape).Idx → EReal) (Wr : (⟨2, ![128, 128]⟩ : Shape).Idx → EReal) (g β : (⟨1, ![128]⟩ : Shape).Idx → EReal)
    (r : Fin 50000) (q : Fin 128) :
    sageA (R := 50000) M D H Wl (row1 bl) Wr (row1 g) (row1 β) (ix2 r q)
      = layerNorm (fun j : Fin 128 => H (ix2 r j) + max ((∑ k : Fin 128, (M (ix2 r k) * D (ix2 r (0 : Fin 1))) * Wl (ix2 k j)) + bl (ix1 j) + ∑ k : Fin 128, H (ix2 r k) * Wr (ix2 k j)) (0 : EReal))
          (vec1 g) (vec1 β) q := rfl

end Sage1

open Sage1

theorem ref_sage1 (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal))
    (x8 : (⟨S2x128x128, .f32⟩ : BufTy).Contents (Elt Ideal)) (x9 : (⟨S2x128, .f32⟩ : BufTy).Contents (Elt Ideal)) (x10 : (⟨S2x128x128, .f32⟩ : BufTy).Contents (Elt Ideal)) (x11 x12 : (⟨S2x128, .f32⟩ : BufTy).Contents (Elt Ideal)) :
    val_main_v156 (F := Ideal) x0 x1 x2 x3 x4 x5 x6 x7 x8 x9 x10 x11 x12
      = sageA (R := 50000) (val_main_v112 (F := Ideal) x0 x1 x2 x3 x4 x5 x6 x7 x8 x9 x10 x11 x12) (val_main_v15 (F := Ideal) x1) (val_main_v102 (F := Ideal) x0 x1 x2 x3 x4 x5 x6 x7 x8 x9 x10 x11 x12)
          (val_main_v116 (F := Ideal) x8) (row1 (val_main_v119 (F := Ideal) x9)) (val_main_v124 (F := Ideal) x10)
          (row1 (val_main_v130 (F := Ideal) x11)) (row1 (val_main_v132 (F := Ideal) x12)) := by
  funext i
  obtain ⟨r, q, rfl⟩ : ∃ (r : Fin 50000) (q : Fin 128), i = ix2 r q := ⟨i 0, i 1, eq_ix2 i⟩
  have hrow : (fun j : Fin 128 => (val_main_v128 (F := Ideal) x0 x1 x2 x3 x4 x5 x6 x7 x8 x9 x10 x11 x12) (ix2 r j)) = fun j : Fin 128 => (val_main_v102 (F := Ideal) x0 x1 x2 x3 x4 x5 x6 x7 x8 x9 x10 x11 x12) (ix2 r j) + max ((∑ k : Fin 128, ((val_main_v112 (F := Ideal) x0 x1 x2 x3 x4 x5 x6 x7 x8 x9 x10 x11 x12) (ix2 r k) * (val_main_v15 (F := Ideal) x1) (ix2 r (0 : Fin 1))) * (val_main_v116 (F := Ideal) x8) (ix2 k j)) + (val_main_v119 (F := Ideal) x9) (ix1 j) + ∑ k : Fin 128, (val_main_v102 (F := Ideal) x0 x1 x2 x3 x4 x5 x6 x7 x8 x9 x10 x11 x12) (ix2 r k) * (val_main_v124 (F := Ideal) x10) (ix2 k j)) (0 : EReal) :=
    funext fun j => at_pre x0 x1 x2 x3 x4 x5 x6 x7 x8 x9 x10 x11 x12 r j
  exact ((at_ln x0 x1 x2 x3 x4 x5 x6 x7 x8 x9 x10 x11 x12 r q).trans
    (congrArg (fun v : Row => layerNorm v (vec1 (val_main_v130 (F := Ideal) x11)) (vec1 (val_main_v132 (F := Ideal) x12)) q) hrow)).trans
    (stage_at (val_main_v112 (F := Ideal) x0 x1 x2 x3 x4 x5 x6 x7 x8 x9 x10 x11 x12) (val_main_v15 (F := Ideal) x1) (val_main_v102 (F := Ideal) x0 x1 x2 x3 x4 x5 x6 x7 x8 x9 x10 x11 x12) (val_main_v116 (F := Ideal) x8) (val_main_v119 (F := Ideal) x9) (val_main_v124 (F := Ideal) x10) (val_main_v130 (F := Ideal) x11) (val_main_v132 (F := Ideal) x12) r q).symm

end Cert.ReferenceIdeal.Stage

end
-- ==== Proof.KRegion1.lean ====
/-
  Region 1 (SAGE layer 0) on whole arrays: its 25 row blocks tile the [50000, 128] output, block t being the layer on row block t of the messages, the inverse degrees and the features.
-/
import proofs.«404725_j721554505999_1_alg».proof.Proof.Gen.KernelIdeal.Frame
import proofs.«404725_j721554505999_1_alg».proof.Proof.Spec
import Idealize.ShloMosaic.PureOps.Ideal
import Idealize.ShloMosaic.Lib.ValueIdx
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem Cert.KernelIdeal Cert.KernelIdeal.Gen Cert.Spec

variable (V : (c : Dev nD) → (b : Ref sig .tc) → Buf (Elt Ideal) ((c : Thread nD τ).loc b))

namespace R1

/-- The printed index maps, decided over the grid: the row windows of the messages, the inverse degrees and the features move
    with the output window along the rows, all at column block 0; the output's row block stays below 25; every parameter
    window sits at block (0, 0). -/
theorem idx_facts : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_8.index t (1 : Fin 2) = 0 ∧ win1_8.index t (0 : Fin 2) ≤ 24
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Every one of the 25 row blocks of the output is some point's. -/
theorem idx_onto : ∀ q0 : Fin 25, ∃ t : Fin cfg1.N, win1_8.index t = ![q0.val, 0] :=
  (by decide +kernel : ∀ q0 : Fin 25, ∃ t : Fin grid1.N, win1_8.index t = ![q0.val, 0])

/-- Two functions of a rank-2 index agree when they agree at every pair of coordinates. -/
theorem funext_ix2 {n0 n1 : Nat} {α : Type} {f g : (⟨2, ![n0, n1]⟩ : Shape).Idx → α}
    (h : ∀ (p : Fin n0) (j : Fin n1), f (ix2 p j) = g (ix2 p j)) : f = g :=
  funext fun y => by rw [eq_ix2 y]; exact h _ _

/-- Row p of point t's output block is row `block index × 2000 + p` of the array. -/
def rowOf (t : Fin cfg1.N) (p : Fin 2000) : Fin 50000 :=
  ⟨win1_8.index t (0 : Fin 2) * 2000 + p.val, by have := (idx_facts t).2.2.2.2.2.2.2.1; omega⟩

/-- The output block's rectangle carries (p, j) to (rowOf t p, j). -/
theorem emb8 (t : Fin cfg1.N) (p : Fin 2000) (j : Fin 128) :
    (((cfg1.win 8).blk t).view.emb (ix2 p j) : S50000x128.Idx) = ix2 (rowOf t p) j := by
  obtain ⟨_, _, _, _, _, _, e81, _⟩ := idx_facts t
  funext a; apply Fin.ext
  match a with
  | ⟨0, _⟩ => show win1_8.index t (0 : Fin 2) * 2000 + 1 * p.val = win1_8.index t (0 : Fin 2) * 2000 + p.val; omega
  | ⟨1, _⟩ => show win1_8.index t (1 : Fin 2) * 128 + 1 * j.val = j.val; omega

/-- The row window of the summed messages at point t, read at (p, j), is the array at (rowOf t p, j). -/
theorem blk0 (c : Dev nD) (t : Fin cfg1.N) (p : Fin 2000) (j : Fin 128) :
    (iblk1 V c 0 t : Vec Ideal S2000x128 .f32) (ix2 p j) = (V c main_v24 : Vec Ideal S50000x128 .f32) (ix2 (rowOf t p) j) := by
  obtain ⟨e00, e01, e10, e11, e20, e21, _⟩ := idx_facts t
  show V c main_v24 (((cfg1.win 0).blk t).view.emb (ix2 p j)) = _
  refine congrArg (V c main_v24) ?_
  funext a; apply Fin.ext
  match a with
  | ⟨0, _⟩ => show win1_0.index t (0 : Fin 2) * 2000 + 1 * p.val = win1_8.index t (0 : Fin 2) * 2000 + p.val; omega
  | ⟨1, _⟩ => show win1_0.index t (1 : Fin 2) * 128 + 1 * j.val = j.val; omega

/-- The row window of the inverse degrees at point t, read at (p, j), is the array at (rowOf t p, j). -/
theorem blk1 (c : Dev nD) (t : Fin cfg1.N) (p : Fin 2000) (j : Fin 1) :
    (iblk1 V c 1 t : Vec Ideal S2000x1 .f32) (ix2 p j) = (V c main_v15 : Vec Ideal S50000x1 .f32) (ix2 (rowOf t p) j) := by
  obtain ⟨e00, e01, e10, e11, e20, e21, _⟩ := idx_facts t
  show V c main_v15 (((cfg1.win 1).blk t).view.emb (ix2 p j)) = _
  refine congrArg (V c main_v15) ?_
  funext a; apply Fin.ext
  match a with
  | ⟨0, _⟩ => show win1_1.index t (0 : Fin 2) * 2000 + 1 * p.val = win1_8.index t (0 : Fin 2) * 2000 + p.val; omega
  | ⟨1, _⟩ => show win1_1.index t (1 : Fin 2) * 1 + 1 * j.val = j.val; omega

/-- The row window of the features at point t, read at (p, j), is the array at (rowOf t p, j). -/
theorem blk2 (c : Dev nD) (t : Fin cfg1.N) (p : Fin 2000) (j : Fin 128) :
    (iblk1 V c 2 t : Vec Ideal S2000x128 .f32) (ix2 p j) = (V c main_v20 : Vec Ideal S50000x128 .f32) (ix2 (rowOf t p) j) := by
  obtain ⟨e00, e01, e10, e11, e20, e21, _⟩ := idx_facts t
  show V c main_v20 (((cfg1.win 2).blk t).view.emb (ix2 p j)) = _
  refine congrArg (V c main_v20) ?_
  funext a; apply Fin.ext
  match a with
  | ⟨0, _⟩ => show win1_2.index t (0 : Fin 2) * 2000 + 1 * p.val = win1_8.index t (0 : Fin 2) * 2000 + p.val; omega
  | ⟨1, _⟩ => show win1_2.index t (1 : Fin 2) * 128 + 1 * j.val = j.val; omega

theorem blk3 (c : Dev nD) (t : Fin cfg1.N) : (iblk1 V c 3 t : Vec Ideal S128x128 .f32) = V c main_v26 := by
  obtain ⟨_, _, _, _, _, _, _, _, e30, e31, e40, e41, e50, e51, e60, e61, e70, e71⟩ := idx_facts t
  funext z
  show V c main_v26 (((cfg1.win 3).blk t).view.emb z) = V c main_v26 z
  refine congrArg (V c main_v26) ?_
  funext a; apply Fin.ext
  match a with
  | ⟨0, _⟩ => show win1_3.index t (0 : Fin 2) * 128 + 1 * (z 0).val = (z 0).val; omega
  | ⟨1, _⟩ => show win1_3.index t (1 : Fin 2) * 128 + 1 * (z 1).val = (z 1).val; omega

theorem blk4 (c : Dev nD) (t : Fin cfg1.N) : (iblk1 V c 4 t : Vec Ideal S1x128 .f32) = V c main_v35 := by
  obtain ⟨_, _, _, _, _, _, _, _, e30, e31, e40, e41, e50, e51, e60, e61, e70, e71⟩ := idx_facts t
  funext z
  show V c main_v35 (((cfg1.win 4).blk t).view.emb z) = V c main_v35 z
  refine congrArg (V c main_v35) ?_
  funext a; apply Fin.ext
  match a with
  | ⟨0, _⟩ => show win1_4.index t (0 : Fin 2) * 1 + 1 * (z 0).val = (z 0).val; omega
  | ⟨1, _⟩ => show win1_4.index t (1 : Fin 2) * 128 + 1 * (z 1).val = (z 1).val; omega

theorem blk5 (c : Dev nD) (t : Fin cfg1.N) : (iblk1 V c 5 t : Vec Ideal S128x128 .f32) = V c main_v30 := by
  obtain ⟨_, _, _, _, _, _, _, _, e30, e31, e40, e41, e50, e51, e60, e61, e70, e71⟩ := idx_facts t
  funext z
  show V c main_v30 (((cfg1.win 5).blk t).view.emb z) = V c main_v30 z
  refine congrArg (V c main_v30) ?_
  funext a; apply Fin.ext
  match a with
  | ⟨0, _⟩ => show win1_5.index t (0 : Fin 2) * 128 + 1 * (z 0).val = (z 0).val; omega
  | ⟨1, _⟩ => show win1_5.index t (1 : Fin 2) * 128 + 1 * (z 1).val = (z 1).val; omega

theorem blk6 (c : Dev nD) (t : Fin cfg1.N) : (iblk1 V c 6 t : Vec Ideal S1x128 .f32) = V c main_v36 := by
  obtain ⟨_, _, _, _, _, _, _, _, e30, e31, e40, e41, e50, e51, e60, e61, e70, e71⟩ := idx_facts t
  funext z
  show V c main_v36 (((cfg1.win 6).blk t).view.emb z) = V c main_v36 z
  refine congrArg (V c main_v36) ?_
  funext a; apply Fin.ext
  match a with
  | ⟨0, _⟩ => show win1_6.index t (0 : Fin 2) * 1 + 1 * (z 0).val = (z 0).val; omega
  | ⟨1, _⟩ => show win1_6.index t (1 : Fin 2) * 128 + 1 * (z 1).val = (z 1).val; omega

theorem blk7 (c : Dev nD) (t : Fin cfg1.N) : (iblk1 V c 7 t : Vec Ideal S1x128 .f32) = V c main_v37 := by
  obtain ⟨_, _, _, _, _, _, _, _, e30, e31, e40, e41, e50, e51, e60, e61, e70, e71⟩ := idx_facts t
  funext z
  show V c main_v37 (((cfg1.win 7).blk t).view.emb z) = V c main_v37 z
  refine congrArg (V c main_v37) ?_
  funext a; apply Fin.ext
  match a with
  | ⟨0, _⟩ => show win1_7.index t (0 : Fin 2) * 1 + 1 * (z 0).val = (z 0).val; omega
  | ⟨1, _⟩ => show win1_7.index t (1 : Fin 2) * 128 + 1 * (z 1).val = (z 1).val; omega

/-- The layer on point t's input blocks at (p, j) is the layer on the whole arrays at (rowOf t p, j): the layer is row-wise in the
    messages, the inverse degrees and the features, and takes the parameter arrays whole. -/
theorem stage_at (c : Dev nD) (t : Fin cfg1.N) (p : Fin 2000) (j : Fin 128) :
    sageA (R := 2000) (iblk1 V c 0 t) (iblk1 V c 1 t) (iblk1 V c 2 t) (iblk1 V c 3 t) (iblk1 V c 4 t) (iblk1 V c 5 t) (iblk1 V c 6 t) (iblk1 V c 7 t) (ix2 p j)
      = sageA (R := 50000) (V c main_v24) (V c main_v15) (V c main_v20) (V c main_v26) (V c main_v35) (V c main_v30) (V c main_v36) (V c main_v37) (ix2 (rowOf t p) j) := by
  have hmsg : mat2 (iblk1 V c 0 t : Vec Ideal S2000x128 .f32) p = mat2 (V c main_v24 : Vec Ideal S50000x128 .f32) (rowOf t p) :=
    funext fun k => blk0 V c t p k
  have hinv : mat2 (iblk1 V c 1 t : Vec Ideal S2000x1 .f32) p 0 = mat2 (V c main_v15 : Vec Ideal S50000x1 .f32) (rowOf t p) 0 :=
    blk1 V c t p 0
  have hh : mat2 (iblk1 V c 2 t : Vec Ideal S2000x128 .f32) p = mat2 (V c main_v20 : Vec Ideal S50000x128 .f32) (rowOf t p) :=
    funext fun k => blk2 V c t p k
  show sageRow (mat2 (iblk1 V c 0 t : Vec Ideal S2000x128 .f32) p) (mat2 (iblk1 V c 1 t : Vec Ideal S2000x1 .f32) p 0) (mat2 (iblk1 V c 2 t : Vec Ideal S2000x128 .f32) p)
      (mat2 (iblk1 V c 3 t : Vec Ideal S128x128 .f32)) (mat2 (iblk1 V c 4 t : Vec Ideal S1x128 .f32) 0) (mat2 (iblk1 V c 5 t : Vec Ideal S128x128 .f32))
      (mat2 (iblk1 V c 6 t : Vec Ideal S1x128 .f32) 0) (mat2 (iblk1 V c 7 t : Vec Ideal S1x128 .f32) 0) j
    = sageRow (mat2 (V c main_v24 : Vec Ideal S50000x128 .f32) (rowOf t p)) (mat2 (V c main_v15 : Vec Ideal S50000x1 .f32) (rowOf t p) 0) (mat2 (V c main_v20 : Vec Ideal S50000x128 .f32) (rowOf t p))
      (mat2 (V c main_v26 : Vec Ideal S128x128 .f32)) (mat2 (V c main_v35 : Vec Ideal S1x128 .f32) 0) (mat2 (V c main_v30 : Vec Ideal S128x128 .f32))
      (mat2 (V c main_v36 : Vec Ideal S1x128 .f32) 0) (mat2 (V c main_v37 : Vec Ideal S1x128 .f32) 0) j
  rw [hmsg, hinv, hh, blk3 V c t, blk4 V c t, blk5 V c t, blk6 V c t, blk7 V c t]

/-- What point t writes back is block t of the layer on the arrays the region was entered with. -/
theorem flushed_eq
    (hbody : ∀ (x0 : Vec Ideal S2000x128 .f32) (x1 : Vec Ideal S2000x1 .f32) (x2 : Vec Ideal S2000x128 .f32) (x3 : Vec Ideal S128x128 .f32) (x4 : Vec Ideal S1x128 .f32) (x5 : Vec Ideal S128x128 .f32) (x6 : Vec Ideal S1x128 .f32) (x7 : Vec Ideal S1x128 .f32), out1_8 (F := Ideal) x0 x1 x2 x3 x4 x5 x6 x7 = sageA (R := 2000) x0 x1 x2 x3 x4 x5 x6 x7)
    (c : Dev nD) (t : Fin cfg1.N) :
    (dat1 (F := Ideal) V c).flushed 8 t = ((cfg1.win 8).blk t).view.read (Elt Ideal)
      (sageA (R := 50000) (V c main_v24) (V c main_v15) (V c main_v20) (V c main_v26) (V c main_v35) (V c main_v30) (V c main_v36) (V c main_v37)) := by
  show (cfg1.win 8).cut (grid1.coords t) ((dat1 V c).after 8 t) = _
  rw [after1_8, hbody]
  refine funext_ix2 (n0 := 2000) (n1 := 128) fun p j => ?_
  show sageA (R := 2000) (iblk1 V c 0 t) (iblk1 V c 1 t) (iblk1 V c 2 t) (iblk1 V c 3 t) (iblk1 V c 4 t) (iblk1 V c 5 t) (iblk1 V c 6 t) (iblk1 V c 7 t) (ix2 p j)
      = sageA (R := 50000) (V c main_v24) (V c main_v15) (V c main_v20) (V c main_v26) (V c main_v35) (V c main_v30) (V c main_v36) (V c main_v37)
        (((cfg1.win 8).blk t).view.emb (ix2 p j))
  exact (stage_at V c t p j).trans (congrArg _ (emb8 t p j).symm)

/-- An index of the array is in point t's block iff each coordinate is in the block's range on its axis. -/
theorem mem_blk (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v38).slice (win1_8.rect t)).set ↔ _
  rw [View.set_slice_whole, Rect.mem_set_unit]
  exact Iff.rfl

/-- The 25 row blocks cover the array: row r lies in block r / 2000. -/
theorem cover (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ := idx_onto ⟨(i 0).val / 2000, by omega⟩
  have q0 : win1_8.index t (0 : Fin 2) = (i 0).val / 2000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

end R1

/-- Given what the body leaves in its output block (`hbody`: the stage of the input blocks), the region's output array ends as the stage
    of the arrays the region was entered with. -/
theorem arr1
    (hbody : ∀ (x0 : Vec Ideal S2000x128 .f32) (x1 : Vec Ideal S2000x1 .f32) (x2 : Vec Ideal S2000x128 .f32) (x3 : Vec Ideal S128x128 .f32) (x4 : Vec Ideal S1x128 .f32) (x5 : Vec Ideal S128x128 .f32) (x6 : Vec Ideal S1x128 .f32) (x7 : Vec Ideal S1x128 .f32), out1_8 (F := Ideal) x0 x1 x2 x3 x4 x5 x6 x7 = sageA (R := 2000) x0 x1 x2 x3 x4 x5 x6 x7)
    (c : Dev nD) :
    (dat1 (F := Ideal) V c).arrAt 8 cfg1.N = sageA (R := 50000) (V c main_v24) (V c main_v15) (V c main_v20) (V c main_v26) (V c main_v35) (V c main_v30) (V c main_v36) (V c main_v37) := by
  exact (dat1 (F := Ideal) V c).arrAt_eq_of_cover 8 _ (fun t _ => R1.flushed_eq V hbody c t) R1.cover

end Cert.KernelIdeal.Region

end
-- ==== Proof.RSage0.lean ====
/-
  The reference's first SAGE layer (its operations %59 … %102 after the scatter %58), read index by index, is the row-wise stage `sageA` of the summed messages %58, the inverse degrees %15, the features %48 and the layer's sliced parameters.
-/
import proofs.«404725_j721554505999_1_alg».proof.Proof.RRead
import proofs.«404725_j721554505999_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Stage

open Idealize.ShloMosaic Idealize.ShloMosaic.ValueIdx Cert.ReferenceIdeal Cert.ReferenceIdeal.Gen Cert.ReferenceIdeal.Read Cert.Spec

namespace Sage0

section Steps

variable (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal))
  (x8 : (⟨S2x128x128, .f32⟩ : BufTy).Contents (Elt Ideal)) (x9 : (⟨S2x128, .f32⟩ : BufTy).Contents (Elt Ideal)) (x10 : (⟨S2x128x128, .f32⟩ : BufTy).Contents (Elt Ideal)) (x11 x12 : (⟨S2x128, .f32⟩ : BufTy).Contents (Elt Ideal))

/-! ## The pre-normalisation row: h + relu ((msg·inv)·Wl + bl + h·Wr) -/

/-- The inverse degrees, broadcast along the features: at (r, q) the inverse degree of row r. -/
theorem at_inv (r : Fin 50000) (q : Fin 128) :
    (val_main_v59 (F := Ideal) x1) (ix2 r q) = (val_main_v15 (F := Ideal) x1) (ix2 r (0 : Fin 1)) := by
  have e : idx_main_v59 (ix2 r q) = ix2 r (0 : Fin 1) := funext fun a => Fin.ext (by match a with | ⟨0, _⟩ => rfl | ⟨1, _⟩ => rfl)
  exact (val_main_v59_apply (F := Ideal) x1 (ix2 r q)).trans (congrArg (val_main_v15 (F := Ideal) x1) e)

/-- The scaled message at (r, k): the summed message times the row's inverse degree. -/
theorem at_scaled (r : Fin 50000) (k : Fin 128) :
    (val_main_v60 (F := Ideal) x0 x1 x2 x3 x4 x5 x6 x7) (ix2 r k) = (val_main_v58 (F := Ideal) x0 x1 x2 x3 x4 x5 x6 x7) (ix2 r k) * (val_main_v15 (F := Ideal) x1) (ix2 r (0 : Fin 1)) := by
  rw [val_main_v60_apply, Ideal.mulf_def, at_inv]

/-- The scaled messages times Wl at (r, q): the sum over the contracted feature. -/
theorem at_dotl (r : Fin 50000) (q : Fin 128) :
    (val_main_v63 (F := Ideal) x0 x1 x2 x3 x4 x5 x6 x7 x8) (ix2 r q) = ∑ k : Fin 128, ((val_main_v58 (F := Ideal) x0 x1 x2 x3 x4 x5 x6 x7) (ix2 r k) * (val_main_v15 (F := Ideal) x1) (ix2 r (0 : Fin 1))) * (val_main_v62 (F := Ideal) x8) (ix2 k q) := by
  rw [val_main_v63_apply]
  refine Finset.sum_congr rfl fun k _ => ?_
  have e1 : lidx_main_v63 (ix2 r q) k = ix2 r k := funext fun a => Fin.ext (by match a with | ⟨0, _⟩ => rfl | ⟨1, _⟩ => rfl)
  have e2 : ridx_main_v63 (ix2 r q) k = ix2 k q := funext fun a => Fin.ext (by match a with | ⟨0, _⟩ => rfl | ⟨1, _⟩ => rfl)
  rw [e1, e2, at_scaled]

/-- The bias bl laid along every row: at (r, q) its q-th entry. -/
theorem at_bias (r : Fin 50000) (q : Fin 128) :
    (val_main_v67 (F := Ideal) x9) (ix2 r q) = (val_main_v65 (F := Ideal) x9) (ix1 q) := by
  have e : idx_main_v66 (idx_main_v67 (ix2 r q)) = ix1 q := funext fun a => Fin.ext (by match a with | ⟨0, _⟩ => rfl)
  exact ((val_main_v67_apply (F := Ideal) x9 (ix2 r q)).trans (val_main_v66_apply (F := Ideal) x9 _)).trans (congrArg (val_main_v65 (F := Ideal) x9) e)

/-- The features times Wr at (r, q): the sum over the contracted feature. -/
theorem at_dotr (r : Fin 50000) (q : Fin 128) :
    (val_main_v71 (F := Ideal) x0 x2 x3 x4 x5 x6 x7 x10) (ix2 r q) = ∑ k : Fin 128, (val_main_v48 (F := Ideal) x0 x2 x3 x4 x5 x6 x7) (ix2 r k) * (val_main_v70 (F := Ideal) x10) (ix2 k q) := by
  rw [val_main_v71_apply]
  refine Finset.sum_congr rfl fun k _ => ?_
  have e1 : lidx_main_v71 (ix2 r q) k = ix2 r k := funext fun a => Fin.ext (by match a with | ⟨0, _⟩ => rfl | ⟨1, _⟩ => rfl)
  have e2 : ridx_main_v71 (ix2 r q) k = ix2 k q := funext fun a => Fin.ext (by match a with | ⟨0, _⟩ => rfl | ⟨1, _⟩ => rfl)
  rw [e1, e2]

/-- relu's threshold: the zero word everywhere. -/
theorem at_zero (i : S50000x128.Idx) : val_main_call2_v0 (F := Ideal) i = (0 : EReal) := by
  rw [val_main_call2_v0_apply, val_main_call2_cst_apply, Ideal.ofBits_def, Ideal.ofBits_zero_f32]

/-- The residual row before LayerNorm at (r, q): h + max ((msg·inv)·Wl + bl + h·Wr) 0. -/
theorem at_pre (r : Fin 50000) (q : Fin 128) :
    (val_main_v74 (F := Ideal) x0 x1 x2 x3 x4 x5 x6 x7 x8 x9 x10) (ix2 r q) = (val_main_v48 (F := Ideal) x0 x2 x3 x4 x5 x6 x7) (ix2 r q) + max ((∑ k : Fin 128, ((val_main_v58 (F := Ideal) x0 x1 x2 x3 x4 x5 x6 x7) (ix2 r k) * (val_main_v15 (F := Ideal) x1) (ix2 r (0 : Fin 1))) * (val_main_v62 (F := Ideal) x8) (ix2 k q)) + (val_main_v65 (F := Ideal) x9) (ix1 q) + ∑ k : Fin 128, (val_main_v48 (F := Ideal) x0 x2 x3 x4 x5 x6 x7) (ix2 r k) * (val_main_v70 (F := Ideal) x10) (ix2 k q)) (0 : EReal) := by
  rw [val_main_v74_apply, Ideal.addf_def, val_main_v73_apply, Ideal.maximumf_def, val_main_v72_apply, Ideal.addf_def, val_main_v68_apply, Ideal.addf_def,
    at_dotl, at_bias, at_dotr, at_zero]

/-! ## The mean and the variance of a row -/

/-- The divisor 128.0, as the word the program carries. -/
theorem at_c128a (j : S50000x1.Idx) : (val_main_v81 (F := Ideal)) j = c128 :=
  (val_main_v81_apply (F := Ideal) j).trans (val_main_cst_13_apply (F := Ideal) _)
theorem at_c128b (j : S50000x1.Idx) : (val_main_v88 (F := Ideal)) j = c128 :=
  (val_main_v88_apply (F := Ideal) j).trans (val_main_cst_15_apply (F := Ideal) _)
/-- LayerNorm's ε, as the word the program carries. -/
theorem at_eps (j : S50000x1.Idx) : (val_main_v92 (F := Ideal)) j = eps :=
  (val_main_v92_apply (F := Ideal) j).trans (val_main_cst_16_apply (F := Ideal) _)

/-- The row sums: the reduction starts from the zero word, so it is the plain sum over the 128 features. -/
theorem at_sum (r : Fin 50000) :
    (val_main_v79 (F := Ideal) x0 x1 x2 x3 x4 x5 x6 x7 x8 x9 x10) (ix1 r) = ∑ k : Fin 128, (val_main_v74 (F := Ideal) x0 x1 x2 x3 x4 x5 x6 x7 x8 x9 x10) (ix2 r k) := by
  rw [val_main_v79_apply, val_main_cst_12_apply, Ideal.ofBits_def, Ideal.ofBits_zero_f32, zero_add]
  refine Finset.sum_congr rfl fun k _ => ?_
  exact congrArg (val_main_v74 (F := Ideal) x0 x1 x2 x3 x4 x5 x6 x7 x8 x9 x10) (funext fun a => Fin.ext (by match a with | ⟨0, _⟩ => rfl | ⟨1, _⟩ => rfl))

/-- The mean of row r. -/
theorem at_mean (r : Fin 50000) :
    (val_main_v82 (F := Ideal) x0 x1 x2 x3 x4 x5 x6 x7 x8 x9 x10) (ix2 r (0 : Fin 1)) = mean (fun j => (val_main_v74 (F := Ideal) x0 x1 x2 x3 x4 x5 x6 x7 x8 x9 x10) (ix2 r j)) := by
  have e : idx_main_v80 (ix2 r (0 : Fin 1)) = ix1 r := funext fun a => Fin.ext (by match a with | ⟨0, _⟩ => rfl)
  have h : (val_main_v82 (F := Ideal) x0 x1 x2 x3 x4 x5 x6 x7 x8 x9 x10) (ix2 r (0 : Fin 1)) = Ideal.div ((val_main_v79 (F := Ideal) x0 x1 x2 x3 x4 x5 x6 x7 x8 x9 x10) (ix1 r)) c128 := by
    rw [val_main_v82_apply, Ideal.hostDivf_def, at_c128a, val_main_v80_apply, e]
  exact h.trans (congrArg (fun s => Ideal.div s c128) (at_sum x0 x1 x2 x3 x4 x5 x6 x7 x8 x9 x10 r))

/-- The mean laid along the row (for the variance). -/
theorem at_mean_bc1 (r : Fin 50000) (q : Fin 128) :
    (val_main_v83 (F := Ideal) x0 x1 x2 x3 x4 x5 x6 x7 x8 x9 x10) (ix2 r q) = (val_main_v82 (F := Ideal) x0 x1 x2 x3 x4 x5 x6 x7 x8 x9 x10) (ix2 r (0 : Fin 1)) := by
  have e : idx_main_v83 (ix2 r q) = ix2 r (0 : Fin 1) := funext fun a => Fin.ext (by match a with | ⟨0, _⟩ => rfl | ⟨1, _⟩ => rfl)
  exact (val_main_v83_apply (F := Ideal) x0 x1 x2 x3 x4 x5 x6 x7 x8 x9 x10 (ix2 r q)).trans (congrArg (val_main_v82 (F := Ideal) x0 x1 x2 x3 x4 x5 x6 x7 x8 x9 x10) e)
/-- The mean laid along the row (for the centring). -/
theorem at_mean_bc2 (r : Fin 50000) (q : Fin 128) :
    (val_main_v90 (F := Ideal) x0 x1 x2 x3 x4 x5 x6 x7 x8 x9 x10) (ix2 r q) = (val_main_v82 (F := Ideal) x0 x1 x2 x3 x4 x5 x6 x7 x8 x9 x10) (ix2 r (0 : Fin 1)) := by
  have e : idx_main_v90 (ix2 r q) = ix2 r (0 : Fin 1) := funext fun a => Fin.ext (by match a with | ⟨0, _⟩ => rfl | ⟨1, _⟩ => rfl)
  exact (val_main_v90_apply (F := Ideal) x0 x1 x2 x3 x4 x5 x6 x7 x8 x9 x10 (ix2 r q)).trans (congrArg (val_main_v82 (F := Ideal) x0 x1 x2 x3 x4 x5 x6 x7 x8 x9 x10) e)

/-- The squared deviation at (r, k). -/
theorem at_sq (r : Fin 50000) (k : Fin 128) :
    (val_main_v85 (F := Ideal) x0 x1 x2 x3 x4 x5 x6 x7 x8 x9 x10) (ix2 r k) = ((val_main_v74 (F := Ideal) x0 x1 x2 x3 x4 x5 x6 x7 x8 x9 x10) (ix2 r k) - (val_main_v82 (F := Ideal) x0 x1 x2 x3 x4 x5 x6 x7 x8 x9 x10) (ix2 r (0 : Fin 1))) * ((val_main_v74 (F := Ideal) x0 x1 x2 x3 x4 x5 x6 x7 x8 x9 x10) (ix2 r k) - (val_main_v82 (F := Ideal) x0 x1 x2 x3 x4 x5 x6 x7 x8 x9 x10) (ix2 r (0 : Fin 1))) := by
  rw [val_main_v85_apply, Ideal.mulf_def, val_main_v84_apply, Ideal.subf_def, at_mean_bc1]

/-- The sum of the squared deviations of row r. -/
theorem at_sqsum (r : Fin 50000) :
    (val_main_v86 (F := Ideal) x0 x1 x2 x3 x4 x5 x6 x7 x8 x9 x10) (ix1 r) = ∑ k : Fin 128, ((val_main_v74 (F := Ideal) x0 x1 x2 x3 x4 x5 x6 x7 x8 x9 x10) (ix2 r k) - (val_main_v82 (F := Ideal) x0 x1 x2 x3 x4 x5 x6 x7 x8 x9 x10) (ix2 r (0 : Fin 1))) * ((val_main_v74 (F := Ideal) x0 x1 x2 x3 x4 x5 x6 x7 x8 x9 x10) (ix2 r k) - (val_main_v82 (F := Ideal) x0 x1 x2 x3 x4 x5 x6 x7 x8 x9 x10) (ix2 r (0 : Fin 1))) := by
  rw [val_main_v86_apply, val_main_cst_14_apply, Ideal.ofBits_def, Ideal.ofBits_zero_f32, zero_add]
  refine Finset.sum_congr rfl fun k _ => ?_
  have e : idx_main_v86 (ix1 r) k = ix2 r k := funext fun a => Fin.ext (by match a with | ⟨0, _⟩ => rfl | ⟨1, _⟩ => rfl)
  rw [e, at_sq]

/-- The variance of row r: the mean of the squared deviations. -/
theorem at_var (r : Fin 50000) :
    (val_main_v89 (F := Ideal) x0 x1 x2 x3 x4 x5 x6 x7 x8 x9 x10) (ix2 r (0 : Fin 1)) = mean (fun k => ((val_main_v74 (F := Ideal) x0 x1 x2 x3 x4 x5 x6 x7 x8 x9 x10) (ix2 r k) - (val_main_v82 (F := Ideal) x0 x1 x2 x3 x4 x5 x6 x7 x8 x9 x10) (ix2 r (0 : Fin 1))) * ((val_main_v74 (F := Ideal) x0 x1 x2 x3 x4 x5 x6 x7 x8 x9 x10) (ix2 r k) - (val_main_v82 (F := Ideal) x0 x1 x2 x3 x4 x5 x6 x7 x8 x9 x10) (ix2 r (0 : Fin 1)))) := by
  have e : idx_main_v87 (ix2 r (0 : Fin 1)) = ix1 r := funext fun a => Fin.ext (by match a with | ⟨0, _⟩ => rfl)
  have h : (val_main_v89 (F := Ideal) x0 x1 x2 x3 x4 x5 x6 x7 x8 x9 x10) (ix2 r (0 : Fin 1)) = Ideal.div ((val_main_v86 (F := Ideal) x0 x1 x2 x3 x4 x5 x6 x7 x8 x9 x10) (ix1 r)) c128 := by
    rw [val_main_v89_apply, Ideal.hostDivf_def, at_c128b, val_main_v87_apply, e]
  exact h.trans (congrArg (fun s => Ideal.div s c128) (at_sqsum x0 x1 x2 x3 x4 x5 x6 x7 x8 x9 x10 r))

/-! ## LayerNorm -/

/-- The inverse standard deviation of row r. -/
theorem at_rstd (r : Fin 50000) :
    (val_main_v94 (F := Ideal) x0 x1 x2 x3 x4 x5 x6 x7 x8 x9 x10) (ix2 r (0 : Fin 1)) = Ideal.rsqrt ((val_main_v89 (F := Ideal) x0 x1 x2 x3 x4 x5 x6 x7 x8 x9 x10) (ix2 r (0 : Fin 1)) + eps) := by
  rw [val_main_v94_apply, Ideal.hostUnary_rsqrt_def, val_main_v93_apply, Ideal.addf_def, at_eps]

/-- The inverse standard deviation laid along the row. -/
theorem at_rstd_bc (r : Fin 50000) (q : Fin 128) :
    (val_main_v95 (F := Ideal) x0 x1 x2 x3 x4 x5 x6 x7 x8 x9 x10) (ix2 r q) = (val_main_v94 (F := Ideal) x0 x1 x2 x3 x4 x5 x6 x7 x8 x9 x10) (ix2 r (0 : Fin 1)) := by
  have e : idx_main_v95 (ix2 r q) = ix2 r (0 : Fin 1) := funext fun a => Fin.ext (by match a with | ⟨0, _⟩ => rfl | ⟨1, _⟩ => rfl)
  exact (val_main_v95_apply (F := Ideal) x0 x1 x2 x3 x4 x5 x6 x7 x8 x9 x10 (ix2 r q)).trans (congrArg (val_main_v94 (F := Ideal) x0 x1 x2 x3 x4 x5 x6 x7 x8 x9 x10) e)
/-- LayerNorm's gain laid along every row: at (r, q) its q-th entry. -/
theorem at_gain (r : Fin 50000) (q : Fin 128) :
    (val_main_v98 (F := Ideal) x11) (ix2 r q) = (val_main_v76 (F := Ideal) x11) (ix1 q) := by
  have e : idx_main_v97 (idx_main_v98 (ix2 r q)) = ix1 q := funext fun a => Fin.ext (by match a with | ⟨0, _⟩ => rfl)
  exact ((val_main_v98_apply (F := Ideal) x11 (ix2 r q)).trans (val_main_v97_apply (F := Ideal) x11 _)).trans (congrArg (val_main_v76 (F := Ideal) x11) e)
/-- LayerNorm's shift laid along every row: at (r, q) its q-th entry. -/
theorem at_shift (r : Fin 50000) (q : Fin 128) :
    (val_main_v101 (F := Ideal) x12) (ix2 r q) = (val_main_v78 (F := Ideal) x12) (ix1 q) := by
  have e : idx_main_v100 (idx_main_v101 (ix2 r q)) = ix1 q := funext fun a => Fin.ext (by match a with | ⟨0, _⟩ => rfl)
  exact ((val_main_v101_apply (F := Ideal) x12 (ix2 r q)).trans (val_main_v100_apply (F := Ideal) x12 _)).trans (congrArg (val_main_v78 (F := Ideal) x12) e)

/-- The layer's result at (r, q): (v − μ)·rsqrt(σ² + ε)·g + β, with μ and σ² still the program's own values. -/
theorem at_out (r : Fin 50000) (q : Fin 128) :
    (val_main_v102 (F := Ideal) x0 x1 x2 x3 x4 x5 x6 x7 x8 x9 x10 x11 x12) (ix2 r q) =
      ((val_main_v74 (F := Ideal) x0 x1 x2 x3 x4 x5 x6 x7 x8 x9 x10) (ix2 r q) - (val_main_v82 (F := Ideal) x0 x1 x2 x3 x4 x5 x6 x7 x8 x9 x10) (ix2 r (0 : Fin 1))) * Ideal.rsqrt ((val_main_v89 (F := Ideal) x0 x1 x2 x3 x4 x5 x6 x7 x8 x9 x10) (ix2 r (0 : Fin 1)) + eps) * (val_main_v76 (F := Ideal) x11) (ix1 q) + (val_main_v78 (F := Ideal) x12) (ix1 q) := by
  rw [val_main_v102_apply, Ideal.addf_def, val_main_v99_apply, Ideal.mulf_def, val_main_v96_apply, Ideal.mulf_def, val_main_v91_apply, Ideal.subf_def,
    at_mean_bc2, at_rstd_bc, at_rstd, at_gain, at_shift]

/-- The layer's result at (r, q) is LayerNorm of the pre-normalisation row r, at q. -/
theorem at_ln (r : Fin 50000) (q : Fin 128) :
    (val_main_v102 (F := Ideal) x0 x1 x2 x3 x4 x5 x6 x7 x8 x9 x10 x11 x12) (ix2 r q) = layerNorm (fun j => (val_main_v74 (F := Ideal) x0 x1 x2 x3 x4 x5 x6 x7 x8 x9 x10) (ix2 r j)) (vec1 (val_main_v76 (F := Ideal) x11)) (vec1 (val_main_v78 (F := Ideal) x12)) q := by
  rw [at_out, at_var, at_mean]
  rfl

end Steps

/-- The row-wise stage read at (r, q), over arbitrary arrays: LayerNorm, at q, of the row h + max ((msg·inv)·Wl + bl + h·Wr) 0. -/
theorem stage_at (M : (⟨2, ![50000, 128]⟩ : Shape).Idx → EReal) (D : (⟨2, ![50000, 1]⟩ : Shape).Idx → EReal) (H : (⟨2, ![50000, 128]⟩ : Shape).Idx → EReal)
    (Wl : (⟨2, ![128, 128]⟩ : Shape).Idx → EReal) (bl : (⟨1, ![128]⟩ : Shape).Idx → EReal) (Wr : (⟨2, ![128, 128]⟩ : Shape).Idx → EReal) (g β : (⟨1, ![128]⟩ : Shape).Idx → EReal)
    (r : Fin 50000) (q : Fin 128) :
    sageA (R := 50000) M D H Wl (row1 bl) Wr (row1 g) (row1 β) (ix2 r q)
      = layerNorm (fun j : Fin 128 => H (ix2 r j) + max ((∑ k : Fin 128, (M (ix2 r k) * D (ix2 r (0 : Fin 1))) * Wl (ix2 k j)) + bl (ix1 j) + ∑ k : Fin 128, H (ix2 r k) * Wr (ix2 k j)) (0 : EReal))
          (vec1 g) (vec1 β) q := rfl

end Sage0

open Sage0

theorem ref_sage0 (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal))
    (x8 : (⟨S2x128x128, .f32⟩ : BufTy).Contents (Elt Ideal)) (x9 : (⟨S2x128, .f32⟩ : BufTy).Contents (Elt Ideal)) (x10 : (⟨S2x128x128, .f32⟩ : BufTy).Contents (Elt Ideal)) (x11 x12 : (⟨S2x128, .f32⟩ : BufTy).Contents (Elt Ideal)) :
    val_main_v102 (F := Ideal) x0 x1 x2 x3 x4 x5 x6 x7 x8 x9 x10 x11 x12
      = sageA (R := 50000) (val_main_v58 (F := Ideal) x0 x1 x2 x3 x4 x5 x6 x7) (val_main_v15 (F := Ideal) x1) (val_main_v48 (F := Ideal) x0 x2 x3 x4 x5 x6 x7)
          (val_main_v62 (F := Ideal) x8) (row1 (val_main_v65 (F := Ideal) x9)) (val_main_v70 (F := Ideal) x10)
          (row1 (val_main_v76 (F := Ideal) x11)) (row1 (val_main_v78 (F := Ideal) x12)) := by
  funext i
  obtain ⟨r, q, rfl⟩ : ∃ (r : Fin 50000) (q : Fin 128), i = ix2 r q := ⟨i 0, i 1, eq_ix2 i⟩
  have hrow : (fun j : Fin 128 => (val_main_v74 (F := Ideal) x0 x1 x2 x3 x4 x5 x6 x7 x8 x9 x10) (ix2 r j)) = fun j : Fin 128 => (val_main_v48 (F := Ideal) x0 x2 x3 x4 x5 x6 x7) (ix2 r j) + max ((∑ k : Fin 128, ((val_main_v58 (F := Ideal) x0 x1 x2 x3 x4 x5 x6 x7) (ix2 r k) * (val_main_v15 (F := Ideal) x1) (ix2 r (0 : Fin 1))) * (val_main_v62 (F := Ideal) x8) (ix2 k j)) + (val_main_v65 (F := Ideal) x9) (ix1 j) + ∑ k : Fin 128, (val_main_v48 (F := Ideal) x0 x2 x3 x4 x5 x6 x7) (ix2 r k) * (val_main_v70 (F := Ideal) x10) (ix2 k j)) (0 : EReal) :=
    funext fun j => at_pre x0 x1 x2 x3 x4 x5 x6 x7 x8 x9 x10 r j
  exact ((at_ln x0 x1 x2 x3 x4 x5 x6 x7 x8 x9 x10 x11 x12 r q).trans
    (congrArg (fun v : Row => layerNorm v (vec1 (val_main_v76 (F := Ideal) x11)) (vec1 (val_main_v78 (F := Ideal) x12)) q) hrow)).trans
    (stage_at (val_main_v58 (F := Ideal) x0 x1 x2 x3 x4 x5 x6 x7) (val_main_v15 (F := Ideal) x1) (val_main_v48 (F := Ideal) x0 x2 x3 x4 x5 x6 x7) (val_main_v62 (F := Ideal) x8) (val_main_v65 (F := Ideal) x9) (val_main_v70 (F := Ideal) x10) (val_main_v76 (F := Ideal) x11) (val_main_v78 (F := Ideal) x12) r q).symm

end Cert.ReferenceIdeal.Stage

end
-- ==== Proof.KBodyProj.lean ====
/-
  What the projection kernel's body leaves in its output block, as mathematics: row p of the block is the
  projection + LayerNorm of row p of the input block (the weights and biases whole).
-/
import proofs.«404725_j721554505999_1_alg».proof.Proof.Gen.KernelIdeal.Frame
import proofs.«404725_j721554505999_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Body

open Idealize.ShloMosaic Idealize.ShloMosaic.ValueIdx Cert.KernelIdeal Cert.KernelIdeal.Gen Cert.Spec

namespace Proj

/-! ## The [2000, 128] × [128, 128] product at one entry

The operand indices of the contraction at output (p, q) and contraction coordinate k are (p, k) and (k, q):
axis by axis, then the contraction's sum re-indexed by its one coordinate. -/

theorem projDot_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem projDot_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem projDot_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem projDot_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, at (p, q): the sum over k of v(p, k) · w(k, q). -/
theorem matmul_at (v : FVec Ideal S2000x128 .f32) (w : FVec Ideal S128x128 .f32) (p : Fin 2000) (q : Fin 128) :
    matmul dot_S2000x128_S128x128_S2000x128_1_0_0_1_n_n none v w (constant (F := Ideal) S2000x128 .f32 0x00000000#32) (ix2 p q)
      = ∑ k : Fin 128, v (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact projDot_lhs_0 _ _
    | ⟨1, _⟩ => exact (projDot_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (projDot_rhs_0 _ _).trans hk
    | ⟨1, _⟩ => exact projDot_rhs_1 _ _)
  rw [el, er]

/-! ## The lane sum, the column cast and the two broadcasts, each at one entry -/

/-- The sum along the lanes of a [2000, 128] array, at row p. -/
theorem laneSum_at (v : FVec Ideal S2000x128 .f32) (hacc : (0x00000000#32 : BitVec 32) = 0x00000000#32) (p : Fin 2000) :
    multiReduction (F := Ideal) .add [1] S2000 v 0x00000000#32 reduces_S2000x128_S2000 (.inl rfl) hacc (ix1 p)
      = ∑ k : Fin 128, v (ix2 p k) := by
  refine (Ideal.multiReduction_add_single v 0x00000000#32 reduces_S2000x128_S2000 (.inl rfl) hacc (ix1 p)).trans ?_
  refine Finset.sum_congr rfl fun k _ => congrArg v (funext fun a => Fin.ext ?_)
  match a with
  | ⟨0, _⟩ => rfl
  | ⟨1, _⟩ => rfl

/-- A vector of 2000 entries laid out as a [2000, 1] column reads its entry p at (p, 0). -/
theorem colCast_at (v : FVec Ideal S2000 .f32) (p : Fin 2000) :
    shapeCast S2000x1 v shapeCasts_S2000_S2000x1 (ix2 p (0 : Fin 1)) = v (ix1 p) := by
  refine shapeCast_apply v shapeCasts_S2000_S2000x1 (ix2 p (0 : Fin 1)) (ix1 p) ?_
  rw [Shape.rowMajor_val_one, Shape.rowMajor_val_two]
  show p.val = p.val * 1 + 0
  omega

/-- A [2000, 1] column broadcast along the lanes reads, at (p, q), its entry (p, 0). -/
theorem colBcast_at (v : FVec Ideal S2000x1 .f32) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ => rfl
  | ⟨1, _⟩ => rfl

/-- A [1, 128] row broadcast down the 2000 rows reads, at (p, q), its entry (0, q). -/
theorem rowBcast_at (v : FVec Ideal S1x128 .f32) (p : Fin 2000) (q : Fin 128) :
    broadcastTo S2000x128 v broadcasts_S1x128_S2000x128 (ix2 p q) = v (ix2 (0 : Fin 1) q) := by
  refine broadcastTo_apply v broadcasts_S1x128_S2000x128 (ix2 p q) (ix2 (0 : Fin 1) q) fun ax => ?_
  match ax with
  | ⟨0, _⟩ => rfl
  | ⟨1, _⟩ => rfl

/-- A reciprocal square root of a vector, at one entry. -/
theorem rsqrt_at {s : Shape} (v : FVec Ideal s .f32) (i : s.Idx) : rsqrt v i = Ideal.rsqrt (v i) := rfl

/-- A maximum against the splat of the zero word, at one entry: the rectifier. -/
theorem reluSplat_at {s : Shape} (v : FVec Ideal s .f32) (i : s.Idx) :
    maximumf v (broadcast s (Scalar.ofBits (F := Ideal) .f32 0x00000000#32)) i = relu (v i) := by
  show max (v i) (Ideal.ofBits .f32 0x00000000#32) = max (v i) 0
  rw [Ideal.ofBits_zero_f32]

/-! ## The body's arithmetic at one entry -/

/-- The normalised row before scale and shift: entry (p, q) of the body's (v − μ)·rsqrt(σ² + ε), where v is row p
    of the two dense layers' result. -/
theorem pay4_at (x0 : Vec Ideal S2000x128 .f32) (x1 : Vec Ideal S128x128 .f32) (x2 : Vec Ideal S1x128 .f32)
    (x3 : Vec Ideal S128x128 .f32) (x4 : Vec Ideal S1x128 .f32) (p : Fin 2000) (q : Fin 128) :
    k0_pay4 (F := Ideal) x0 x1 x2 x3 x4 (ix2 p q)
      = (lin (fun k => relu (lin (mat2 x0 p) (mat2 x1) (mat2 x2 0) k)) (mat2 x3) (mat2 x4 0) q
          - mean (lin (fun k => relu (lin (mat2 x0 p) (mat2 x1) (mat2 x2 0) k)) (mat2 x3) (mat2 x4 0)))
        * Ideal.rsqrt (mean (fun j =>
            (lin (fun k => relu (lin (mat2 x0 p) (mat2 x1) (mat2 x2 0) k)) (mat2 x3) (mat2 x4 0) j
              - mean (lin (fun k => relu (lin (mat2 x0 p) (mat2 x1) (mat2 x2 0) k)) (mat2 x3) (mat2 x4 0)))
            * (lin (fun k => relu (lin (mat2 x0 p) (mat2 x1) (mat2 x2 0) k)) (mat2 x3) (mat2 x4 0) j
              - mean (lin (fun k => relu (lin (mat2 x0 p) (mat2 x1) (mat2 x2 0) k)) (mat2 x3) (mat2 x4 0)))) + eps) := by
  unfold k0_pay4
  simp only [mulf_apply, subf_apply, addf_apply, divf_apply, broadcast_apply, rsqrt_at, reluSplat_at, matmul_at,
    colCast_at, colBcast_at, rowBcast_at, shapeCast_self]
  rw [laneSum_at, laneSum_at]
  simp only [mulf_apply, subf_apply, addf_apply, divf_apply, broadcast_apply, rsqrt_at, reluSplat_at, matmul_at,
    colCast_at, colBcast_at, rowBcast_at, shapeCast_self]
  rw [laneSum_at]
  simp only [mulf_apply, subf_apply, addf_apply, divf_apply, broadcast_apply, rsqrt_at, reluSplat_at, matmul_at,
    colCast_at, colBcast_at, rowBcast_at, shapeCast_self]
  simp only [lin, dotRow, mean, mat2, c128, eps, Ideal.ofBits_def]

/-- The body's stored value at (p, q): the normalised row scaled by g and shifted by β. -/
theorem pay1_at (x0 : Vec Ideal S2000x128 .f32) (x1 : Vec Ideal S128x128 .f32) (x2 : Vec Ideal S1x128 .f32)
    (x3 : Vec Ideal S128x128 .f32) (x4 x5 x6 : Vec Ideal S1x128 .f32) (p : Fin 2000) (q : Fin 128) :
    k0_pay1 (F := Ideal) (k0_pay2 x5) (k0_pay3 x6) (k0_pay4 x0 x1 x2 x3 x4) (ix2 p q)
      = projRow (mat2 x0 p) (mat2 x1) (mat2 x2 0) (mat2 x3) (mat2 x4 0) (mat2 x5 0) (mat2 x6 0) q := by
  unfold k0_pay1 k0_pay2 k0_pay3
  simp only [mulf_apply, addf_apply, rowBcast_at, shapeCast_self, pay4_at]
  rfl

end Proj

open Proj

theorem out0_7_eq (x0 : Vec Ideal S2000x128 .f32) (x1 : Vec Ideal S128x128 .f32) (x2 : Vec Ideal S1x128 .f32)
    (x3 : Vec Ideal S128x128 .f32) (x4 x5 x6 : Vec Ideal S1x128 .f32) :
    out0_7 (F := Ideal) x0 x1 x2 x3 x4 x5 x6 = projA (R := 2000) x0 x1 x2 x3 x4 x5 x6 := by
  have hz : (![0, 0] : Fin 2 → Nat) = fun _ => 0 := funext fun a => by fin_cases a <;> rfl
  unfold out0_7
  rw [View.canon_unit_zero hz]
  simp only [View.ld_unit_zero (S := S2000x128) hz, View.ld_unit_zero (S := S128x128) hz,
    View.ld_unit_zero (S := S1x128) hz]
  funext j
  obtain ⟨p, q, rfl⟩ : ∃ (p : Fin 2000) (q : Fin 128), j = ix2 p q := ⟨j 0, j 1, eq_ix2 j⟩
  exact pay1_at x0 x1 x2 x3 x4 x5 x6 p q

end Cert.KernelIdeal.Body

end
-- ==== Proof.KRegion0.lean ====
/-
  Region 0 (the projection) on whole arrays: its 25 row blocks tile the [50000, 128] output, block t being the stage of row block t of x, so the output array ends as the stage of the arrays the region was entered with.
-/
import proofs.«404725_j721554505999_1_alg».proof.Proof.Gen.KernelIdeal.Frame
import proofs.«404725_j721554505999_1_alg».proof.Proof.Spec
import Idealize.ShloMosaic.PureOps.Ideal
import Idealize.ShloMosaic.Lib.ValueIdx
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem Cert.KernelIdeal Cert.KernelIdeal.Gen Cert.Spec

variable (V : (c : Dev nD) → (b : Ref sig .tc) → Buf (Elt Ideal) ((c : Thread nD τ).loc b))

namespace R0

/-- The printed index maps, decided over the grid: the row window of x moves with the output window along the rows,
    both sit at column block 0, the output's row block stays below 25, and every parameter window sits at block (0, 0). -/
theorem idx_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) ≤ 24
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every one of the 25 row blocks of the output is some point's. -/
theorem idx_onto : ∀ q0 : Fin 25, ∃ t : Fin cfg0.N, win0_7.index t = ![q0.val, 0] :=
  (by decide +kernel : ∀ q0 : Fin 25, ∃ t : Fin grid0.N, win0_7.index t = ![q0.val, 0])

/-- Two functions of a rank-2 index agree when they agree at every pair of coordinates. -/
theorem funext_ix2 {n0 n1 : Nat} {α : Type} {f g : (⟨2, ![n0, n1]⟩ : Shape).Idx → α}
    (h : ∀ (p : Fin n0) (j : Fin n1), f (ix2 p j) = g (ix2 p j)) : f = g :=
  funext fun y => by rw [eq_ix2 y]; exact h _ _

/-- Row p of point t's output block is row `block index × 2000 + p` of the array. -/
def rowOf (t : Fin cfg0.N) (p : Fin 2000) : Fin 50000 :=
  ⟨win0_7.index t (0 : Fin 2) * 2000 + p.val, by have := (idx_facts t).2.2.2.1; omega⟩

/-- The output block's rectangle carries (p, j) to (rowOf t p, j). -/
theorem emb7 (t : Fin cfg0.N) (p : Fin 2000) (j : Fin 128) :
    (((cfg0.win 7).blk t).view.emb (ix2 p j) : S50000x128.Idx) = ix2 (rowOf t p) j := by
  obtain ⟨_, _, e71, _⟩ := idx_facts t
  funext a; apply Fin.ext
  match a with
  | ⟨0, _⟩ => show win0_7.index t (0 : Fin 2) * 2000 + 1 * p.val = win0_7.index t (0 : Fin 2) * 2000 + p.val; omega
  | ⟨1, _⟩ => show win0_7.index t (1 : Fin 2) * 128 + 1 * j.val = j.val; omega

/-- The row window of x at point t, read at (p, j), is x at (rowOf t p, j). -/
theorem blk0 (c : Dev nD) (t : Fin cfg0.N) (p : Fin 2000) (j : Fin 128) :
    (iblk0 V c 0 t : Vec Ideal S2000x128 .f32) (ix2 p j) = (V c main_arg0 : Vec Ideal S50000x128 .f32) (ix2 (rowOf t p) j) := by
  obtain ⟨e00, e01, _⟩ := idx_facts t
  show V c main_arg0 (((cfg0.win 0).blk t).view.emb (ix2 p j)) = _
  refine congrArg (V c main_arg0) ?_
  funext a; apply Fin.ext
  match a with
  | ⟨0, _⟩ => show win0_0.index t (0 : Fin 2) * 2000 + 1 * p.val = win0_7.index t (0 : Fin 2) * 2000 + p.val; omega
  | ⟨1, _⟩ => show win0_0.index t (1 : Fin 2) * 128 + 1 * j.val = j.val; omega

theorem blk1 (c : Dev nD) (t : Fin cfg0.N) : (iblk0 V c 1 t : Vec Ideal S128x128 .f32) = V c main_arg2 := by
  obtain ⟨_, _, _, _, e10, e11, e20, e21, e30, e31, e40, e41, e50, e51, e60, e61⟩ := idx_facts t
  funext z
  show V c main_arg2 (((cfg0.win 1).blk t).view.emb z) = V c main_arg2 z
  refine congrArg (V c main_arg2) ?_
  funext a; apply Fin.ext
  match a with
  | ⟨0, _⟩ => show win0_1.index t (0 : Fin 2) * 128 + 1 * (z 0).val = (z 0).val; omega
  | ⟨1, _⟩ => show win0_1.index t (1 : Fin 2) * 128 + 1 * (z 1).val = (z 1).val; omega

theorem blk2 (c : Dev nD) (t : Fin cfg0.N) : (iblk0 V c 2 t : Vec Ideal S1x128 .f32) = V c main_v16 := by
  obtain ⟨_, _, _, _, e10, e11, e20, e21, e30, e31, e40, e41, e50, e51, e60, e61⟩ := idx_facts t
  funext z
  show V c main_v16 (((cfg0.win 2).blk t).view.emb z) = V c main_v16 z
  refine congrArg (V c main_v16) ?_
  funext a; apply Fin.ext
  match a with
  | ⟨0, _⟩ => show win0_2.index t (0 : Fin 2) * 1 + 1 * (z 0).val = (z 0).val; omega
  | ⟨1, _⟩ => show win0_2.index t (1 : Fin 2) * 128 + 1 * (z 1).val = (z 1).val; omega

theorem blk3 (c : Dev nD) (t : Fin cfg0.N) : (iblk0 V c 3 t : Vec Ideal S128x128 .f32) = V c main_arg4 := by
  obtain ⟨_, _, _, _, e10, e11, e20, e21, e30, e31, e40, e41, e50, e51, e60, e61⟩ := idx_facts t
  funext z
  show V c main_arg4 (((cfg0.win 3).blk t).view.emb z) = V c main_arg4 z
  refine congrArg (V c main_arg4) ?_
  funext a; apply Fin.ext
  match a with
  | ⟨0, _⟩ => show win0_3.index t (0 : Fin 2) * 128 + 1 * (z 0).val = (z 0).val; omega
  | ⟨1, _⟩ => show win0_3.index t (1 : Fin 2) * 128 + 1 * (z 1).val = (z 1).val; omega

theorem blk4 (c : Dev nD) (t : Fin cfg0.N) : (iblk0 V c 4 t : Vec Ideal S1x128 .f32) = V c main_v17 := by
  obtain ⟨_, _, _, _, e10, e11, e20, e21, e30, e31, e40, e41, e50, e51, e60, e61⟩ := idx_facts t
  funext z
  show V c main_v17 (((cfg0.win 4).blk t).view.emb z) = V c main_v17 z
  refine congrArg (V c main_v17) ?_
  funext a; apply Fin.ext
  match a with
  | ⟨0, _⟩ => show win0_4.index t (0 : Fin 2) * 1 + 1 * (z 0).val = (z 0).val; omega
  | ⟨1, _⟩ => show win0_4.index t (1 : Fin 2) * 128 + 1 * (z 1).val = (z 1).val; omega

theorem blk5 (c : Dev nD) (t : Fin cfg0.N) : (iblk0 V c 5 t : Vec Ideal S1x128 .f32) = V c main_v18 := by
  obtain ⟨_, _, _, _, e10, e11, e20, e21, e30, e31, e40, e41, e50, e51, e60, e61⟩ := idx_facts t
  funext z
  show V c main_v18 (((cfg0.win 5).blk t).view.emb z) = V c main_v18 z
  refine congrArg (V c main_v18) ?_
  funext a; apply Fin.ext
  match a with
  | ⟨0, _⟩ => show win0_5.index t (0 : Fin 2) * 1 + 1 * (z 0).val = (z 0).val; omega
  | ⟨1, _⟩ => show win0_5.index t (1 : Fin 2) * 128 + 1 * (z 1).val = (z 1).val; omega

theorem blk6 (c : Dev nD) (t : Fin cfg0.N) : (iblk0 V c 6 t : Vec Ideal S1x128 .f32) = V c main_v19 := by
  obtain ⟨_, _, _, _, e10, e11, e20, e21, e30, e31, e40, e41, e50, e51, e60, e61⟩ := idx_facts t
  funext z
  show V c main_v19 (((cfg0.win 6).blk t).view.emb z) = V c main_v19 z
  refine congrArg (V c main_v19) ?_
  funext a; apply Fin.ext
  match a with
  | ⟨0, _⟩ => show win0_6.index t (0 : Fin 2) * 1 + 1 * (z 0).val = (z 0).val; omega
  | ⟨1, _⟩ => show win0_6.index t (1 : Fin 2) * 128 + 1 * (z 1).val = (z 1).val; omega

/-- The stage of point t's input blocks at (p, j) is the stage of the whole arrays at (rowOf t p, j): the stage is row-wise in x
    and takes the parameter arrays whole. -/
theorem stage_at (c : Dev nD) (t : Fin cfg0.N) (p : Fin 2000) (j : Fin 128) :
    projA (R := 2000) (iblk0 V c 0 t) (iblk0 V c 1 t) (iblk0 V c 2 t) (iblk0 V c 3 t) (iblk0 V c 4 t) (iblk0 V c 5 t) (iblk0 V c 6 t) (ix2 p j)
      = projA (R := 50000) (V c main_arg0) (V c main_arg2) (V c main_v16) (V c main_arg4) (V c main_v17) (V c main_v18) (V c main_v19) (ix2 (rowOf t p) j) := by
  have hx : mat2 (iblk0 V c 0 t : Vec Ideal S2000x128 .f32) p = mat2 (V c main_arg0 : Vec Ideal S50000x128 .f32) (rowOf t p) :=
    funext fun k => blk0 V c t p k
  show projRow (mat2 (iblk0 V c 0 t : Vec Ideal S2000x128 .f32) p) (mat2 (iblk0 V c 1 t : Vec Ideal S128x128 .f32)) (mat2 (iblk0 V c 2 t : Vec Ideal S1x128 .f32) 0)
      (mat2 (iblk0 V c 3 t : Vec Ideal S128x128 .f32)) (mat2 (iblk0 V c 4 t : Vec Ideal S1x128 .f32) 0) (mat2 (iblk0 V c 5 t : Vec Ideal S1x128 .f32) 0) (mat2 (iblk0 V c 6 t : Vec Ideal S1x128 .f32) 0) j
    = projRow (mat2 (V c main_arg0 : Vec Ideal S50000x128 .f32) (rowOf t p)) (mat2 (V c main_arg2 : Vec Ideal S128x128 .f32)) (mat2 (V c main_v16 : Vec Ideal S1x128 .f32) 0)
      (mat2 (V c main_arg4 : Vec Ideal S128x128 .f32)) (mat2 (V c main_v17 : Vec Ideal S1x128 .f32) 0) (mat2 (V c main_v18 : Vec Ideal S1x128 .f32) 0) (mat2 (V c main_v19 : Vec Ideal S1x128 .f32) 0) j
  rw [hx, blk1 V c t, blk2 V c t, blk3 V c t, blk4 V c t, blk5 V c t, blk6 V c t]

/-- What point t writes back is block t of the stage of the arrays the region was entered with. -/
theorem flushed_eq
    (hbody : ∀ (x0 : Vec Ideal S2000x128 .f32) (x1 : Vec Ideal S128x128 .f32) (x2 : Vec Ideal S1x128 .f32) (x3 : Vec Ideal S128x128 .f32) (x4 : Vec Ideal S1x128 .f32) (x5 : Vec Ideal S1x128 .f32) (x6 : Vec Ideal S1x128 .f32), out0_7 (F := Ideal) x0 x1 x2 x3 x4 x5 x6 = projA (R := 2000) x0 x1 x2 x3 x4 x5 x6)
    (c : Dev nD) (t : Fin cfg0.N) :
    (dat0 (F := Ideal) V c).flushed 7 t = ((cfg0.win 7).blk t).view.read (Elt Ideal)
      (projA (R := 50000) (V c main_arg0) (V c main_arg2) (V c main_v16) (V c main_arg4) (V c main_v17) (V c main_v18) (V c main_v19)) := by
  show (cfg0.win 7).cut (grid0.coords t) ((dat0 V c).after 7 t) = _
  rw [after0_7, hbody]
  refine funext_ix2 (n0 := 2000) (n1 := 128) fun p j => ?_
  show projA (R := 2000) (iblk0 V c 0 t) (iblk0 V c 1 t) (iblk0 V c 2 t) (iblk0 V c 3 t) (iblk0 V c 4 t) (iblk0 V c 5 t) (iblk0 V c 6 t) (ix2 p j)
      = projA (R := 50000) (V c main_arg0) (V c main_arg2) (V c main_v16) (V c main_arg4) (V c main_v17) (V c main_v18) (V c main_v19)
        (((cfg0.win 7).blk t).view.emb (ix2 p j))
  exact (stage_at V c t p j).trans (congrArg _ (emb7 t p j).symm)

/-- An index of the array is in point t's block iff each coordinate is in the block's range on its axis. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v20).slice (win0_7.rect t)).set ↔ _
  rw [View.set_slice_whole, Rect.mem_set_unit]
  exact Iff.rfl

/-- The 25 row blocks cover the array: row r lies in block r / 2000. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

end R0

/-- Given what the body leaves in its output block (`hbody`: the stage of the input blocks), the region's output array ends as the stage
    of the arrays the region was entered with. -/
theorem arr0
    (hbody : ∀ (x0 : Vec Ideal S2000x128 .f32) (x1 : Vec Ideal S128x128 .f32) (x2 : Vec Ideal S1x128 .f32) (x3 : Vec Ideal S128x128 .f32) (x4 : Vec Ideal S1x128 .f32) (x5 : Vec Ideal S1x128 .f32) (x6 : Vec Ideal S1x128 .f32), out0_7 (F := Ideal) x0 x1 x2 x3 x4 x5 x6 = projA (R := 2000) x0 x1 x2 x3 x4 x5 x6)
    (c : Dev nD) :
    (dat0 (F := Ideal) V c).arrAt 7 cfg0.N = projA (R := 50000) (V c main_arg0) (V c main_arg2) (V c main_v16) (V c main_arg4) (V c main_v17) (V c main_v18) (V c main_v19) := by
  exact (dat0 (F := Ideal) V c).arrAt_eq_of_cover 7 _ (fun t _ => R0.flushed_eq V hbody c t) R0.cover

end Cert.KernelIdeal.Region

end
-- ==== Proof.RProj.lean ====
/-
  The reference's input projection + LayerNorm (its operations %16 … %48), read index by index, is the row-wise stage `projA` of its arguments (each [128] bias laid out as one row).
-/
import proofs.«404725_j721554505999_1_alg».proof.Proof.RRead
import proofs.«404725_j721554505999_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Stage.Proj

open Idealize.ShloMosaic Idealize.ShloMosaic.ValueIdx Cert.ReferenceIdeal Cert.ReferenceIdeal.Gen Cert.ReferenceIdeal.Read Cert.Spec

/-! ### The composed index maps, at the coordinates (r, q), are the coordinate constructors -/

theorem lhs16_ix (r : Fin 50000) (q k : Fin 128) : lidx_main_v16 (ix2 r q) k = ix2 r k :=
  funext fun a => Fin.ext (by match a with | ⟨0, _⟩ => rfl | ⟨1, _⟩ => rfl)
theorem rhs16_ix (r : Fin 50000) (q k : Fin 128) : ridx_main_v16 (ix2 r q) k = ix2 k q :=
  funext fun a => Fin.ext (by match a with | ⟨0, _⟩ => rfl | ⟨1, _⟩ => rfl)
theorem bias18_ix (r : Fin 50000) (q : Fin 128) : idx_main_v17 (idx_main_v18 (ix2 r q)) = ix1 q :=
  funext fun a => Fin.ext (by match a with | ⟨0, _⟩ => rfl)
theorem lhs21_ix (r : Fin 50000) (q k : Fin 128) : lidx_main_v21 (ix2 r q) k = ix2 r k :=
  funext fun a => Fin.ext (by match a with | ⟨0, _⟩ => rfl | ⟨1, _⟩ => rfl)
theorem rhs21_ix (r : Fin 50000) (q k : Fin 128) : ridx_main_v21 (ix2 r q) k = ix2 k q :=
  funext fun a => Fin.ext (by match a with | ⟨0, _⟩ => rfl | ⟨1, _⟩ => rfl)
theorem bias23_ix (r : Fin 50000) (q : Fin 128) : idx_main_v22 (idx_main_v23 (ix2 r q)) = ix1 q :=
  funext fun a => Fin.ext (by match a with | ⟨0, _⟩ => rfl)
theorem sum25_ix (r : Fin 50000) (k : Fin 128) : idx_main_v25 (idx_main_v26 (ix2 r (0 : Fin 1))) k = ix2 r k :=
  funext fun a => Fin.ext (by match a with | ⟨0, _⟩ => rfl | ⟨1, _⟩ => rfl)
theorem col29_ix (r : Fin 50000) (q : Fin 128) : idx_main_v29 (ix2 r q) = ix2 r (0 : Fin 1) :=
  funext fun a => Fin.ext (by match a with | ⟨0, _⟩ => rfl | ⟨1, _⟩ => rfl)
theorem sum32_ix (r : Fin 50000) (k : Fin 128) : idx_main_v32 (idx_main_v33 (ix2 r (0 : Fin 1))) k = ix2 r k :=
  funext fun a => Fin.ext (by match a with | ⟨0, _⟩ => rfl | ⟨1, _⟩ => rfl)
theorem col36_ix (r : Fin 50000) (q : Fin 128) : idx_main_v36 (ix2 r q) = ix2 r (0 : Fin 1) :=
  funext fun a => Fin.ext (by match a with | ⟨0, _⟩ => rfl | ⟨1, _⟩ => rfl)
theorem col41_ix (r : Fin 50000) (q : Fin 128) : idx_main_v41 (ix2 r q) = ix2 r (0 : Fin 1) :=
  funext fun a => Fin.ext (by match a with | ⟨0, _⟩ => rfl | ⟨1, _⟩ => rfl)
theorem scale44_ix (r : Fin 50000) (q : Fin 128) : idx_main_v43 (idx_main_v44 (ix2 r q)) = ix1 q :=
  funext fun a => Fin.ext (by match a with | ⟨0, _⟩ => rfl)
theorem shift47_ix (r : Fin 50000) (q : Fin 128) : idx_main_v46 (idx_main_v47 (ix2 r q)) = ix1 q :=
  funext fun a => Fin.ext (by match a with | ⟨0, _⟩ => rfl)

section
variable (x0 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal))

/-- The hidden layer %20 at (r, k): relu of the first linear layer on row r of x. -/
theorem hidden_apply (r : Fin 50000) (k : Fin 128) :
    val_main_v20 (F := Ideal) x0 x2 x3 (ix2 r k) = relu (lin (mat2 x0 r) (mat2 x2) (mat2 (row1 x3) 0) k) := by
  rw [val_main_v20_apply, val_main_v19_apply, val_main_v16_apply, val_main_v18_apply, val_main_v17_apply,
    val_main_call1_v0_apply, val_main_call1_cst_apply]
  simp only [lhs16_ix, rhs16_ix, bias18_ix, Ideal.maximumf_def, Ideal.addf_def, Ideal.ofBits_def, Ideal.ofBits_zero_f32]
  rfl

/-- The second linear layer %24 at (r, q): the row that LayerNorm normalizes. -/
theorem pre_apply (r : Fin 50000) (q : Fin 128) :
    val_main_v24 (F := Ideal) x0 x2 x3 x4 x5 (ix2 r q)
      = lin (fun k => relu (lin (mat2 x0 r) (mat2 x2) (mat2 (row1 x3) 0) k)) (mat2 x4) (mat2 (row1 x5) 0) q := by
  rw [val_main_v24_apply, val_main_v21_apply, val_main_v23_apply, val_main_v22_apply]
  simp only [lhs21_ix, rhs21_ix, bias23_ix, hidden_apply, Ideal.addf_def]
  rfl

/-- %28, the row sum over 128.0 (the sum starts from the zero word), is the mean of row r of %24. -/
theorem mean_apply (r : Fin 50000) :
    val_main_v28 (F := Ideal) x0 x2 x3 x4 x5 (ix2 r (0 : Fin 1))
      = mean (fun q => val_main_v24 (F := Ideal) x0 x2 x3 x4 x5 (ix2 r q)) := by
  rw [val_main_v28_apply, val_main_v26_apply, val_main_v25_apply, val_main_v27_apply, val_main_cst_6_apply, val_main_cst_5_apply]
  simp only [sum25_ix, Ideal.hostDivf_def, Ideal.ofBits_def, Ideal.ofBits_zero_f32, zero_add]
  rfl

/-- %35, the mean of the squared deviations of row r of %24. -/
theorem var_apply (r : Fin 50000) :
    val_main_v35 (F := Ideal) x0 x2 x3 x4 x5 (ix2 r (0 : Fin 1))
      = mean (fun k => (val_main_v24 (F := Ideal) x0 x2 x3 x4 x5 (ix2 r k) - mean (fun q => val_main_v24 (F := Ideal) x0 x2 x3 x4 x5 (ix2 r q)))
          * (val_main_v24 (F := Ideal) x0 x2 x3 x4 x5 (ix2 r k) - mean (fun q => val_main_v24 (F := Ideal) x0 x2 x3 x4 x5 (ix2 r q)))) := by
  rw [val_main_v35_apply, val_main_v33_apply, val_main_v32_apply, val_main_v34_apply, val_main_cst_8_apply, val_main_cst_7_apply]
  simp only [sum32_ix, val_main_v31_apply, val_main_v30_apply, val_main_v29_apply, col29_ix, mean_apply,
    Ideal.hostDivf_def, Ideal.mulf_def, Ideal.subf_def, Ideal.ofBits_def, Ideal.ofBits_zero_f32, zero_add]
  rfl

/-- %48 at (r, q) is LayerNorm of row r of %24 with the scale x6 and the shift x7. -/
theorem norm_apply (r : Fin 50000) (q : Fin 128) :
    val_main_v48 (F := Ideal) x0 x2 x3 x4 x5 x6 x7 (ix2 r q)
      = layerNorm (fun k => val_main_v24 (F := Ideal) x0 x2 x3 x4 x5 (ix2 r k)) (mat2 (row1 x6) 0) (mat2 (row1 x7) 0) q := by
  rw [val_main_v48_apply, val_main_v45_apply, val_main_v42_apply, val_main_v37_apply, val_main_v36_apply, val_main_v41_apply,
    val_main_v40_apply, val_main_v39_apply, val_main_v38_apply, val_main_cst_9_apply, val_main_v44_apply, val_main_v43_apply,
    val_main_v47_apply, val_main_v46_apply]
  simp only [col36_ix, col41_ix, scale44_ix, shift47_ix, mean_apply, var_apply,
    Ideal.addf_def, Ideal.mulf_def, Ideal.subf_def, Ideal.hostUnary_rsqrt_def, Ideal.ofBits_def]
  rfl

end

end Cert.ReferenceIdeal.Stage.Proj

namespace Cert.ReferenceIdeal.Stage

open Idealize.ShloMosaic Idealize.ShloMosaic.ValueIdx Cert.ReferenceIdeal Cert.ReferenceIdeal.Gen Cert.ReferenceIdeal.Read Cert.Spec
open Cert.ReferenceIdeal.Stage.Proj

theorem ref_proj (x0 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) :
    val_main_v48 (F := Ideal) x0 x2 x3 x4 x5 x6 x7 = projA (R := 50000) x0 x2 (row1 x3) x4 (row1 x5) (row1 x6) (row1 x7) := by
  funext i
  obtain ⟨r, q, rfl⟩ : ∃ (r : Fin 50000) (q : Fin 128), i = ix2 r q := ⟨i 0, i 1, eq_ix2 i⟩
  have hrow : (fun k => val_main_v24 (F := Ideal) x0 x2 x3 x4 x5 (ix2 r k))
      = lin (fun k => relu (lin (mat2 x0 r) (mat2 x2) (mat2 (row1 x3) 0) k)) (mat2 x4) (mat2 (row1 x5) 0) :=
    funext fun k => pre_apply x0 x2 x3 x4 x5 r k
  rw [norm_apply, hrow]
  rfl

end Cert.ReferenceIdeal.Stage

end
-- ==== Proof.KValue0.lean ====
/-
  The kernel program's values up to the end of region 0. At region 0's entry the arguments are as launched and
  each [128] bias or LayerNorm parameter has been reshaped to [1, 128]; region 0 leaves the projection + LayerNorm
  of x, which is the reference's %48 at the same arguments.
-/
import proofs.«404725_j721554505999_1_alg».proof.Proof.Gen.KernelIdeal.Frame
import proofs.«404725_j721554505999_1_alg».proof.Proof.RRead
import proofs.«404725_j721554505999_1_alg».proof.Proof.Spec
import proofs.«404725_j721554505999_1_alg».proof.Proof.Layout
import proofs.«404725_j721554505999_1_alg».proof.Proof.KBodyProj
import proofs.«404725_j721554505999_1_alg».proof.Proof.KRegion0
import proofs.«404725_j721554505999_1_alg».proof.Proof.RProj
import Idealize.ShloMosaic.Lib.StableHlo.Run
import Idealize.ShloMosaic.PureOps.Ideal

set_option maxRecDepth 16384

noncomputable section

namespace Cert.KernelIdeal.Value

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## Region 0's entry contents -/

theorem e0_arg0 (c : Dev nD) : V3 m ρ c main_arg0 = (m ((c : Thread nD τ).loc main_arg0)) := by
  dsimp only [V3, W3, W2, W1, W0, hostOps0_2, hostOps0_1, hostOps0]; after_results; all_goals rfl
theorem e0_arg2 (c : Dev nD) : V3 m ρ c main_arg2 = (m ((c : Thread nD τ).loc main_arg2)) := by
  dsimp only [V3, W3, W2, W1, W0, hostOps0_2, hostOps0_1, hostOps0]; after_results; all_goals rfl
theorem e0_arg4 (c : Dev nD) : V3 m ρ c main_arg4 = (m ((c : Thread nD τ).loc main_arg4)) := by
  dsimp only [V3, W3, W2, W1, W0, hostOps0_2, hostOps0_1, hostOps0]; after_results; all_goals rfl
theorem e0_v16 (c : Dev nD) : V3 m ρ c main_v16 = row1 (m ((c : Thread nD τ).loc main_arg3)) := by
  refine Eq.trans ?_ (shapeCast_row1 (m ((c : Thread nD τ).loc main_arg3)) shapeCasts_S128_S1x128)
  dsimp only [V3, W3, W2, W1, W0, hostOps0_2, hostOps0_1, hostOps0]; after_results; all_goals rfl
theorem e0_v17 (c : Dev nD) : V3 m ρ c main_v17 = row1 (m ((c : Thread nD τ).loc main_arg5)) := by
  refine Eq.trans ?_ (shapeCast_row1 (m ((c : Thread nD τ).loc main_arg5)) shapeCasts_S128_S1x128)
  dsimp only [V3, W3, W2, W1, W0, hostOps0_2, hostOps0_1, hostOps0]; after_results; all_goals rfl
theorem e0_v18 (c : Dev nD) : V3 m ρ c main_v18 = row1 (m ((c : Thread nD τ).loc main_arg6)) := by
  refine Eq.trans ?_ (shapeCast_row1 (m ((c : Thread nD τ).loc main_arg6)) shapeCasts_S128_S1x128)
  dsimp only [V3, W3, W2, W1, W0, hostOps0_2, hostOps0_1, hostOps0]; after_results; all_goals rfl
theorem e0_v19 (c : Dev nD) : V3 m ρ c main_v19 = row1 (m ((c : Thread nD τ).loc main_arg7)) := by
  refine Eq.trans ?_ (shapeCast_row1 (m ((c : Thread nD τ).loc main_arg7)) shapeCasts_S128_S1x128)
  dsimp only [V3, W3, W2, W1, W0, hostOps0_2, hostOps0_1, hostOps0]; after_results; all_goals rfl

/-! ## After region 0 -/

/-- The features after the projection region are the reference's %48 of the launched arguments. -/
theorem h0 (c : Dev nD) :
    W4 m ρ c (Proc.devRef .tc main_v20)
      = Cert.ReferenceIdeal.Read.val_main_v48 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 7).trans ?_
  rw [Cert.KernelIdeal.Region.arr0 (V3 m ρ) Cert.KernelIdeal.Body.out0_7_eq c,
    e0_arg0, e0_arg2, e0_v16, e0_arg4, e0_v17, e0_v18, e0_v19]
  exact (Cert.ReferenceIdeal.Stage.ref_proj _ _ _ _ _ _ _).symm

end Cert.KernelIdeal.Value

end
-- ==== Proof.KGlue0.lean ====
/-
  The host operations before region 0 of the kernel program, read off any starting contents X: the two rows of the edge list and the inverse in-degrees are the reference's %1, %3 and %15 of the edge-index argument (the same operations in the same order), and the arguments the later stretches read are untouched. Nothing here depends on the float family.
-/
import proofs.«404725_j721554505999_1_alg».proof.Proof.Gen.KernelIdeal.Frame
import proofs.«404725_j721554505999_1_alg».proof.Proof.RRead
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

variable (X : Valuation τ sig (Elt F))

theorem s0_v1 : after hostOps0_2 (after hostOps0_1 (after hostOps0 X)) (Proc.devRef .tc main_v1) = Cert.ReferenceIdeal.Read.val_main_v1 (F := F) (X (Proc.devRef .tc main_arg1)) := by
  dsimp only [hostOps0_2, hostOps0_1, hostOps0]; after_results; (try simp only [TRef.ofBuf, TRef.toBuf, cast_eq]); all_goals rfl
theorem s0_v3 : after hostOps0_2 (after hostOps0_1 (after hostOps0 X)) (Proc.devRef .tc main_v3) = Cert.ReferenceIdeal.Read.val_main_v3 (F := F) (X (Proc.devRef .tc main_arg1)) := by
  dsimp only [hostOps0_2, hostOps0_1, hostOps0]; after_results; (try simp only [TRef.ofBuf, TRef.toBuf, cast_eq]); all_goals rfl
set_option maxHeartbeats 1000000 in
theorem s0_v15 : after hostOps0_2 (after hostOps0_1 (after hostOps0 X)) (Proc.devRef .tc main_v15) = Cert.ReferenceIdeal.Read.val_main_v15 (F := F) (X (Proc.devRef .tc main_arg1)) := by
  dsimp only [hostOps0_2, hostOps0_1, hostOps0]; after_results_simp; (try simp only [TRef.ofBuf, TRef.toBuf, cast_eq]); all_goals rfl
theorem s0_arg8 : after hostOps0_2 (after hostOps0_1 (after hostOps0 X)) (Proc.devRef .tc main_arg8) = (X (Proc.devRef .tc main_arg8)) := by
  dsimp only [hostOps0_2, hostOps0_1, hostOps0]; after_results; (try simp only [TRef.ofBuf, TRef.toBuf, cast_eq]); all_goals rfl
theorem s0_arg9 : after hostOps0_2 (after hostOps0_1 (after hostOps0 X)) (Proc.devRef .tc main_arg9) = (X (Proc.devRef .tc main_arg9)) := by
  dsimp only [hostOps0_2, hostOps0_1, hostOps0]; after_results; (try simp only [TRef.ofBuf, TRef.toBuf, cast_eq]); all_goals rfl
theorem s0_arg10 : after hostOps0_2 (after hostOps0_1 (after hostOps0 X)) (Proc.devRef .tc main_arg10) = (X (Proc.devRef .tc main_arg10)) := by
  dsimp only [hostOps0_2, hostOps0_1, hostOps0]; after_results; (try simp only [TRef.ofBuf, TRef.toBuf, cast_eq]); all_goals rfl
theorem s0_arg11 : after hostOps0_2 (after hostOps0_1 (after hostOps0 X)) (Proc.devRef .tc main_arg11) = (X (Proc.devRef .tc main_arg11)) := by
  dsimp only [hostOps0_2, hostOps0_1, hostOps0]; after_results; (try simp only [TRef.ofBuf, TRef.toBuf, cast_eq]); all_goals rfl
theorem s0_arg12 : after hostOps0_2 (after hostOps0_1 (after hostOps0 X)) (Proc.devRef .tc main_arg12) = (X (Proc.devRef .tc main_arg12)) := by
  dsimp only [hostOps0_2, hostOps0_1, hostOps0]; after_results; (try simp only [TRef.ofBuf, TRef.toBuf, cast_eq]); all_goals rfl
theorem s0_arg13 : after hostOps0_2 (after hostOps0_1 (after hostOps0 X)) (Proc.devRef .tc main_arg13) = (X (Proc.devRef .tc main_arg13)) := by
  dsimp only [hostOps0_2, hostOps0_1, hostOps0]; after_results; (try simp only [TRef.ofBuf, TRef.toBuf, cast_eq]); all_goals rfl
theorem s0_arg14 : after hostOps0_2 (after hostOps0_1 (after hostOps0 X)) (Proc.devRef .tc main_arg14) = (X (Proc.devRef .tc main_arg14)) := by
  dsimp only [hostOps0_2, hostOps0_1, hostOps0]; after_results; (try simp only [TRef.ofBuf, TRef.toBuf, cast_eq]); all_goals rfl
theorem s0_arg15 : after hostOps0_2 (after hostOps0_1 (after hostOps0 X)) (Proc.devRef .tc main_arg15) = (X (Proc.devRef .tc main_arg15)) := by
  dsimp only [hostOps0_2, hostOps0_1, hostOps0]; after_results; (try simp only [TRef.ofBuf, TRef.toBuf, cast_eq]); all_goals rfl
theorem s0_arg16 : after hostOps0_2 (after hostOps0_1 (after hostOps0 X)) (Proc.devRef .tc main_arg16) = (X (Proc.devRef .tc main_arg16)) := by
  dsimp only [hostOps0_2, hostOps0_1, hostOps0]; after_results; (try simp only [TRef.ofBuf, TRef.toBuf, cast_eq]); all_goals rfl

end Cert.KernelIdeal.Glue

end
-- ==== Proof.KGlue1.lean ====
/-
  The host operations between regions 0 and 1 of the kernel program, read off any starting contents X: the summed messages are the scatter-add, along the targets, of the filled take of the features along the sources; the layer's parameters are slices of the stacked arguments, reshaped; everything else region 1 reads is untouched. Nothing here depends on the float family.
-/
import proofs.«404725_j721554505999_1_alg».proof.Proof.Gen.KernelIdeal.Frame
import proofs.«404725_j721554505999_1_alg».proof.Proof.RRead
import proofs.«404725_j721554505999_1_alg».proof.Proof.Mask
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

variable (X : Valuation τ sig (Elt F))

set_option maxHeartbeats 1000000 in
/-- The summed messages as the host computes them. (The right-hand side is set aside while the fold on the left is
    read, then met again.) -/
theorem s1_v24 :
    after hostOps1_1 (after hostOps1 X) (Proc.devRef .tc main_v24)
      = Host.scatterAdd scatter_S50000x128_S640000x1_S640000x128_1_0_0_1
          (broadcastInDim S50000x128 ![] bcast_S_S50000x128 (constant S_ .f32 0x00000000#32))
          (broadcastInDim S640000x1 ![0] bcast_S640000_S640000x1_0 (X (Proc.devRef .tc main_v3)))
          (select (Cert.KernelIdeal.Mask.inBounds (X (Proc.devRef .tc main_v1)))
            (Host.gather gather_S50000x128_S640000x1_S640000x128_1_0_n_n_0_1_1128 (X (Proc.devRef .tc main_v20))
              (Cert.KernelIdeal.Mask.startIdx (X (Proc.devRef .tc main_v1))))
            (broadcastInDim S640000x128 ![] bcast_S_S640000x128 (constant S_ .f32 0x7FC00000#32))) := by
  suffices h : ∀ R : (⟨S50000x128, .f32⟩ : BufTy).Contents (Elt F),
      (Host.scatterAdd scatter_S50000x128_S640000x1_S640000x128_1_0_0_1
          (broadcastInDim S50000x128 ![] bcast_S_S50000x128 (constant S_ .f32 0x00000000#32))
          (broadcastInDim S640000x1 ![0] bcast_S640000_S640000x1_0 (X (Proc.devRef .tc main_v3)))
          (select (Cert.KernelIdeal.Mask.inBounds (X (Proc.devRef .tc main_v1)))
            (Host.gather gather_S50000x128_S640000x1_S640000x128_1_0_n_n_0_1_1128 (X (Proc.devRef .tc main_v20))
              (Cert.KernelIdeal.Mask.startIdx (X (Proc.devRef .tc main_v1))))
            (broadcastInDim S640000x128 ![] bcast_S_S640000x128 (constant S_ .f32 0x7FC00000#32)))) = R → after hostOps1_1 (after hostOps1 X) (Proc.devRef .tc main_v24) = R from h _ rfl
  intro R hR
  dsimp only [hostOps1_1, hostOps1]
  after_results_simp
  simp only [TRef.ofBuf, TRef.toBuf, cast_eq]
  rw [← hR]

theorem s1_keep_v1 : after hostOps1_1 (after hostOps1 X) (Proc.devRef .tc main_v1) = (X (Proc.devRef .tc main_v1)) := by
  dsimp only [hostOps1_1, hostOps1]; after_results; (try simp only [TRef.ofBuf, TRef.toBuf, cast_eq]); all_goals rfl
theorem s1_keep_v3 : after hostOps1_1 (after hostOps1 X) (Proc.devRef .tc main_v3) = (X (Proc.devRef .tc main_v3)) := by
  dsimp only [hostOps1_1, hostOps1]; after_results; (try simp only [TRef.ofBuf, TRef.toBuf, cast_eq]); all_goals rfl
theorem s1_keep_v15 : after hostOps1_1 (after hostOps1 X) (Proc.devRef .tc main_v15) = (X (Proc.devRef .tc main_v15)) := by
  dsimp only [hostOps1_1, hostOps1]; after_results; (try simp only [TRef.ofBuf, TRef.toBuf, cast_eq]); all_goals rfl
theorem s1_keep_v20 : after hostOps1_1 (after hostOps1 X) (Proc.devRef .tc main_v20) = (X (Proc.devRef .tc main_v20)) := by
  dsimp only [hostOps1_1, hostOps1]; after_results; (try simp only [TRef.ofBuf, TRef.toBuf, cast_eq]); all_goals rfl
theorem s1_keep_arg8 : after hostOps1_1 (after hostOps1 X) (Proc.devRef .tc main_arg8) = (X (Proc.devRef .tc main_arg8)) := by
  dsimp only [hostOps1_1, hostOps1]; after_results; (try simp only [TRef.ofBuf, TRef.toBuf, cast_eq]); all_goals rfl
theorem s1_keep_arg9 : after hostOps1_1 (after hostOps1 X) (Proc.devRef .tc main_arg9) = (X (Proc.devRef .tc main_arg9)) := by
  dsimp only [hostOps1_1, hostOps1]; after_results; (try simp only [TRef.ofBuf, TRef.toBuf, cast_eq]); all_goals rfl
theorem s1_keep_arg10 : after hostOps1_1 (after hostOps1 X) (Proc.devRef .tc main_arg10) = (X (Proc.devRef .tc main_arg10)) := by
  dsimp only [hostOps1_1, hostOps1]; after_results; (try simp only [TRef.ofBuf, TRef.toBuf, cast_eq]); all_goals rfl
theorem s1_keep_arg11 : after hostOps1_1 (after hostOps1 X) (Proc.devRef .tc main_arg11) = (X (Proc.devRef .tc main_arg11)) := by
  dsimp only [hostOps1_1, hostOps1]; after_results; (try simp only [TRef.ofBuf, TRef.toBuf, cast_eq]); all_goals rfl
theorem s1_keep_arg12 : after hostOps1_1 (after hostOps1 X) (Proc.devRef .tc main_arg12) = (X (Proc.devRef .tc main_arg12)) := by
  dsimp only [hostOps1_1, hostOps1]; after_results; (try simp only [TRef.ofBuf, TRef.toBuf, cast_eq]); all_goals rfl
theorem s1_keep_arg13 : after hostOps1_1 (after hostOps1 X) (Proc.devRef .tc main_arg13) = (X (Proc.devRef .tc main_arg13)) := by
  dsimp only [hostOps1_1, hostOps1]; after_results; (try simp only [TRef.ofBuf, TRef.toBuf, cast_eq]); all_goals rfl
theorem s1_keep_arg14 : after hostOps1_1 (after hostOps1 X) (Proc.devRef .tc main_arg14) = (X (Proc.devRef .tc main_arg14)) := by
  dsimp only [hostOps1_1, hostOps1]; after_results; (try simp only [TRef.ofBuf, TRef.toBuf, cast_eq]); all_goals rfl
theorem s1_keep_arg15 : after hostOps1_1 (after hostOps1 X) (Proc.devRef .tc main_arg15) = (X (Proc.devRef .tc main_arg15)) := by
  dsimp only [hostOps1_1, hostOps1]; after_results; (try simp only [TRef.ofBuf, TRef.toBuf, cast_eq]); all_goals rfl
theorem s1_keep_arg16 : after hostOps1_1 (after hostOps1 X) (Proc.devRef .tc main_arg16) = (X (Proc.devRef .tc main_arg16)) := by
  dsimp only [hostOps1_1, hostOps1]; after_results; (try simp only [TRef.ofBuf, TRef.toBuf, cast_eq]); all_goals rfl

theorem s1_v26 : after hostOps1_1 (after hostOps1 X) (Proc.devRef .tc main_v26) = Cert.ReferenceIdeal.Read.val_main_v62 (F := F) (X (Proc.devRef .tc main_arg8)) := by
  dsimp only [hostOps1_1, hostOps1]; after_results; (try simp only [TRef.ofBuf, TRef.toBuf, cast_eq]); all_goals rfl
theorem s1_v35 : after hostOps1_1 (after hostOps1 X) (Proc.devRef .tc main_v35)
    = shapeCast S1x128 (Cert.ReferenceIdeal.Read.val_main_v65 (F := F) (X (Proc.devRef .tc main_arg9))) shapeCasts_S128_S1x128 := by
  dsimp only [hostOps1_1, hostOps1]; after_results; (try simp only [TRef.ofBuf, TRef.toBuf, cast_eq]); all_goals rfl
theorem s1_v30 : after hostOps1_1 (after hostOps1 X) (Proc.devRef .tc main_v30) = Cert.ReferenceIdeal.Read.val_main_v70 (F := F) (X (Proc.devRef .tc main_arg10)) := by
  dsimp only [hostOps1_1, hostOps1]; after_results; (try simp only [TRef.ofBuf, TRef.toBuf, cast_eq]); all_goals rfl
theorem s1_v36 : after hostOps1_1 (after hostOps1 X) (Proc.devRef .tc main_v36)
    = shapeCast S1x128 (Cert.ReferenceIdeal.Read.val_main_v76 (F := F) (X (Proc.devRef .tc main_arg11))) shapeCasts_S128_S1x128 := by
  dsimp only [hostOps1_1, hostOps1]; after_results; (try simp only [TRef.ofBuf, TRef.toBuf, cast_eq]); all_goals rfl
theorem s1_v37 : after hostOps1_1 (after hostOps1 X) (Proc.devRef .tc main_v37)
    = shapeCast S1x128 (Cert.ReferenceIdeal.Read.val_main_v78 (F := F) (X (Proc.devRef .tc main_arg12))) shapeCasts_S128_S1x128 := by
  dsimp only [hostOps1_1, hostOps1]; after_results; (try simp only [TRef.ofBuf, TRef.toBuf, cast_eq]); all_goals rfl

/-- The kernel's scatter-add of a plain gather of features `h` is the reference's, at the same edge list. -/
theorem scatter_gather_eq (h : (⟨S50000x128, .f32⟩ : BufTy).Contents (Elt F)) (x1 : (⟨S2x640000, .i32⟩ : BufTy).Contents (Elt F)) :
    Host.scatterAdd scatter_S50000x128_S640000x1_S640000x128_1_0_0_1
        (broadcastInDim S50000x128 ![] bcast_S_S50000x128 (constant S_ .f32 0x00000000#32))
        (broadcastInDim S640000x1 ![0] bcast_S640000_S640000x1_0 (Cert.ReferenceIdeal.Read.val_main_v3 (F := F) x1))
        (Host.gather gather_S50000x128_S640000x1_S640000x128_1_0_n_n_0_1_1128 h
          (Cert.KernelIdeal.Mask.startIdx (Cert.ReferenceIdeal.Read.val_main_v1 (F := F) x1)))
      = Host.scatterAdd Cert.ReferenceIdeal.scatter_S50000x128_S640000x1_S640000x128_1_0_0_1
          (Cert.ReferenceIdeal.Read.val_main_v56 (F := F)) (Cert.ReferenceIdeal.Read.val_main_v57 (F := F) x1)
          (Host.gather Cert.ReferenceIdeal.gather_S50000x128_S640000x1_S640000x128_1_0_n_n_0_1_1128 h (Cert.ReferenceIdeal.Read.val_main_v54 (F := F) x1)) := rfl

end Cert.KernelIdeal.Glue

end
-- ==== Proof.KValue1.lean ====
/-
  The kernel program's values through SAGE layer 0. Between regions 0 and 1 the host gathers the features along the
  message sources (the filled take, which is the plain gather when every source id is in range), sums them into the
  targets, and slices layer 0's parameters out of the stacked arguments; region 1 then leaves the layer's result,
  which is the reference's %102 at the same arguments.
-/
import proofs.«404725_j721554505999_1_alg».proof.Proof.Gen.KernelIdeal.Frame
import proofs.«404725_j721554505999_1_alg».proof.Proof.RRead
import proofs.«404725_j721554505999_1_alg».proof.Proof.Spec
import proofs.«404725_j721554505999_1_alg».proof.Proof.Layout
import proofs.«404725_j721554505999_1_alg».proof.Proof.Mask
import proofs.«404725_j721554505999_1_alg».proof.Proof.KBodySage
import proofs.«404725_j721554505999_1_alg».proof.Proof.KRegion1
import proofs.«404725_j721554505999_1_alg».proof.Proof.RSage0
import proofs.«404725_j721554505999_1_alg».proof.Proof.KValue0
import proofs.«404725_j721554505999_1_alg».proof.Proof.KGlue0
import proofs.«404725_j721554505999_1_alg».proof.Proof.KGlue1
import Idealize.ShloMosaic.Lib.StableHlo.Run
import Idealize.ShloMosaic.PureOps.Ideal

set_option maxRecDepth 16384

noncomputable section

namespace Cert.KernelIdeal.Value

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## What region 0 leaves untouched: the edge rows, the inverse in-degrees, the stacked parameters -/

theorem w4_v1 (c : Dev nD) : W4 m ρ c (Proc.devRef .tc main_v1) = Cert.ReferenceIdeal.Read.val_main_v1 (F := Ideal) (m ((c : Thread nD τ).loc main_arg1)) :=
  (W4_of_ne m ρ c main_v1 (by decide)).trans (Cert.KernelIdeal.Glue.s0_v1 (W0 m ρ c))
theorem w4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (Cert.KernelIdeal.Glue.s0_v3 (W0 m ρ c))
theorem w4_v15 (c : Dev nD) : W4 m ρ c (Proc.devRef .tc main_v15) = Cert.ReferenceIdeal.Read.val_main_v15 (F := Ideal) (m ((c : Thread nD τ).loc main_arg1)) :=
  (W4_of_ne m ρ c main_v15 (by decide)).trans (Cert.KernelIdeal.Glue.s0_v15 (W0 m ρ c))
theorem w4_arg8 (c : Dev nD) : W4 m ρ c (Proc.devRef .tc main_arg8) = (m ((c : Thread nD τ).loc main_arg8)) :=
  (W4_of_ne m ρ c main_arg8 (by decide)).trans (Cert.KernelIdeal.Glue.s0_arg8 (W0 m ρ c))
theorem w4_arg9 (c : Dev nD) : W4 m ρ c (Proc.devRef .tc main_arg9) = (m ((c : Thread nD τ).loc main_arg9)) :=
  (W4_of_ne m ρ c main_arg9 (by decide)).trans (Cert.KernelIdeal.Glue.s0_arg9 (W0 m ρ c))
theorem w4_arg10 (c : Dev nD) : W4 m ρ c (Proc.devRef .tc main_arg10) = (m ((c : Thread nD τ).loc main_arg10)) :=
  (W4_of_ne m ρ c main_arg10 (by decide)).trans (Cert.KernelIdeal.Glue.s0_arg10 (W0 m ρ c))
theorem w4_arg11 (c : Dev nD) : W4 m ρ c (Proc.devRef .tc main_arg11) = (m ((c : Thread nD τ).loc main_arg11)) :=
  (W4_of_ne m ρ c main_arg11 (by decide)).trans (Cert.KernelIdeal.Glue.s0_arg11 (W0 m ρ c))
theorem w4_arg12 (c : Dev nD) : W4 m ρ c (Proc.devRef .tc main_arg12) = (m ((c : Thread nD τ).loc main_arg12)) :=
  (W4_of_ne m ρ c main_arg12 (by decide)).trans (Cert.KernelIdeal.Glue.s0_arg12 (W0 m ρ c))
theorem w4_arg13 (c : Dev nD) : W4 m ρ c (Proc.devRef .tc main_arg13) = (m ((c : Thread nD τ).loc main_arg13)) :=
  (W4_of_ne m ρ c main_arg13 (by decide)).trans (Cert.KernelIdeal.Glue.s0_arg13 (W0 m ρ c))
theorem w4_arg14 (c : Dev nD) : W4 m ρ c (Proc.devRef .tc main_arg14) = (m ((c : Thread nD τ).loc main_arg14)) :=
  (W4_of_ne m ρ c main_arg14 (by decide)).trans (Cert.KernelIdeal.Glue.s0_arg14 (W0 m ρ c))
theorem w4_arg15 (c : Dev nD) : W4 m ρ c (Proc.devRef .tc main_arg15) = (m ((c : Thread nD τ).loc main_arg15)) :=
  (W4_of_ne m ρ c main_arg15 (by decide)).trans (Cert.KernelIdeal.Glue.s0_arg15 (W0 m ρ c))
theorem w4_arg16 (c : Dev nD) : W4 m ρ c (Proc.devRef .tc main_arg16) = (m ((c : Thread nD τ).loc main_arg16)) :=
  (W4_of_ne m ρ c main_arg16 (by decide)).trans (Cert.KernelIdeal.Glue.s0_arg16 (W0 m ρ c))

/-! ## Region 1's entry contents -/

/-- The summed messages: in range, the filled take is the plain gather, and the scatter-add of the gathered rows is
    the reference's %58. -/
theorem e1_v24 (c : Dev nD) (hsrc : Cert.KernelIdeal.Mask.InRange (Cert.ReferenceIdeal.Read.val_main_v1 (F := Ideal) (m ((c : Thread nD τ).loc main_arg1)))) :
    V6 m ρ c main_v24 = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Cert.KernelIdeal.Glue.s1_v24 (W4 m ρ c)).trans ?_
  rw [w4_v1, w4_v3, h0, Cert.KernelIdeal.Mask.take_fill_eq _ hsrc, Cert.KernelIdeal.Glue.scatter_gather_eq]
  rfl

theorem e1_v15 (c : Dev nD) : V6 m ρ c main_v15 = Cert.ReferenceIdeal.Read.val_main_v15 (F := Ideal) (m ((c : Thread nD τ).loc main_arg1)) :=
  (Cert.KernelIdeal.Glue.s1_keep_v15 (W4 m ρ c)).trans (w4_v15 m ρ c)
theorem e1_v20 (c : Dev nD) : V6 m ρ c main_v20 = Cert.ReferenceIdeal.Read.val_main_v48 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Cert.KernelIdeal.Glue.s1_keep_v20 (W4 m ρ c)).trans (h0 m ρ c)
theorem e1_v26 (c : Dev nD) : V6 m ρ c main_v26 = Cert.ReferenceIdeal.Read.val_main_v62 (F := Ideal) (m ((c : Thread nD τ).loc main_arg8)) := by
  refine (Cert.KernelIdeal.Glue.s1_v26 (W4 m ρ c)).trans ?_; rw [w4_arg8]
theorem e1_v35 (c : Dev nD) : V6 m ρ c main_v35 = row1 (Cert.ReferenceIdeal.Read.val_main_v65 (F := Ideal) (m ((c : Thread nD τ).loc main_arg9))) := by
  refine (Cert.KernelIdeal.Glue.s1_v35 (W4 m ρ c)).trans ?_; rw [w4_arg9]; exact shapeCast_row1 _ _
theorem e1_v30 (c : Dev nD) : V6 m ρ c main_v30 = Cert.ReferenceIdeal.Read.val_main_v70 (F := Ideal) (m ((c : Thread nD τ).loc main_arg10)) := by
  refine (Cert.KernelIdeal.Glue.s1_v30 (W4 m ρ c)).trans ?_; rw [w4_arg10]
theorem e1_v36 (c : Dev nD) : V6 m ρ c main_v36 = row1 (Cert.ReferenceIdeal.Read.val_main_v76 (F := Ideal) (m ((c : Thread nD τ).loc main_arg11))) := by
  refine (Cert.KernelIdeal.Glue.s1_v36 (W4 m ρ c)).trans ?_; rw [w4_arg11]; exact shapeCast_row1 _ _
theorem e1_v37 (c : Dev nD) : V6 m ρ c main_v37 = row1 (Cert.ReferenceIdeal.Read.val_main_v78 (F := Ideal) (m ((c : Thread nD τ).loc main_arg12))) := by
  refine (Cert.KernelIdeal.Glue.s1_v37 (W4 m ρ c)).trans ?_; rw [w4_arg12]; exact shapeCast_row1 _ _

/-! ## After region 1 -/

/-- The features after SAGE layer 0 are the reference's %102 of the launched arguments. -/
theorem h1 (c : Dev nD) (hsrc : Cert.KernelIdeal.Mask.InRange (Cert.ReferenceIdeal.Read.val_main_v1 (F := Ideal) (m ((c : Thread nD τ).loc main_arg1)))) :
    W7 m ρ c (Proc.devRef .tc main_v38) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W7_arr m ρ c 8).trans ?_
  rw [Cert.KernelIdeal.Region.arr1 (V6 m ρ) Cert.KernelIdeal.Body.out1_8_eq c,
    e1_v24 m ρ c hsrc, e1_v15, e1_v20, e1_v26, e1_v35, e1_v30, e1_v36, e1_v37]
  exact (Cert.ReferenceIdeal.Stage.ref_sage0 _ _ _ _ _ _ _ _ _ _ _ _ _).symm

end Cert.KernelIdeal.Value

end
-- ==== Proof.KGlue2.lean ====
/-
  The host operations between regions 1 and 2 of the kernel program, read off any starting contents X: the summed messages are the scatter-add, along the targets, of the filled take of the features along the sources; the layer's parameters are slices of the stacked arguments, reshaped; everything else region 2 reads is untouched. Nothing here depends on the float family.
-/
import proofs.«404725_j721554505999_1_alg».proof.Proof.Gen.KernelIdeal.Frame
import proofs.«404725_j721554505999_1_alg».proof.Proof.RRead
import proofs.«404725_j721554505999_1_alg».proof.Proof.Mask
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

variable (X : Valuation τ sig (Elt F))

namespace G2

/-! The take's 23 operations in three stretches: up to the normalised start index, up to the in-bounds test, and the
    gather, the fill and the select. Each stretch is read off any starting contents Y. -/

/-- Up to the normalised start index. -/
abbrev opsA : List (HloOp τ sig (Elt F)) := List.take 8 hostOps2
/-- Up to the in-bounds test. -/
abbrev opsB : List (HloOp τ sig (Elt F)) := List.take 10 (List.drop 8 hostOps2)
/-- The gather, the fill value and the select. -/
abbrev opsC : List (HloOp τ sig (Elt F)) := List.drop 18 hostOps2

theorem ops_split : (hostOps2 : List (HloOp τ sig (Elt F))) = opsA ++ (opsB ++ opsC) := rfl

variable (Y : Valuation τ sig (Elt F))

/-- The normalised start index: `where(src < 0, src + 50000, src)`, as a column. -/
theorem a_v5 : after opsA Y (Proc.devRef .tc main_call2_v5) = Cert.KernelIdeal.Mask.startIdx (Y (Proc.devRef .tc main_v1)) := by
  dsimp only [opsA, hostOps2, List.take, Cert.KernelIdeal.Mask.startIdx]
  after_results
  simp only [TRef.ofBuf, TRef.toBuf, cast_eq]
theorem a_keep_v38 : after opsA Y (Proc.devRef .tc main_v38) = Y (Proc.devRef .tc main_v38) := by
  dsimp only [opsA, hostOps2, List.take]; after_results; (try simp only [TRef.ofBuf, TRef.toBuf, cast_eq]); all_goals rfl

/-- The in-bounds test of a start index already in place: both bounds, reduced by `and` over the unit axis. -/
theorem b_v12 : after opsB Y (Proc.devRef .tc main_call2_v12)
    = (fun x v => Host.reduce IntOp.andi x v reducesTo_S640000x1_S640000_d1 h_S_)
        (andi (cmpi .sge (Y (Proc.devRef .tc main_call2_v5)) (broadcastInDim S640000x1 ![] bcast_S_S640000x1 (constantI S_ 32 0#32)))
          (cmpi .sle (Y (Proc.devRef .tc main_call2_v5)) (broadcastInDim S640000x1 ![0, 1] bcast_S1x1_S640000x1_0_1
            (broadcastInDim S1x1 ![1] bcast_S1_S1x1_1 (constantI S1 32 49999#32)))))
        (constantI S_ 1 1#1) := by
  dsimp only [opsB, hostOps2, List.take, List.drop]
  after_results
  simp only [TRef.ofBuf, TRef.toBuf, cast_eq]
theorem b_keep_v5 : after opsB Y (Proc.devRef .tc main_call2_v5) = Y (Proc.devRef .tc main_call2_v5) := by
  dsimp only [opsB, hostOps2, List.take, List.drop]; after_results; (try simp only [TRef.ofBuf, TRef.toBuf, cast_eq]); all_goals rfl
theorem b_keep_v38 : after opsB Y (Proc.devRef .tc main_v38) = Y (Proc.devRef .tc main_v38) := by
  dsimp only [opsB, hostOps2, List.take, List.drop]; after_results; (try simp only [TRef.ofBuf, TRef.toBuf, cast_eq]); all_goals rfl

/-- The gather at the start index, filled where the test fails. -/
theorem c_v39 : after opsC Y (Proc.devRef .tc main_v39)
    = select (broadcastInDim S640000x128 ![0] bcast_S640000_S640000x128_0 (Y (Proc.devRef .tc main_call2_v12)))
        (Host.gather gather_S50000x128_S640000x1_S640000x128_1_0_n_n_0_1_1128 (Y (Proc.devRef .tc main_v38)) (Y (Proc.devRef .tc main_call2_v5)))
        (broadcastInDim S640000x128 ![] bcast_S_S640000x128 (constant S_ .f32 0x7FC00000#32)) := by
  dsimp only [opsC, hostOps2, List.drop]
  after_results
  simp only [TRef.ofBuf, TRef.toBuf, cast_eq]

end G2

namespace G2

/-- The filled take of the features along the sources, off any starting contents: the three stretches in turn. -/
theorem t_v39 : after hostOps2 X (Proc.devRef .tc main_v39)
    = select (Cert.KernelIdeal.Mask.inBounds (X (Proc.devRef .tc main_v1)))
        (Host.gather gather_S50000x128_S640000x1_S640000x128_1_0_n_n_0_1_1128 (X (Proc.devRef .tc main_v38))
          (Cert.KernelIdeal.Mask.startIdx (X (Proc.devRef .tc main_v1))))
        (broadcastInDim S640000x128 ![] bcast_S_S640000x128 (constant S_ .f32 0x7FC00000#32)) := by
  rw [ops_split, StableHlo.after_append, StableHlo.after_append, c_v39, b_v12, b_keep_v38, b_keep_v5, a_v5, a_keep_v38]

/-- The take leaves the targets untouched. -/
theorem t_keep_v3 : after hostOps2 X (Proc.devRef .tc main_v3) = X (Proc.devRef .tc main_v3) := by
  dsimp only [hostOps2]; after_results; (try simp only [TRef.ofBuf, TRef.toBuf, cast_eq]); all_goals rfl

/-- The scatter-add along the targets, off any starting contents. -/
theorem u_v42 (Y : Valuation τ sig (Elt F)) :
    after hostOps2_1 Y (Proc.devRef .tc main_v42)
      = Host.scatterAdd scatter_S50000x128_S640000x1_S640000x128_1_0_0_1
          (broadcastInDim S50000x128 ![] bcast_S_S50000x128 (constant S_ .f32 0x00000000#32))
          (broadcastInDim S640000x1 ![0] bcast_S640000_S640000x1_0 (Y (Proc.devRef .tc main_v3)))
          (Y (Proc.devRef .tc main_v39)) := by
  dsimp only [hostOps2_1]; after_results; (try simp only [TRef.ofBuf, TRef.toBuf, cast_eq]); all_goals rfl

end G2

/-- The summed messages as the host computes them: the scatter-add, then the take read stretch by stretch. -/
theorem s2_v42 :
    after hostOps2_1 (after hostOps2 X) (Proc.devRef .tc main_v42)
      = Host.scatterAdd scatter_S50000x128_S640000x1_S640000x128_1_0_0_1
          (broadcastInDim S50000x128 ![] bcast_S_S50000x128 (constant S_ .f32 0x00000000#32))
          (broadcastInDim S640000x1 ![0] bcast_S640000_S640000x1_0 (X (Proc.devRef .tc main_v3)))
          (select (Cert.KernelIdeal.Mask.inBounds (X (Proc.devRef .tc main_v1)))
            (Host.gather gather_S50000x128_S640000x1_S640000x128_1_0_n_n_0_1_1128 (X (Proc.devRef .tc main_v38))
              (Cert.KernelIdeal.Mask.startIdx (X (Proc.devRef .tc main_v1))))
            (broadcastInDim S640000x128 ![] bcast_S_S640000x128 (constant S_ .f32 0x7FC00000#32))) := by
  rw [G2.u_v42, G2.t_keep_v3, G2.t_v39]

theorem s2_keep_v1 : after hostOps2_1 (after hostOps2 X) (Proc.devRef .tc main_v1) = (X (Proc.devRef .tc main_v1)) := by
  dsimp only [hostOps2_1, hostOps2]; after_results; (try simp only [TRef.ofBuf, TRef.toBuf, cast_eq]); all_goals rfl
theorem s2_keep_v3 : after hostOps2_1 (after hostOps2 X) (Proc.devRef .tc main_v3) = (X (Proc.devRef .tc main_v3)) := by
  dsimp only [hostOps2_1, hostOps2]; after_results; (try simp only [TRef.ofBuf, TRef.toBuf, cast_eq]); all_goals rfl
theorem s2_keep_v15 : after hostOps2_1 (after hostOps2 X) (Proc.devRef .tc main_v15) = (X (Proc.devRef .tc main_v15)) := by
  dsimp only [hostOps2_1, hostOps2]; after_results; (try simp only [TRef.ofBuf, TRef.toBuf, cast_eq]); all_goals rfl
theorem s2_keep_v38 : after hostOps2_1 (after hostOps2 X) (Proc.devRef .tc main_v38) = (X (Proc.devRef .tc main_v38)) := by
  dsimp only [hostOps2_1, hostOps2]; after_results; (try simp only [TRef.ofBuf, TRef.toBuf, cast_eq]); all_goals rfl
theorem s2_keep_arg8 : after hostOps2_1 (after hostOps2 X) (Proc.devRef .tc main_arg8) = (X (Proc.devRef .tc main_arg8)) := by
  dsimp only [hostOps2_1, hostOps2]; after_results; (try simp only [TRef.ofBuf, TRef.toBuf, cast_eq]); all_goals rfl
theorem s2_keep_arg9 : after hostOps2_1 (after hostOps2 X) (Proc.devRef .tc main_arg9) = (X (Proc.devRef .tc main_arg9)) := by
  dsimp only [hostOps2_1, hostOps2]; after_results; (try simp only [TRef.ofBuf, TRef.toBuf, cast_eq]); all_goals rfl
theorem s2_keep_arg10 : after hostOps2_1 (after hostOps2 X) (Proc.devRef .tc main_arg10) = (X (Proc.devRef .tc main_arg10)) := by
  dsimp only [hostOps2_1, hostOps2]; after_results; (try simp only [TRef.ofBuf, TRef.toBuf, cast_eq]); all_goals rfl
theorem s2_keep_arg11 : after hostOps2_1 (after hostOps2 X) (Proc.devRef .tc main_arg11) = (X (Proc.devRef .tc main_arg11)) := by
  dsimp only [hostOps2_1, hostOps2]; after_results; (try simp only [TRef.ofBuf, TRef.toBuf, cast_eq]); all_goals rfl
theorem s2_keep_arg12 : after hostOps2_1 (after hostOps2 X) (Proc.devRef .tc main_arg12) = (X (Proc.devRef .tc main_arg12)) := by
  dsimp only [hostOps2_1, hostOps2]; after_results; (try simp only [TRef.ofBuf, TRef.toBuf, cast_eq]); all_goals rfl
theorem s2_keep_arg13 : after hostOps2_1 (after hostOps2 X) (Proc.devRef .tc main_arg13) = (X (Proc.devRef .tc main_arg13)) := by
  dsimp only [hostOps2_1, hostOps2]; after_results; (try simp only [TRef.ofBuf, TRef.toBuf, cast_eq]); all_goals rfl
theorem s2_keep_arg14 : after hostOps2_1 (after hostOps2 X) (Proc.devRef .tc main_arg14) = (X (Proc.devRef .tc main_arg14)) := by
  dsimp only [hostOps2_1, hostOps2]; after_results; (try simp only [TRef.ofBuf, TRef.toBuf, cast_eq]); all_goals rfl
theorem s2_keep_arg15 : after hostOps2_1 (after hostOps2 X) (Proc.devRef .tc main_arg15) = (X (Proc.devRef .tc main_arg15)) := by
  dsimp only [hostOps2_1, hostOps2]; after_results; (try simp only [TRef.ofBuf, TRef.toBuf, cast_eq]); all_goals rfl
theorem s2_keep_arg16 : after hostOps2_1 (after hostOps2 X) (Proc.devRef .tc main_arg16) = (X (Proc.devRef .tc main_arg16)) := by
  dsimp only [hostOps2_1, hostOps2]; after_results; (try simp only [TRef.ofBuf, TRef.toBuf, cast_eq]); all_goals rfl

theorem s2_v44 : after hostOps2_1 (after hostOps2 X) (Proc.devRef .tc main_v44) = Cert.ReferenceIdeal.Read.val_main_v116 (F := F) (X (Proc.devRef .tc main_arg8)) := by
  dsimp only [hostOps2_1, hostOps2]; after_results; (try simp only [TRef.ofBuf, TRef.toBuf, cast_eq]); all_goals rfl
theorem s2_v53 : after hostOps2_1 (after hostOps2 X) (Proc.devRef .tc main_v53)
    = shapeCast S1x128 (Cert.ReferenceIdeal.Read.val_main_v119 (F := F) (X (Proc.devRef .tc main_arg9))) shapeCasts_S128_S1x128 := by
  dsimp only [hostOps2_1, hostOps2]; after_results; (try simp only [TRef.ofBuf, TRef.toBuf, cast_eq]); all_goals rfl
theorem s2_v48 : after hostOps2_1 (after hostOps2 X) (Proc.devRef .tc main_v48) = Cert.ReferenceIdeal.Read.val_main_v124 (F := F) (X (Proc.devRef .tc main_arg10)) := by
  dsimp only [hostOps2_1, hostOps2]; after_results; (try simp only [TRef.ofBuf, TRef.toBuf, cast_eq]); all_goals rfl
theorem s2_v54 : after hostOps2_1 (after hostOps2 X) (Proc.devRef .tc main_v54)
    = shapeCast S1x128 (Cert.ReferenceIdeal.Read.val_main_v130 (F := F) (X (Proc.devRef .tc main_arg11))) shapeCasts_S128_S1x128 := by
  dsimp only [hostOps2_1, hostOps2]; after_results; (try simp only [TRef.ofBuf, TRef.toBuf, cast_eq]); all_goals rfl
theorem s2_v55 : after hostOps2_1 (after hostOps2 X) (Proc.devRef .tc main_v55)
    = shapeCast S1x128 (Cert.ReferenceIdeal.Read.val_main_v132 (F := F) (X (Proc.devRef .tc main_arg12))) shapeCasts_S128_S1x128 := by
  dsimp only [hostOps2_1, hostOps2]; after_results; (try simp only [TRef.ofBuf, TRef.toBuf, cast_eq]); all_goals rfl

/-- The kernel's scatter-add of a plain gather of features `h` is the reference's, at the same edge list. -/
theorem scatter_gather_eq2 (h : (⟨S50000x128, .f32⟩ : BufTy).Contents (Elt F)) (x1 : (⟨S2x640000, .i32⟩ : BufTy).Contents (Elt F)) :
    Host.scatterAdd scatter_S50000x128_S640000x1_S640000x128_1_0_0_1
        (broadcastInDim S50000x128 ![] bcast_S_S50000x128 (constant S_ .f32 0x00000000#32))
        (broadcastInDim S640000x1 ![0] bcast_S640000_S640000x1_0 (Cert.ReferenceIdeal.Read.val_main_v3 (F := F) x1))
        (Host.gather gather_S50000x128_S640000x1_S640000x128_1_0_n_n_0_1_1128 h
          (Cert.KernelIdeal.Mask.startIdx (Cert.ReferenceIdeal.Read.val_main_v1 (F := F) x1)))
      = Host.scatterAdd Cert.ReferenceIdeal.scatter_S50000x128_S640000x1_S640000x128_1_0_0_1
          (Cert.ReferenceIdeal.Read.val_main_v110 (F := F)) (Cert.ReferenceIdeal.Read.val_main_v111 (F := F) x1)
          (Host.gather Cert.ReferenceIdeal.gather_S50000x128_S640000x1_S640000x128_1_0_n_n_0_1_1128 h (Cert.ReferenceIdeal.Read.val_main_v108 (F := F) x1)) := rfl

end Cert.KernelIdeal.Glue

end
-- ==== Proof.KValue2.lean ====
/-
  The kernel program's values through SAGE layer 1: the same steps as layer 0, from region 1's exit. Region 1 touches
  only its own windows' arrays and reads the inverse in-degrees through an input window, so the edge rows, the
  inverse in-degrees and the stacked parameters are as they were; region 2 leaves the layer's result, which is the
  reference's %156 at the same arguments.
-/
import proofs.«404725_j721554505999_1_alg».proof.Proof.Gen.KernelIdeal.Frame
import proofs.«404725_j721554505999_1_alg».proof.Proof.RRead
import proofs.«404725_j721554505999_1_alg».proof.Proof.Spec
import proofs.«404725_j721554505999_1_alg».proof.Proof.Layout
import proofs.«404725_j721554505999_1_alg».proof.Proof.Mask
import proofs.«404725_j721554505999_1_alg».proof.Proof.KBodySage
import proofs.«404725_j721554505999_1_alg».proof.Proof.KRegion2
import proofs.«404725_j721554505999_1_alg».proof.Proof.RSage1
import proofs.«404725_j721554505999_1_alg».proof.Proof.KValue1
import proofs.«404725_j721554505999_1_alg».proof.Proof.KGlue1
import proofs.«404725_j721554505999_1_alg».proof.Proof.KGlue2
import Idealize.ShloMosaic.Lib.StableHlo.Run
import Idealize.ShloMosaic.PureOps.Ideal

set_option maxRecDepth 16384

noncomputable section

namespace Cert.KernelIdeal.Value

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## What region 1 leaves untouched -/

theorem w7_v1 (c : Dev nD) : W7 m ρ c (Proc.devRef .tc main_v1) = Cert.ReferenceIdeal.Read.val_main_v1 (F := Ideal) (m ((c : Thread nD τ).loc main_arg1)) :=
  (W7_of_ne m ρ c main_v1 (by decide)).trans ((Cert.KernelIdeal.Glue.s1_keep_v1 (W4 m ρ c)).trans (w4_v1 m ρ c))
theorem w7_v3 (c : Dev nD) : W7 m ρ c (Proc.devRef .tc main_v3) = Cert.ReferenceIdeal.Read.val_main_v3 (F := Ideal) (m ((c : Thread nD τ).loc main_arg1)) :=
  (W7_of_ne m ρ c main_v3 (by decide)).trans ((Cert.KernelIdeal.Glue.s1_keep_v3 (W4 m ρ c)).trans (w4_v3 m ρ c))
/-- Region 1 reads the inverse in-degrees through an input window, which leaves the array as entered. -/
theorem w7_v15 (c : Dev nD) : W7 m ρ c (Proc.devRef .tc main_v15) = Cert.ReferenceIdeal.Read.val_main_v15 (F := Ideal) (m ((c : Thread nD τ).loc main_arg1)) :=
  ((W7_arr m ρ c 1).trans (((dat1 (V6 m ρ) c).arrAt_in 1 rfl _).trans (A_eq1 (V6 m ρ) c 1))).trans (e1_v15 m ρ c)
theorem w7_arg8 (c : Dev nD) : W7 m ρ c (Proc.devRef .tc main_arg8) = (m ((c : Thread nD τ).loc main_arg8)) :=
  (W7_of_ne m ρ c main_arg8 (by decide)).trans ((Cert.KernelIdeal.Glue.s1_keep_arg8 (W4 m ρ c)).trans (w4_arg8 m ρ c))
theorem w7_arg9 (c : Dev nD) : W7 m ρ c (Proc.devRef .tc main_arg9) = (m ((c : Thread nD τ).loc main_arg9)) :=
  (W7_of_ne m ρ c main_arg9 (by decide)).trans ((Cert.KernelIdeal.Glue.s1_keep_arg9 (W4 m ρ c)).trans (w4_arg9 m ρ c))
theorem w7_arg10 (c : Dev nD) : W7 m ρ c (Proc.devRef .tc main_arg10) = (m ((c : Thread nD τ).loc main_arg10)) :=
  (W7_of_ne m ρ c main_arg10 (by decide)).trans ((Cert.KernelIdeal.Glue.s1_keep_arg10 (W4 m ρ c)).trans (w4_arg10 m ρ c))
theorem w7_arg11 (c : Dev nD) : W7 m ρ c (Proc.devRef .tc main_arg11) = (m ((c : Thread nD τ).loc main_arg11)) :=
  (W7_of_ne m ρ c main_arg11 (by decide)).trans ((Cert.KernelIdeal.Glue.s1_keep_arg11 (W4 m ρ c)).trans (w4_arg11 m ρ c))
theorem w7_arg12 (c : Dev nD) : W7 m ρ c (Proc.devRef .tc main_arg12) = (m ((c : Thread nD τ).loc main_arg12)) :=
  (W7_of_ne m ρ c main_arg12 (by decide)).trans ((Cert.KernelIdeal.Glue.s1_keep_arg12 (W4 m ρ c)).trans (w4_arg12 m ρ c))
theorem w7_arg13 (c : Dev nD) : W7 m ρ c (Proc.devRef .tc main_arg13) = (m ((c : Thread nD τ).loc main_arg13)) :=
  (W7_of_ne m ρ c main_arg13 (by decide)).trans ((Cert.KernelIdeal.Glue.s1_keep_arg13 (W4 m ρ c)).trans (w4_arg13 m ρ c))
theorem w7_arg14 (c : Dev nD) : W7 m ρ c (Proc.devRef .tc main_arg14) = (m ((c : Thread nD τ).loc main_arg14)) :=
  (W7_of_ne m ρ c main_arg14 (by decide)).trans ((Cert.KernelIdeal.Glue.s1_keep_arg14 (W4 m ρ c)).trans (w4_arg14 m ρ c))
theorem w7_arg15 (c : Dev nD) : W7 m ρ c (Proc.devRef .tc main_arg15) = (m ((c : Thread nD τ).loc main_arg15)) :=
  (W7_of_ne m ρ c main_arg15 (by decide)).trans ((Cert.KernelIdeal.Glue.s1_keep_arg15 (W4 m ρ c)).trans (w4_arg15 m ρ c))
theorem w7_arg16 (c : Dev nD) : W7 m ρ c (Proc.devRef .tc main_arg16) = (m ((c : Thread nD τ).loc main_arg16)) :=
  (W7_of_ne m ρ c main_arg16 (by decide)).trans ((Cert.KernelIdeal.Glue.s1_keep_arg16 (W4 m ρ c)).trans (w4_arg16 m ρ c))

/-! ## Region 2's entry contents -/

theorem e2_v42 (c : Dev nD) (hsrc : Cert.KernelIdeal.Mask.InRange (Cert.ReferenceIdeal.Read.val_main_v1 (F := Ideal) (m ((c : Thread nD τ).loc main_arg1)))) :
    V9 m ρ c main_v42 = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (Cert.KernelIdeal.Glue.s2_v42 (W7 m ρ c)).trans ?_
  rw [w7_v1, w7_v3, h1 m ρ c hsrc, Cert.KernelIdeal.Mask.take_fill_eq _ hsrc, Cert.KernelIdeal.Glue.scatter_gather_eq2]
  rfl

theorem e2_v15 (c : Dev nD) : V9 m ρ c main_v15 = Cert.ReferenceIdeal.Read.val_main_v15 (F := Ideal) (m ((c : Thread nD τ).loc main_arg1)) :=
  (Cert.KernelIdeal.Glue.s2_keep_v15 (W7 m ρ c)).trans (w7_v15 m ρ c)
theorem e2_v38 (c : Dev nD) (hsrc : Cert.KernelIdeal.Mask.InRange (Cert.ReferenceIdeal.Read.val_main_v1 (F := Ideal) (m ((c : Thread nD τ).loc main_arg1)))) :
    V9 m ρ c main_v38 = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (Cert.KernelIdeal.Glue.s2_keep_v38 (W7 m ρ c)).trans (h1 m ρ c hsrc)
theorem e2_v44 (c : Dev nD) : V9 m ρ c main_v44 = Cert.ReferenceIdeal.Read.val_main_v116 (F := Ideal) (m ((c : Thread nD τ).loc main_arg8)) := by
  refine (Cert.KernelIdeal.Glue.s2_v44 (W7 m ρ c)).trans ?_; rw [w7_arg8]
theorem e2_v53 (c : Dev nD) : V9 m ρ c main_v53 = row1 (Cert.ReferenceIdeal.Read.val_main_v119 (F := Ideal) (m ((c : Thread nD τ).loc main_arg9))) := by
  refine (Cert.KernelIdeal.Glue.s2_v53 (W7 m ρ c)).trans ?_; rw [w7_arg9]; exact shapeCast_row1 _ _
theorem e2_v48 (c : Dev nD) : V9 m ρ c main_v48 = Cert.ReferenceIdeal.Read.val_main_v124 (F := Ideal) (m ((c : Thread nD τ).loc main_arg10)) := by
  refine (Cert.KernelIdeal.Glue.s2_v48 (W7 m ρ c)).trans ?_; rw [w7_arg10]
theorem e2_v54 (c : Dev nD) : V9 m ρ c main_v54 = row1 (Cert.ReferenceIdeal.Read.val_main_v130 (F := Ideal) (m ((c : Thread nD τ).loc main_arg11))) := by
  refine (Cert.KernelIdeal.Glue.s2_v54 (W7 m ρ c)).trans ?_; rw [w7_arg11]; exact shapeCast_row1 _ _
theorem e2_v55 (c : Dev nD) : V9 m ρ c main_v55 = row1 (Cert.ReferenceIdeal.Read.val_main_v132 (F := Ideal) (m ((c : Thread nD τ).loc main_arg12))) := by
  refine (Cert.KernelIdeal.Glue.s2_v55 (W7 m ρ c)).trans ?_; rw [w7_arg12]; exact shapeCast_row1 _ _

/-! ## After region 2 -/

/-- The features after SAGE layer 1 are the reference's %156 of the launched arguments. -/
theorem h2 (c : Dev nD) (hsrc : Cert.KernelIdeal.Mask.InRange (Cert.ReferenceIdeal.Read.val_main_v1 (F := Ideal) (m ((c : Thread nD τ).loc main_arg1)))) :
    W10 m ρ c (Proc.devRef .tc main_v56) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 8).trans ?_
  rw [Cert.KernelIdeal.Region.arr2 (V9 m ρ) Cert.KernelIdeal.Body.out2_8_eq c,
    e2_v42 m ρ c hsrc, e2_v15, e2_v38 m ρ c hsrc, e2_v44, e2_v53, e2_v48, e2_v54, e2_v55]
  exact (Cert.ReferenceIdeal.Stage.ref_sage1 _ _ _ _ _ _ _ _ _ _ _ _ _).symm

/-- What region 2 leaves untouched of the classifier's biases. -/
theorem w10_arg14 (c : Dev nD) : W10 m ρ c (Proc.devRef .tc main_arg14) = (m ((c : Thread nD τ).loc main_arg14)) :=
  (W10_of_ne m ρ c main_arg14 (by decide)).trans ((Cert.KernelIdeal.Glue.s2_keep_arg14 (W7 m ρ c)).trans (w7_arg14 m ρ c))
theorem w10_arg16 (c : Dev nD) : W10 m ρ c (Proc.devRef .tc main_arg16) = (m ((c : Thread nD τ).loc main_arg16)) :=
  (W10_of_ne m ρ c main_arg16 (by decide)).trans ((Cert.KernelIdeal.Glue.s2_keep_arg16 (W7 m ρ c)).trans (w7_arg16 m ρ c))

end Cert.KernelIdeal.Value

end
-- ==== Proof.KGlue3.lean ====
/-
  The two host operations before the last region of the kernel program, read off any starting contents X: the classifier's two biases reshaped to one row each; everything else the region reads is untouched. Nothing here depends on the float family.
-/
import proofs.«404725_j721554505999_1_alg».proof.Proof.Gen.KernelIdeal.Frame
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

variable (X : Valuation τ sig (Elt F))

theorem s3_v57 : after hostOps3 X (Proc.devRef .tc main_v57) = shapeCast S1x128 (X (Proc.devRef .tc main_arg14)) shapeCasts_S128_S1x128 := by
  dsimp only [hostOps3]; after_results; (try simp only [TRef.ofBuf, TRef.toBuf, cast_eq]); all_goals rfl
theorem s3_v58 : after hostOps3 X (Proc.devRef .tc main_v58) = shapeCast S1x40 (X (Proc.devRef .tc main_arg16)) shapeCasts_S40_S1x40 := by
  dsimp only [hostOps3]; after_results; (try simp only [TRef.ofBuf, TRef.toBuf, cast_eq]); all_goals rfl
theorem s3_keep_v56 : after hostOps3 X (Proc.devRef .tc main_v56) = (X (Proc.devRef .tc main_v56)) := by
  dsimp only [hostOps3]; after_results; (try simp only [TRef.ofBuf, TRef.toBuf, cast_eq]); all_goals rfl

end Cert.KernelIdeal.Glue

end
-- ==== Proof.KValue3.lean ====
/-
  The kernel program's two results. Before the last region the host only reshapes the classifier's biases; region 3
  leaves the logits, which are the reference's %165 at the same arguments, and leaves the features it reads, the
  reference's %156, as they were.
-/
import proofs.«404725_j721554505999_1_alg».proof.Proof.Gen.KernelIdeal.Frame
import proofs.«404725_j721554505999_1_alg».proof.Proof.RRead
import proofs.«404725_j721554505999_1_alg».proof.Proof.Spec
import proofs.«404725_j721554505999_1_alg».proof.Proof.Layout
import proofs.«404725_j721554505999_1_alg».proof.Proof.Mask
import proofs.«404725_j721554505999_1_alg».proof.Proof.KBodyCls
import proofs.«404725_j721554505999_1_alg».proof.Proof.KRegion3
import proofs.«404725_j721554505999_1_alg».proof.Proof.RCls
import proofs.«404725_j721554505999_1_alg».proof.Proof.KValue2
import proofs.«404725_j721554505999_1_alg».proof.Proof.KGlue3
import Idealize.ShloMosaic.Lib.StableHlo.Run
import Idealize.ShloMosaic.PureOps.Ideal

set_option maxRecDepth 16384

noncomputable section

namespace Cert.KernelIdeal.Value

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## Region 3's entry contents -/

theorem e3_v56 (c : Dev nD) (hsrc : Cert.KernelIdeal.Mask.InRange (Cert.ReferenceIdeal.Read.val_main_v1 (F := Ideal) (m ((c : Thread nD τ).loc main_arg1)))) :
    V11 m ρ c main_v56 = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (Cert.KernelIdeal.Glue.s3_keep_v56 (W10 m ρ c)).trans (h2 m ρ c hsrc)
theorem e3_arg13 (c : Dev nD) : V11 m ρ c main_arg13 = (m ((c : Thread nD τ).loc main_arg13)) :=
  ((W12_arr m ρ c 1).trans (((dat3 (V11 m ρ) c).arrAt_in 1 rfl _).trans (A_eq3 (V11 m ρ) c 1))).symm.trans (W12_main_arg13 m ρ c)
theorem e3_arg15 (c : Dev nD) : V11 m ρ c main_arg15 = (m ((c : Thread nD τ).loc main_arg15)) :=
  ((W12_arr m ρ c 3).trans (((dat3 (V11 m ρ) c).arrAt_in 3 rfl _).trans (A_eq3 (V11 m ρ) c 3))).symm.trans (W12_main_arg15 m ρ c)
theorem e3_v57 (c : Dev nD) : V11 m ρ c main_v57 = row1 (m ((c : Thread nD τ).loc main_arg14)) := by
  refine (Cert.KernelIdeal.Glue.s3_v57 (W10 m ρ c)).trans ?_; rw [w10_arg14]; exact shapeCast_row1 _ _
theorem e3_v58 (c : Dev nD) : V11 m ρ c main_v58 = row1 (m ((c : Thread nD τ).loc main_arg16)) := by
  refine (Cert.KernelIdeal.Glue.s3_v58 (W10 m ρ c)).trans ?_; rw [w10_arg16]; exact shapeCast_row1 _ _

/-! ## The results -/

/-- The logits the kernel program returns are the reference's %165 of the launched arguments. -/
theorem out_logits (c : Dev nD) (hsrc : Cert.KernelIdeal.Mask.InRange (Cert.ReferenceIdeal.Read.val_main_v1 (F := Ideal) (m ((c : Thread nD τ).loc main_arg1)))) :
    W12 m ρ c (Proc.devRef .tc main_v59) = Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W12_arr m ρ c 5).trans ?_
  rw [Cert.KernelIdeal.Region.arr3 (V11 m ρ) Cert.KernelIdeal.Body.out3_5_eq c,
    e3_v56 m ρ c hsrc, e3_arg13, e3_v57, e3_arg15, e3_v58]
  exact (Cert.ReferenceIdeal.Stage.ref_cls _ _ _ _ _ _ _ _ _ _ _ _ _ _ _ _ _).symm

/-- The features the kernel program returns are the reference's %156 of the launched arguments. -/
theorem out_feats (c : Dev nD) (hsrc : Cert.KernelIdeal.Mask.InRange (Cert.ReferenceIdeal.Read.val_main_v1 (F := Ideal) (m ((c : Thread nD τ).loc main_arg1)))) :
    W12 m ρ c (Proc.devRef .tc main_v56) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  ((W12_arr m ρ c 0).trans (((dat3 (V11 m ρ) c).arrAt_in 0 rfl _).trans (A_eq3 (V11 m ρ) c 0))).trans (e3_v56 m ρ c hsrc)

end Cert.KernelIdeal.Value

end
-- ==== Proof.RFold01.lean ====
/-
  The reference's first two stretches of host operations, read off the fold: the first (operations 1–24) leaves the two rows of the edge list and the inverse in-degrees as functions of the edge-index argument; the second (operations 25–64) leaves the projected, normalised features %48 as a function of the seven arguments it reads. A buffer a stretch does not write keeps its contents.
-/
import proofs.«404725_j721554505999_1_alg».proof.Proof.RRun
import proofs.«404725_j721554505999_1_alg».proof.Proof.RRead
import Idealize.ShloMosaic.Lib.StableHlo.Run

set_option maxRecDepth 16384

noncomputable section

namespace Cert.ReferenceIdeal.Fold.RFold01

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- A buffer that no operation of a stretch writes keeps its contents: every operation writes one buffer, another one. -/
macro "keep_stretch01" o:ident : tactic =>
  `(tactic| exact after_of_forall_not_mem _ _ (List.forall_iff_forall_mem.mp (by
      simp only [$o:ident, List.Forall, nullary_writes, unary_writes, binary_writes, ternary_writes, quaternary_writes,
        reshape_writes, binaryIndexed_writes, Finset.mem_singleton]
      repeat' apply And.intro
      all_goals exact devRef_ne_of_ne (by decide))))

end Cert.ReferenceIdeal.Fold.RFold01

namespace Cert.ReferenceIdeal.Fold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.ReferenceIdeal.Fold.RFold01

variable {F : FTy → Type} [FloatOps F]

/-! ## Stretch 0: the edge rows and the inverse in-degrees -/

theorem fold0_v1 (X : Valuation τ sig (Elt F)) (a1 : (⟨S2x640000, .i32⟩ : BufTy).Contents (Elt F)) (h1 : X (Proc.devRef .tc main_arg1) = a1) :
    after (ops_0 (F := F)) X (Proc.devRef .tc main_v1) = val_main_v1 (F := F) a1 := by
  subst h1
  simp only [ops_0]
  after_results
  rfl
theorem fold0_v3 (X : Valuation τ sig (Elt F)) (a1 : (⟨S2x640000, .i32⟩ : BufTy).Contents (Elt F)) (h1 : X (Proc.devRef .tc main_arg1) = a1) :
    after (ops_0 (F := F)) X (Proc.devRef .tc main_v3) = val_main_v3 (F := F) a1 := by
  subst h1
  simp only [ops_0]
  after_results
  rfl
theorem fold0_v15 (X : Valuation τ sig (Elt F)) (a1 : (⟨S2x640000, .i32⟩ : BufTy).Contents (Elt F)) (h1 : X (Proc.devRef .tc main_arg1) = a1) :
    after (ops_0 (F := F)) X (Proc.devRef .tc main_v15) = val_main_v15 (F := F) a1 := by
  subst h1
  simp only [ops_0]
  after_results
  rfl

theorem keep0_arg0 (X : Valuation τ sig (Elt F)) : after (ops_0 (F := F)) X (Proc.devRef .tc main_arg0) = X (Proc.devRef .tc main_arg0) := by
  keep_stretch01 ops_0
theorem keep0_arg2 (X : Valuation τ sig (Elt F)) : after (ops_0 (F := F)) X (Proc.devRef .tc main_arg2) = X (Proc.devRef .tc main_arg2) := by
  keep_stretch01 ops_0
theorem keep0_arg3 (X : Valuation τ sig (Elt F)) : after (ops_0 (F := F)) X (Proc.devRef .tc main_arg3) = X (Proc.devRef .tc main_arg3) := by
  keep_stretch01 ops_0
theorem keep0_arg4 (X : Valuation τ sig (Elt F)) : after (ops_0 (F := F)) X (Proc.devRef .tc main_arg4) = X (Proc.devRef .tc main_arg4) := by
  keep_stretch01 ops_0
theorem keep0_arg5 (X : Valuation τ sig (Elt F)) : after (ops_0 (F := F)) X (Proc.devRef .tc main_arg5) = X (Proc.devRef .tc main_arg5) := by
  keep_stretch01 ops_0
theorem keep0_arg6 (X : Valuation τ sig (Elt F)) : after (ops_0 (F := F)) X (Proc.devRef .tc main_arg6) = X (Proc.devRef .tc main_arg6) := by
  keep_stretch01 ops_0
theorem keep0_arg7 (X : Valuation τ sig (Elt F)) : after (ops_0 (F := F)) X (Proc.devRef .tc main_arg7) = X (Proc.devRef .tc main_arg7) := by
  keep_stretch01 ops_0
theorem keep0_arg8 (X : Valuation τ sig (Elt F)) : after (ops_0 (F := F)) X (Proc.devRef .tc main_arg8) = X (Proc.devRef .tc main_arg8) := by
  keep_stretch01 ops_0
theorem keep0_arg9 (X : Valuation τ sig (Elt F)) : after (ops_0 (F := F)) X (Proc.devRef .tc main_arg9) = X (Proc.devRef .tc main_arg9) := by
  keep_stretch01 ops_0
theorem keep0_arg10 (X : Valuation τ sig (Elt F)) : after (ops_0 (F := F)) X (Proc.devRef .tc main_arg10) = X (Proc.devRef .tc main_arg10) := by
  keep_stretch01 ops_0
theorem keep0_arg11 (X : Valuation τ sig (Elt F)) : after (ops_0 (F := F)) X (Proc.devRef .tc main_arg11) = X (Proc.devRef .tc main_arg11) := by
  keep_stretch01 ops_0
theorem keep0_arg12 (X : Valuation τ sig (Elt F)) : after (ops_0 (F := F)) X (Proc.devRef .tc main_arg12) = X (Proc.devRef .tc main_arg12) := by
  keep_stretch01 ops_0
theorem keep0_arg13 (X : Valuation τ sig (Elt F)) : after (ops_0 (F := F)) X (Proc.devRef .tc main_arg13) = X (Proc.devRef .tc main_arg13) := by
  keep_stretch01 ops_0
theorem keep0_arg14 (X : Valuation τ sig (Elt F)) : after (ops_0 (F := F)) X (Proc.devRef .tc main_arg14) = X (Proc.devRef .tc main_arg14) := by
  keep_stretch01 ops_0
theorem keep0_arg15 (X : Valuation τ sig (Elt F)) : after (ops_0 (F := F)) X (Proc.devRef .tc main_arg15) = X (Proc.devRef .tc main_arg15) := by
  keep_stretch01 ops_0
theorem keep0_arg16 (X : Valuation τ sig (Elt F)) : after (ops_0 (F := F)) X (Proc.devRef .tc main_arg16) = X (Proc.devRef .tc main_arg16) := by
  keep_stretch01 ops_0

/-! ## Stretch 1: the projection and its LayerNorm -/

theorem fold1_v48 (X : Valuation τ sig (Elt F)) (a0 : (⟨S50000x128, .f32⟩ : BufTy).Contents (Elt F)) (a1 : (⟨S2x640000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 a6 a7 : (⟨S128, .f32⟩ : BufTy).Contents (Elt F))
    (h0 : X (Proc.devRef .tc main_arg0) = a0) (h2 : X (Proc.devRef .tc main_arg2) = a2) (h3 : X (Proc.devRef .tc main_arg3) = a3) (h4 : X (Proc.devRef .tc main_arg4) = a4)
    (h5 : X (Proc.devRef .tc main_arg5) = a5) (h6 : X (Proc.devRef .tc main_arg6) = a6) (h7 : X (Proc.devRef .tc main_arg7) = a7) :
    after (ops_1 (F := F)) X (Proc.devRef .tc main_v48) = val_main_v48 (F := F) a0 a2 a3 a4 a5 a6 a7 := by
  subst h0 h2 h3 h4 h5 h6 h7
  simp only [ops_1]
  after_results_simp
  rfl

theorem keep1_v1 (X : Valuation τ sig (Elt F)) : after (ops_1 (F := F)) X (Proc.devRef .tc main_v1) = X (Proc.devRef .tc main_v1) := by
  keep_stretch01 ops_1
theorem keep1_v3 (X : Valuation τ sig (Elt F)) : after (ops_1 (F := F)) X (Proc.devRef .tc main_v3) = X (Proc.devRef .tc main_v3) := by
  keep_stretch01 ops_1
theorem keep1_v15 (X : Valuation τ sig (Elt F)) : after (ops_1 (F := F)) X (Proc.devRef .tc main_v15) = X (Proc.devRef .tc main_v15) := by
  keep_stretch01 ops_1
theorem keep1_arg8 (X : Valuation τ sig (Elt F)) : after (ops_1 (F := F)) X (Proc.devRef .tc main_arg8) = X (Proc.devRef .tc main_arg8) := by
  keep_stretch01 ops_1
theorem keep1_arg9 (X : Valuation τ sig (Elt F)) : after (ops_1 (F := F)) X (Proc.devRef .tc main_arg9) = X (Proc.devRef .tc main_arg9) := by
  keep_stretch01 ops_1
theorem keep1_arg10 (X : Valuation τ sig (Elt F)) : after (ops_1 (F := F)) X (Proc.devRef .tc main_arg10) = X (Proc.devRef .tc main_arg10) := by
  keep_stretch01 ops_1
theorem keep1_arg11 (X : Valuation τ sig (Elt F)) : after (ops_1 (F := F)) X (Proc.devRef .tc main_arg11) = X (Proc.devRef .tc main_arg11) := by
  keep_stretch01 ops_1
theorem keep1_arg12 (X : Valuation τ sig (Elt F)) : after (ops_1 (F := F)) X (Proc.devRef .tc main_arg12) = X (Proc.devRef .tc main_arg12) := by
  keep_stretch01 ops_1
theorem keep1_arg13 (X : Valuation τ sig (Elt F)) : after (ops_1 (F := F)) X (Proc.devRef .tc main_arg13) = X (Proc.devRef .tc main_arg13) := by
  keep_stretch01 ops_1
theorem keep1_arg14 (X : Valuation τ sig (Elt F)) : after (ops_1 (F := F)) X (Proc.devRef .tc main_arg14) = X (Proc.devRef .tc main_arg14) := by
  keep_stretch01 ops_1
theorem keep1_arg15 (X : Valuation τ sig (Elt F)) : after (ops_1 (F := F)) X (Proc.devRef .tc main_arg15) = X (Proc.devRef .tc main_arg15) := by
  keep_stretch01 ops_1
theorem keep1_arg16 (X : Valuation τ sig (Elt F)) : after (ops_1 (F := F)) X (Proc.devRef .tc main_arg16) = X (Proc.devRef .tc main_arg16) := by
  keep_stretch01 ops_1

end Cert.ReferenceIdeal.Fold

end
-- ==== Proof.RFold23.lean ====
/-
  The reference's two SAGE layers (operations 65–128 and 129–192), read off the fold: given the features the layer starts from, the inverse in-degrees, the two edge rows and the stacked layer parameters, the stretch leaves the next features (%102, then %156). A buffer a stretch does not write keeps its contents.
-/
import proofs.«404725_j721554505999_1_alg».proof.Proof.RRun
import proofs.«404725_j721554505999_1_alg».proof.Proof.RRead
import Idealize.ShloMosaic.Lib.StableHlo.Run

set_option maxRecDepth 16384

noncomputable section

namespace Cert.ReferenceIdeal.Fold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

namespace RFold23

/-- A buffer that no operation of a literal stretch writes keeps its contents over the stretch: the stretch's result
    buffers are listed one by one and each is a different reference. -/
macro "keep_over_rfold23" ops:ident : tactic =>
  `(tactic| exact after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end RFold23
open RFold23

/-! ## Stretch 2: SAGE layer 0 -/

theorem fold2_v102 (X : Valuation τ sig (Elt F)) (a0 : (⟨S50000x128, .f32⟩ : BufTy).Contents (Elt F)) (a1 : (⟨S2x640000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 a6 a7 : (⟨S128, .f32⟩ : BufTy).Contents (Elt F))
    (a8 : (⟨S2x128x128, .f32⟩ : BufTy).Contents (Elt F)) (a9 : (⟨S2x128, .f32⟩ : BufTy).Contents (Elt F)) (a10 : (⟨S2x128x128, .f32⟩ : BufTy).Contents (Elt F)) (a11 a12 : (⟨S2x128, .f32⟩ : BufTy).Contents (Elt F))
    (hh : X (Proc.devRef .tc main_v48) = val_main_v48 (F := F) a0 a2 a3 a4 a5 a6 a7)
    (hinv : X (Proc.devRef .tc main_v15) = val_main_v15 (F := F) a1) (hsrc : X (Proc.devRef .tc main_v1) = val_main_v1 (F := F) a1) (hdst : X (Proc.devRef .tc main_v3) = val_main_v3 (F := F) a1)
    (h8 : X (Proc.devRef .tc main_arg8) = a8) (h9 : X (Proc.devRef .tc main_arg9) = a9) (h10 : X (Proc.devRef .tc main_arg10) = a10) (h11 : X (Proc.devRef .tc main_arg11) = a11) (h12 : X (Proc.devRef .tc main_arg12) = a12) :
    after (ops_2 (F := F)) X (Proc.devRef .tc main_v102) = val_main_v102 (F := F) a0 a1 a2 a3 a4 a5 a6 a7 a8 a9 a10 a11 a12 := by
  simp only [ops_2]
  after_results_simp
  rw [hh, hinv, hsrc, hdst, h8, h9, h10, h11, h12]
  rfl

theorem keep2_v1 (X : Valuation τ sig (Elt F)) : after (ops_2 (F := F)) X (Proc.devRef .tc main_v1) = X (Proc.devRef .tc main_v1) := by
  keep_over_rfold23 ops_2
theorem keep2_v3 (X : Valuation τ sig (Elt F)) : after (ops_2 (F := F)) X (Proc.devRef .tc main_v3) = X (Proc.devRef .tc main_v3) := by
  keep_over_rfold23 ops_2
theorem keep2_v15 (X : Valuation τ sig (Elt F)) : after (ops_2 (F := F)) X (Proc.devRef .tc main_v15) = X (Proc.devRef .tc main_v15) := by
  keep_over_rfold23 ops_2
theorem keep2_arg8 (X : Valuation τ sig (Elt F)) : after (ops_2 (F := F)) X (Proc.devRef .tc main_arg8) = X (Proc.devRef .tc main_arg8) := by
  keep_over_rfold23 ops_2
theorem keep2_arg9 (X : Valuation τ sig (Elt F)) : after (ops_2 (F := F)) X (Proc.devRef .tc main_arg9) = X (Proc.devRef .tc main_arg9) := by
  keep_over_rfold23 ops_2
theorem keep2_arg10 (X : Valuation τ sig (Elt F)) : after (ops_2 (F := F)) X (Proc.devRef .tc main_arg10) = X (Proc.devRef .tc main_arg10) := by
  keep_over_rfold23 ops_2
theorem keep2_arg11 (X : Valuation τ sig (Elt F)) : after (ops_2 (F := F)) X (Proc.devRef .tc main_arg11) = X (Proc.devRef .tc main_arg11) := by
  keep_over_rfold23 ops_2
theorem keep2_arg12 (X : Valuation τ sig (Elt F)) : after (ops_2 (F := F)) X (Proc.devRef .tc main_arg12) = X (Proc.devRef .tc main_arg12) := by
  keep_over_rfold23 ops_2
theorem keep2_arg13 (X : Valuation τ sig (Elt F)) : after (ops_2 (F := F)) X (Proc.devRef .tc main_arg13) = X (Proc.devRef .tc main_arg13) := by
  keep_over_rfold23 ops_2
theorem keep2_arg14 (X : Valuation τ sig (Elt F)) : after (ops_2 (F := F)) X (Proc.devRef .tc main_arg14) = X (Proc.devRef .tc main_arg14) := by
  keep_over_rfold23 ops_2
theorem keep2_arg15 (X : Valuation τ sig (Elt F)) : after (ops_2 (F := F)) X (Proc.devRef .tc main_arg15) = X (Proc.devRef .tc main_arg15) := by
  keep_over_rfold23 ops_2
theorem keep2_arg16 (X : Valuation τ sig (Elt F)) : after (ops_2 (F := F)) X (Proc.devRef .tc main_arg16) = X (Proc.devRef .tc main_arg16) := by
  keep_over_rfold23 ops_2

/-! ## Stretch 3: SAGE layer 1 -/

theorem fold3_v156 (X : Valuation τ sig (Elt F)) (a0 : (⟨S50000x128, .f32⟩ : BufTy).Contents (Elt F)) (a1 : (⟨S2x640000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 a6 a7 : (⟨S128, .f32⟩ : BufTy).Contents (Elt F))
    (a8 : (⟨S2x128x128, .f32⟩ : BufTy).Contents (Elt F)) (a9 : (⟨S2x128, .f32⟩ : BufTy).Contents (Elt F)) (a10 : (⟨S2x128x128, .f32⟩ : BufTy).Contents (Elt F)) (a11 a12 : (⟨S2x128, .f32⟩ : BufTy).Contents (Elt F))
    (hh : X (Proc.devRef .tc main_v102) = val_main_v102 (F := F) a0 a1 a2 a3 a4 a5 a6 a7 a8 a9 a10 a11 a12)
    (hinv : X (Proc.devRef .tc main_v15) = val_main_v15 (F := F) a1) (hsrc : X (Proc.devRef .tc main_v1) = val_main_v1 (F := F) a1) (hdst : X (Proc.devRef .tc main_v3) = val_main_v3 (F := F) a1)
    (h8 : X (Proc.devRef .tc main_arg8) = a8) (h9 : X (Proc.devRef .tc main_arg9) = a9) (h10 : X (Proc.devRef .tc main_arg10) = a10) (h11 : X (Proc.devRef .tc main_arg11) = a11) (h12 : X (Proc.devRef .tc main_arg12) = a12) :
    after (ops_3 (F := F)) X (Proc.devRef .tc main_v156) = val_main_v156 (F := F) a0 a1 a2 a3 a4 a5 a6 a7 a8 a9 a10 a11 a12 := by
  simp only [ops_3]
  after_results_simp
  rw [hh, hinv, hsrc, hdst, h8, h9, h10, h11, h12]
  rfl

theorem keep3_arg13 (X : Valuation τ sig (Elt F)) : after (ops_3 (F := F)) X (Proc.devRef .tc main_arg13) = X (Proc.devRef .tc main_arg13) := by
  keep_over_rfold23 ops_3
theorem keep3_arg14 (X : Valuation τ sig (Elt F)) : after (ops_3 (F := F)) X (Proc.devRef .tc main_arg14) = X (Proc.devRef .tc main_arg14) := by
  keep_over_rfold23 ops_3
theorem keep3_arg15 (X : Valuation τ sig (Elt F)) : after (ops_3 (F := F)) X (Proc.devRef .tc main_arg15) = X (Proc.devRef .tc main_arg15) := by
  keep_over_rfold23 ops_3
theorem keep3_arg16 (X : Valuation τ sig (Elt F)) : after (ops_3 (F := F)) X (Proc.devRef .tc main_arg16) = X (Proc.devRef .tc main_arg16) := by
  keep_over_rfold23 ops_3

end Cert.ReferenceIdeal.Fold

end
-- ==== Proof.RFold4.lean ====
/-
  The reference's last stretch (operations 193–203, the classifier), read off the fold; and the arguments, which no operation of @main writes, after the whole list.
-/
import proofs.«404725_j721554505999_1_alg».proof.Proof.RRun
import proofs.«404725_j721554505999_1_alg».proof.Proof.RRead
import Idealize.ShloMosaic.Lib.StableHlo.Run

set_option maxRecDepth 16384

noncomputable section

namespace Cert.ReferenceIdeal.Fold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

namespace RFold4

/-- @main's seventeen arguments. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16]

/-- An operation writes exactly one buffer, and that buffer is not an argument. -/
abbrev WritesNoArg (op : HloOp τ sig (Elt F)) : Prop :=
  ∃ y : Ref sig .tc, op.writes = {Proc.devRef .tc y} ∧ y ∉ argRefs

theorem writes_0 : (ops_0 (F := F)).Forall WritesNoArg := by
  simp only [ops_0, List.Forall]
  repeat' apply And.intro
  all_goals exact ⟨_, rfl, by decide⟩
theorem writes_1 : (ops_1 (F := F)).Forall WritesNoArg := by
  simp only [ops_1, List.Forall]
  repeat' apply And.intro
  all_goals exact ⟨_, rfl, by decide⟩
theorem writes_2 : (ops_2 (F := F)).Forall WritesNoArg := by
  simp only [ops_2, List.Forall]
  repeat' apply And.intro
  all_goals exact ⟨_, rfl, by decide⟩
theorem writes_3 : (ops_3 (F := F)).Forall WritesNoArg := by
  simp only [ops_3, List.Forall]
  repeat' apply And.intro
  all_goals exact ⟨_, rfl, by decide⟩
theorem writes_4 : (ops_4 (F := F)).Forall WritesNoArg := by
  simp only [ops_4, List.Forall]
  repeat' apply And.intro
  all_goals exact ⟨_, rfl, by decide⟩

/-- Every one of the 203 operations writes one buffer that is not an argument. -/
theorem writes_all : ∀ op ∈ (ops (F := F)), WritesNoArg op := by
  intro op hop
  rcases List.mem_append.mp hop with h | hop
  · exact List.forall_iff_forall_mem.mp writes_0 op h
  rcases List.mem_append.mp hop with h | hop
  · exact List.forall_iff_forall_mem.mp writes_1 op h
  rcases List.mem_append.mp hop with h | hop
  · exact List.forall_iff_forall_mem.mp writes_2 op h
  rcases List.mem_append.mp hop with h | hop
  · exact List.forall_iff_forall_mem.mp writes_3 op h
  · exact List.forall_iff_forall_mem.mp writes_4 op hop

/-- So an argument's buffer holds after the whole list what it held before. -/
theorem kept_of_mem (X : Valuation τ sig (Elt F)) {r : Ref sig .tc} (hr : r ∈ argRefs) :
    after (ops (F := F)) X (Proc.devRef .tc r) = X (Proc.devRef .tc r) :=
  after_of_forall_not_mem _ _ fun op hop hb => by
    obtain ⟨y, hw, hy⟩ := writes_all op hop
    rw [hw, Finset.mem_singleton] at hb
    have e : r = y := Proc.devRef_injective _ hb
    exact hy (e ▸ hr)

end RFold4

/-! ## Stretch 4: the classifier -/

theorem fold4_v165 (X : Valuation τ sig (Elt F)) (a0 : (⟨S50000x128, .f32⟩ : BufTy).Contents (Elt F)) (a1 : (⟨S2x640000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 a6 a7 : (⟨S128, .f32⟩ : BufTy).Contents (Elt F))
    (a8 : (⟨S2x128x128, .f32⟩ : BufTy).Contents (Elt F)) (a9 : (⟨S2x128, .f32⟩ : BufTy).Contents (Elt F)) (a10 : (⟨S2x128x128, .f32⟩ : BufTy).Contents (Elt F)) (a11 a12 : (⟨S2x128, .f32⟩ : BufTy).Contents (Elt F))
    (a13 : (⟨S128x128, .f32⟩ : BufTy).Contents (Elt F)) (a14 : (⟨S128, .f32⟩ : BufTy).Contents (Elt F)) (a15 : (⟨S128x40, .f32⟩ : BufTy).Contents (Elt F)) (a16 : (⟨S40, .f32⟩ : BufTy).Contents (Elt F))
    (hh : X (Proc.devRef .tc main_v156) = val_main_v156 (F := F) a0 a1 a2 a3 a4 a5 a6 a7 a8 a9 a10 a11 a12)
    (h13 : X (Proc.devRef .tc main_arg13) = a13) (h14 : X (Proc.devRef .tc main_arg14) = a14) (h15 : X (Proc.devRef .tc main_arg15) = a15) (h16 : X (Proc.devRef .tc main_arg16) = a16) :
    after (ops_4 (F := F)) X (Proc.devRef .tc main_v165) = val_main_v165 (F := F) a0 a1 a2 a3 a4 a5 a6 a7 a8 a9 a10 a11 a12 a13 a14 a15 a16 := by
  simp only [ops_4]
  after_results
  rw [hh, h13, h14, h15, h16]
  rfl

theorem keep4_v156 (X : Valuation τ sig (Elt F)) : after (ops_4 (F := F)) X (Proc.devRef .tc main_v156) = X (Proc.devRef .tc main_v156) := by
  simp only [ops_4]
  after_results

/-! ## No operation of @main writes an argument -/

theorem kept_arg0 (X : Valuation τ sig (Elt F)) : after (ops (F := F)) X (Proc.devRef .tc main_arg0) = X (Proc.devRef .tc main_arg0) :=
  RFold4.kept_of_mem X (by decide)
theorem kept_arg1 (X : Valuation τ sig (Elt F)) : after (ops (F := F)) X (Proc.devRef .tc main_arg1) = X (Proc.devRef .tc main_arg1) :=
  RFold4.kept_of_mem X (by decide)
theorem kept_arg2 (X : Valuation τ sig (Elt F)) : after (ops (F := F)) X (Proc.devRef .tc main_arg2) = X (Proc.devRef .tc main_arg2) :=
  RFold4.kept_of_mem X (by decide)
theorem kept_arg3 (X : Valuation τ sig (Elt F)) : after (ops (F := F)) X (Proc.devRef .tc main_arg3) = X (Proc.devRef .tc main_arg3) :=
  RFold4.kept_of_mem X (by decide)
theorem kept_arg4 (X : Valuation τ sig (Elt F)) : after (ops (F := F)) X (Proc.devRef .tc main_arg4) = X (Proc.devRef .tc main_arg4) :=
  RFold4.kept_of_mem X (by decide)
theorem kept_arg5 (X : Valuation τ sig (Elt F)) : after (ops (F := F)) X (Proc.devRef .tc main_arg5) = X (Proc.devRef .tc main_arg5) :=
  RFold4.kept_of_mem X (by decide)
theorem kept_arg6 (X : Valuation τ sig (Elt F)) : after (ops (F := F)) X (Proc.devRef .tc main_arg6) = X (Proc.devRef .tc main_arg6) :=
  RFold4.kept_of_mem X (by decide)
theorem kept_arg7 (X : Valuation τ sig (Elt F)) : after (ops (F := F)) X (Proc.devRef .tc main_arg7) = X (Proc.devRef .tc main_arg7) :=
  RFold4.kept_of_mem X (by decide)
theorem kept_arg8 (X : Valuation τ sig (Elt F)) : after (ops (F := F)) X (Proc.devRef .tc main_arg8) = X (Proc.devRef .tc main_arg8) :=
  RFold4.kept_of_mem X (by decide)
theorem kept_arg9 (X : Valuation τ sig (Elt F)) : after (ops (F := F)) X (Proc.devRef .tc main_arg9) = X (Proc.devRef .tc main_arg9) :=
  RFold4.kept_of_mem X (by decide)
theorem kept_arg10 (X : Valuation τ sig (Elt F)) : after (ops (F := F)) X (Proc.devRef .tc main_arg10) = X (Proc.devRef .tc main_arg10) :=
  RFold4.kept_of_mem X (by decide)
theorem kept_arg11 (X : Valuation τ sig (Elt F)) : after (ops (F := F)) X (Proc.devRef .tc main_arg11) = X (Proc.devRef .tc main_arg11) :=
  RFold4.kept_of_mem X (by decide)
theorem kept_arg12 (X : Valuation τ sig (Elt F)) : after (ops (F := F)) X (Proc.devRef .tc main_arg12) = X (Proc.devRef .tc main_arg12) :=
  RFold4.kept_of_mem X (by decide)
theorem kept_arg13 (X : Valuation τ sig (Elt F)) : after (ops (F := F)) X (Proc.devRef .tc main_arg13) = X (Proc.devRef .tc main_arg13) :=
  RFold4.kept_of_mem X (by decide)
theorem kept_arg14 (X : Valuation τ sig (Elt F)) : after (ops (F := F)) X (Proc.devRef .tc main_arg14) = X (Proc.devRef .tc main_arg14) :=
  RFold4.kept_of_mem X (by decide)
theorem kept_arg15 (X : Valuation τ sig (Elt F)) : after (ops (F := F)) X (Proc.devRef .tc main_arg15) = X (Proc.devRef .tc main_arg15) :=
  RFold4.kept_of_mem X (by decide)
theorem kept_arg16 (X : Valuation τ sig (Elt F)) : after (ops (F := F)) X (Proc.devRef .tc main_arg16) = X (Proc.devRef .tc main_arg16) :=
  RFold4.kept_of_mem X (by decide)

end Cert.ReferenceIdeal.Fold

end
-- ==== Proof.RFoldAll.lean ====
/-
  The reference's two results after the whole list of operations, as Read's stage values of the launch contents of the arguments: the five stretches composed.
-/
import proofs.«404725_j721554505999_1_alg».proof.Proof.RRun
import proofs.«404725_j721554505999_1_alg».proof.Proof.RRead
import proofs.«404725_j721554505999_1_alg».proof.Proof.RFold01
import proofs.«404725_j721554505999_1_alg».proof.Proof.RFold23
import proofs.«404725_j721554505999_1_alg».proof.Proof.RFold4
import Idealize.ShloMosaic.Lib.StableHlo.Run

set_option maxRecDepth 16384

noncomputable section

namespace Cert.ReferenceIdeal.Fold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

namespace RFoldAll

/-- The fold over two lists in a row is the fold over the second, from what the fold over the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end RFoldAll

/-- The fold over the whole list is the fold over the five stretches in turn. -/
theorem after_ops (X : Valuation τ sig (Elt F)) :
    after (ops (F := F)) X = after ops_4 (after ops_3 (after ops_2 (after ops_1 (after ops_0 X)))) :=
  (RFoldAll.after_app ops_0 (ops_1 ++ (ops_2 ++ (ops_3 ++ ops_4))) X).trans <|
    (RFoldAll.after_app ops_1 (ops_2 ++ (ops_3 ++ ops_4)) _).trans <|
      (RFoldAll.after_app ops_2 (ops_3 ++ ops_4) _).trans (RFoldAll.after_app ops_3 ops_4 _)

/-- The features result %156 and the logits result %165 after the whole program, from any launch contents. -/
theorem results (X : Valuation τ sig (Elt F)) :
    after (ops (F := F)) X (Proc.devRef .tc main_v165)
        = val_main_v165 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_arg16))
    ∧ after (ops (F := F)) X (Proc.devRef .tc main_v156)
        = val_main_v156 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) := by
  -- after the first stretch: the two edge rows and the inverse in-degrees, as functions of the edge-index argument
  have s1 := fold0_v1 X (X (Proc.devRef .tc main_arg1)) rfl
  have s3 := fold0_v3 X (X (Proc.devRef .tc main_arg1)) rfl
  have s15 := fold0_v15 X (X (Proc.devRef .tc main_arg1)) rfl
  -- after the second: the projected features; the three values above and the later arguments are kept
  have t48 := fold1_v48 (after ops_0 X) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7))
    (keep0_arg0 X) (keep0_arg2 X) (keep0_arg3 X) (keep0_arg4 X) (keep0_arg5 X) (keep0_arg6 X) (keep0_arg7 X)
  have t1 := (keep1_v1 (after ops_0 X)).trans s1
  have t3 := (keep1_v3 (after ops_0 X)).trans s3
  have t15 := (keep1_v15 (after ops_0 X)).trans s15
  have t8a := (keep1_arg8 (after ops_0 X)).trans (keep0_arg8 X)
  have t9a := (keep1_arg9 (after ops_0 X)).trans (keep0_arg9 X)
  have t10a := (keep1_arg10 (after ops_0 X)).trans (keep0_arg10 X)
  have t11a := (keep1_arg11 (after ops_0 X)).trans (keep0_arg11 X)
  have t12a := (keep1_arg12 (after ops_0 X)).trans (keep0_arg12 X)
  have t13a := (keep1_arg13 (after ops_0 X)).trans (keep0_arg13 X)
  have t14a := (keep1_arg14 (after ops_0 X)).trans (keep0_arg14 X)
  have t15a := (keep1_arg15 (after ops_0 X)).trans (keep0_arg15 X)
  have t16a := (keep1_arg16 (after ops_0 X)).trans (keep0_arg16 X)
  -- after the third: the first SAGE layer's features
  have u102 := fold2_v102 (after ops_1 (after ops_0 X)) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12))
    t48 t15 t1 t3 t8a t9a t10a t11a t12a
  have u1 := (keep2_v1 (after ops_1 (after ops_0 X))).trans t1
  have u3 := (keep2_v3 (after ops_1 (after ops_0 X))).trans t3
  have u15 := (keep2_v15 (after ops_1 (after ops_0 X))).trans t15
  have u8a := (keep2_arg8 (after ops_1 (after ops_0 X))).trans t8a
  have u9a := (keep2_arg9 (after ops_1 (after ops_0 X))).trans t9a
  have u10a := (keep2_arg10 (after ops_1 (after ops_0 X))).trans t10a
  have u11a := (keep2_arg11 (after ops_1 (after ops_0 X))).trans t11a
  have u12a := (keep2_arg12 (after ops_1 (after ops_0 X))).trans t12a
  have u13a := (keep2_arg13 (after ops_1 (after ops_0 X))).trans t13a
  have u14a := (keep2_arg14 (after ops_1 (after ops_0 X))).trans t14a
  have u15a := (keep2_arg15 (after ops_1 (after ops_0 X))).trans t15a
  have u16a := (keep2_arg16 (after ops_1 (after ops_0 X))).trans t16a
  -- after the fourth: the second SAGE layer's features, the first result
  have w156 := fold3_v156 (after ops_2 (after ops_1 (after ops_0 X))) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12))
    u102 u15 u1 u3 u8a u9a u10a u11a u12a
  have w13a := (keep3_arg13 (after ops_2 (after ops_1 (after ops_0 X)))).trans u13a
  have w14a := (keep3_arg14 (after ops_2 (after ops_1 (after ops_0 X)))).trans u14a
  have w15a := (keep3_arg15 (after ops_2 (after ops_1 (after ops_0 X)))).trans u15a
  have w16a := (keep3_arg16 (after ops_2 (after ops_1 (after ops_0 X)))).trans u16a
  -- after the last: the logits, the second result; the features are kept
  have z165 := fold4_v165 (after ops_3 (after ops_2 (after ops_1 (after ops_0 X)))) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_arg16))
    w156 w13a w14a w15a w16a
  have z156 := (keep4_v156 (after ops_3 (after ops_2 (after ops_1 (after ops_0 X))))).trans w156
  exact ⟨(congrFun (after_ops X) (Proc.devRef .tc main_v165)).trans z165,
    (congrFun (after_ops X) (Proc.devRef .tc main_v156)).trans z156⟩

end Cert.ReferenceIdeal.Fold

end
-- ==== Proof.lean ====
/-
  The certificate of the GraphSAGE encoder kernel against its jnp reference, over the extended reals.

  Both programs compute, for N = 50000 nodes with 128 features and 640000 edges (src, dst):
    inv  = 1 / max(deg, 1) where deg > 0, else 0, deg the in-degree counts (a scatter-add of ones along dst);
    h₀   = LayerNorm (relu (x·W₁ + b₁)·W₂ + b₂);
    hₗ₊₁ = LayerNorm (hₗ + relu ((Σ_{e : dst e = ·} hₗ[src e])·inv·Wl + bl + hₗ·Wr)), l = 0, 1;
    logits = relu (h₂·C₁ + c₁)·C₂ + c₂;   results (logits, h₂).
  The kernel program runs the three dense stages as row-tiled regions (25 blocks of 2000 rows) and leaves the gather
  and the scatter-add to the host; the reference is one straight line of host operations. A dense stage acts row by
  row, so a region's output array is the stage of the arrays it is entered with (the row blocks tile the array), and
  that stage is what the reference's operations compute index by index: exact sums over the 128 features on both
  sides, the same words for 128.0 and ε, the same order of additions. The one place the programs differ as printed is
  the gather: the kernel's take fills a row whose normalised source id is out of [0, N) with a fill value, the
  reference's gather clamps it; under the precondition every source id lies in [-N, N), the test passes on every edge
  and both are the plain gather. No law of the extended reals beyond that is used, so finiteness of the inputs is never
  opened.

  The three frames: the kernel programs' are the generated frames; the reference's is its run with every buffer at the
  fold of its operations, no operation writing an argument. The idealization rewrote nothing, so `preserves` is trivial.
-/
import proofs.«404725_j721554505999_1_alg».proof.Defs
import proofs.«404725_j721554505999_1_alg».proof.Proof.Gen.Kernel
import proofs.«404725_j721554505999_1_alg».proof.Proof.Gen.Kernel.Skeleton
import proofs.«404725_j721554505999_1_alg».proof.Proof.Gen.Kernel.Launch
import proofs.«404725_j721554505999_1_alg».proof.Proof.Gen.Kernel.Points
import proofs.«404725_j721554505999_1_alg».proof.Proof.Gen.Kernel.Frame
import proofs.«404725_j721554505999_1_alg».proof.Proof.Gen.KernelIdeal
import proofs.«404725_j721554505999_1_alg».proof.Proof.Gen.KernelIdeal.Skeleton
import proofs.«404725_j721554505999_1_alg».proof.Proof.Gen.KernelIdeal.Launch
import proofs.«404725_j721554505999_1_alg».proof.Proof.Gen.KernelIdeal.Points
import proofs.«404725_j721554505999_1_alg».proof.Proof.Gen.KernelIdeal.Frame
import proofs.«404725_j721554505999_1_alg».proof.Proof.Gen.ReferenceIdeal
import proofs.«404725_j721554505999_1_alg».proof.Proof.Gen.Pre_finite_inputs
import proofs.«404725_j721554505999_1_alg».proof.Proof.KRun
import proofs.«404725_j721554505999_1_alg».proof.Proof.KValue3
import proofs.«404725_j721554505999_1_alg».proof.Proof.Mask
import proofs.«404725_j721554505999_1_alg».proof.Proof.RRun
import proofs.«404725_j721554505999_1_alg».proof.Proof.RFoldAll
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and no operation of it writes an argument. -/
theorem frame_referenceIdeal : Cert.frame_ReferenceIdeal := fun m ρ _ =>
  (θ_run Cert.ReferenceIdeal.defs _ _).mono (fun r h c =>
    ⟨(h c _).trans (Cert.ReferenceIdeal.Fold.kept_arg0 _),
     (h c _).trans (Cert.ReferenceIdeal.Fold.kept_arg1 _),
     (h c _).trans (Cert.ReferenceIdeal.Fold.kept_arg2 _),
     (h c _).trans (Cert.ReferenceIdeal.Fold.kept_arg3 _),
     (h c _).trans (Cert.ReferenceIdeal.Fold.kept_arg4 _),
     (h c _).trans (Cert.ReferenceIdeal.Fold.kept_arg5 _),
     (h c _).trans (Cert.ReferenceIdeal.Fold.kept_arg6 _),
     (h c _).trans (Cert.ReferenceIdeal.Fold.kept_arg7 _),
     (h c _).trans (Cert.ReferenceIdeal.Fold.kept_arg8 _),
     (h c _).trans (Cert.ReferenceIdeal.Fold.kept_arg9 _),
     (h c _).trans (Cert.ReferenceIdeal.Fold.kept_arg10 _),
     (h c _).trans (Cert.ReferenceIdeal.Fold.kept_arg11 _),
     (h c _).trans (Cert.ReferenceIdeal.Fold.kept_arg12 _),
     (h c _).trans (Cert.ReferenceIdeal.Fold.kept_arg13 _),
     (h c _).trans (Cert.ReferenceIdeal.Fold.kept_arg14 _),
     (h c _).trans (Cert.ReferenceIdeal.Fold.kept_arg15 _),
     (h c _).trans (Cert.ReferenceIdeal.Fold.kept_arg16 _)⟩)
    (Cert.ReferenceIdeal.Value.run_after (F := Ideal) m ρ)

theorem preserves : Cert.preserves_Kernel_KernelIdeal := trivial

/-- Both idealized programs end with the logits at the reference's %165 and the features at its %156, read at the
    kernel program's arguments: the kernel program by its regions' values, the reference by the fold of its operations
    at arguments that agree. -/
theorem algebraic : Cert.algebraic_KernelIdeal_ReferenceIdeal := by
  intro m ρ m' ρ' hpre hagree
  refine ⟨fun c => Cert.ReferenceIdeal.Read.val_main_v165 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.Read.val_main_v156 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Gen.run_results (F := Ideal) m ρ)
    obtain ⟨h59, h56, hargs⟩ := h c
    have hsrc := Cert.KernelIdeal.Mask.inRange_of_pre m hpre c
    exact ⟨h59.trans (Cert.KernelIdeal.Value.out_logits m ρ c hsrc), h56.trans (Cert.KernelIdeal.Value.out_feats m ρ c hsrc), hargs⟩
  · refine (θ_run Cert.ReferenceIdeal.defs _ _).mono (fun r h c => ?_) (Cert.ReferenceIdeal.Value.run_after (F := Ideal) m' ρ')
    obtain ⟨e0, e1, e2, e3, e4, e5, e6, e7, e8, e9, e10, e11, e12, e13, e14, e15, e16⟩ := hagree c
    have hr := Cert.ReferenceIdeal.Fold.results (F := Ideal) (StableHlo.launchContents m' c)
    refine ⟨(h c _).trans (hr.1.trans ?_), (h c _).trans (hr.2.trans ?_),
      (h c _).trans (Cert.ReferenceIdeal.Fold.kept_arg0 _),
      (h c _).trans (Cert.ReferenceIdeal.Fold.kept_arg1 _),
      (h c _).trans (Cert.ReferenceIdeal.Fold.kept_arg2 _),
      (h c _).trans (Cert.ReferenceIdeal.Fold.kept_arg3 _),
      (h c _).trans (Cert.ReferenceIdeal.Fold.kept_arg4 _),
      (h c _).trans (Cert.ReferenceIdeal.Fold.kept_arg5 _),
      (h c _).trans (Cert.ReferenceIdeal.Fold.kept_arg6 _),
      (h c _).trans (Cert.ReferenceIdeal.Fold.kept_arg7 _),
      (h c _).trans (Cert.ReferenceIdeal.Fold.kept_arg8 _),
      (h c _).trans (Cert.ReferenceIdeal.Fold.kept_arg9 _),
      (h c _).trans (Cert.ReferenceIdeal.Fold.kept_arg10 _),
      (h c _).trans (Cert.ReferenceIdeal.Fold.kept_arg11 _),
      (h c _).trans (Cert.ReferenceIdeal.Fold.kept_arg12 _),
      (h c _).trans (Cert.ReferenceIdeal.Fold.kept_arg13 _),
      (h c _).trans (Cert.ReferenceIdeal.Fold.kept_arg14 _),
      (h c _).trans (Cert.ReferenceIdeal.Fold.kept_arg15 _),
      (h c _).trans (Cert.ReferenceIdeal.Fold.kept_arg16 _)⟩
    · show Cert.ReferenceIdeal.Read.val_main_v165 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
      rw [e0, e1, e2, e3, e4, e5, e6, e7, e8, e9, e10, e11, e12, e13, e14, e15, e16]
    · show Cert.ReferenceIdeal.Read.val_main_v156 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
      rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
